-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S50000x512 : Shape := ⟨2, ![50000, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2048x512 .f32) (main_arg1 : IVec S2048 32) (main_arg2 : FVec F S50000x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S50000x512 .f32 := Host.absf main_arg2
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 32 := constantI S_ 32 50000#32
  let main_v11 : IVec S2048 32 := broadcastInDim S2048 ![] bcast_S_S2048 main_c_3
  let main_v12 : IVec S2048 1 := cmpi .slt main_arg1 main_v11
  let main_v13 : IVec S2048 1 := andi main_v10 main_v12
  let main_c_4 : IVec S_ 1 := constantI S_ 1 1#1
  let main_v14 : IVec S_ 1 := (fun x v => Host.reduce IntOp.andi x v reducesTo_S2048_S_d0 h_S_) main_v13 main_c_4
  let main_v15 : IVec S_ 1 := andi main_v8 main_v14
  main_v15
-- ==== Kernel.lean ====
abbrev S2048x512 : Shape := ⟨2, ![2048, 512]⟩
abbrev S2048 : Shape := ⟨1, ![2048]⟩
abbrev S50000x512 : Shape := ⟨2, ![50000, 512]⟩
abbrev S2048x1 : Shape := ⟨2, ![2048, 1]⟩
abbrev S2048x50000 : Shape := ⟨2, ![2048, 50000]⟩
abbrev S1024x512 : Shape := ⟨2, ![1024, 512]⟩
abbrev S1024x1 : Shape := ⟨2, ![1024, 1]⟩
abbrev S1024x1024 : Shape := ⟨2, ![1024, 1024]⟩
abbrev S1024 : Shape := ⟨1, ![1024]⟩
abbrev S512x1024 : Shape := ⟨2, ![512, 1024]⟩
abbrev S_ : Shape := ⟨0, ![]⟩

abbrev nBuf : Space → Nat
  | .hbm => 11
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S50000x512, .f32⟩
  | .hbm, ⟨3, _⟩ => ⟨S2048x1, .i32⟩
  | .hbm, ⟨4, _⟩ => ⟨S2048x50000, .f32⟩
  | .hbm, ⟨5, _⟩ => ⟨S2048x1, .f32⟩
  | .hbm, ⟨6, _⟩ => ⟨S2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .i32⟩
  | .local _ .vmem, ⟨5, _⟩ => ⟨S1024x1, .i32⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1024x512, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 49], ![false, false]⟩

def k0_cond2 (i : grid0.Coords) : BitVec 1 :=
  let arg1 : BitVec 32 := BitVec.ofNat 32 (i 1).val
  let c48_i32 : BitVec 32 := 48#32
  let v90 : BitVec 1 := Scalar.cmpi .eq arg1 c48_i32
  let v91 : BitVec 32 := Scalar.extui v90
  let c0_i32_39 : BitVec 32 := 0#32
  let v92 : BitVec 1 := Scalar.cmpi .ne v91 c0_i32_39
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048_S2048x1 : S2048.ShapeCasts S2048x1
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  broadcasts_S1024x1_S1024x512 : S1024x1.Broadcasts S1024x512
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  iota_S1024x1024_d1_w32 : S1024x1024.Iotas .tc 32 [1]
  broadcasts_S1024x1_S1024x1024 : S1024x1.Broadcasts S1024x1024
  natLt_1_32 : 1 < 32
  reduces_S1024x1024_S1024 : S1024x1024.Reduces [1] S1024
  shapeCasts_S2048x1_S2048 : S2048x1.ShapeCasts S2048
  reducesTo_S2048_S_d0 : S2048.ReducesTo [0] S_
  h_S_ : 0 < S_.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x512.size a
  hwx0_0 : ∀ i : grid0.Coords, EltTy.bits .f32 = 32 ∨ (Rect.block (s := S2048x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x512.size a < S50000x512.size a
  hwx0_1 : ∀ i : grid0.Coords, EltTy.bits .f32 = 32 ∨ (Rect.unit (s := S50000x512) (fun a => cc0_transform_1 i a * S1024x512.size a) (fun a => (Pipeline.Clip.of (cc0_transform_1 i a) (S1024x512.size a) (S50000x512.size a)).extent (S1024x512.size a)) fun a => Pipeline.Clip.inb (Pipeline.Clip.ok_of (hstart0_1 i a))).WholeWords (EltTy.packing .f32)
  hwxs0_1 : ∀ i : grid0.Coords, EltTy.bits .f32 = 32 ∨ (Rect.unit (s := S1024x512) (fun _ => 0) (fun a => (Pipeline.Clip.of (cc0_transform_1 i a) (S1024x512.size a) (S50000x512.size a)).extent (S1024x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S2048x1.size a
  hwx0_2 : ∀ i : grid0.Coords, EltTy.bits .i32 = 32 ∨ (Rect.block (s := S2048x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S2048x50000.size a
  hwx0_3 : ∀ i : grid0.Coords, EltTy.bits .f32 = 32 ∨ (Rect.unit (s := S2048x50000) (fun a => cc0_transform_3 i a * S1024x1024.size a) (fun a => (Pipeline.Clip.of (cc0_transform_3 i a) (S1024x1024.size a) (S2048x50000.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S2048x50000.size a)).extent (S1024x1024.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S2048x1.size a
  hwx0_4 : ∀ i : grid0.Coords, EltTy.bits .f32 = 32 ∨ (Rect.block (s := S2048x1) S1024x1.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg2) S1024x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v1_0) S1024x1024.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v1_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x512 : Shape := ⟨2, ![2048, 512]⟩
abbrev S2048 : Shape := ⟨1, ![2048]⟩
abbrev S50000x512 : Shape := ⟨2, ![50000, 512]⟩
abbrev S_ : Shape := ⟨0, ![]⟩
abbrev S2048x1 : Shape := ⟨2, ![2048, 1]⟩
abbrev S50000 : Shape := ⟨1, ![50000]⟩
abbrev S50000x1 : Shape := ⟨2, ![50000, 1]⟩
abbrev S512x50000 : Shape := ⟨2, ![512, 50000]⟩
abbrev S2048x50000 : Shape := ⟨2, ![2048, 50000]⟩
abbrev S1x50000 : Shape := ⟨2, ![1, 50000]⟩
abbrev S2048x1x1 : Shape := ⟨3, ![2048, 1, 1]⟩
abbrev S1 : Shape := ⟨1, ![1]⟩
abbrev S1x1x1 : Shape := ⟨3, ![1, 1, 1]⟩

abbrev nBuf : Space → Nat
  | .hbm => 130
  | .vmem => 0
  | .smem => 0
  | _ => 0

abbrev hbmTy0_0 (i : Nat) : BufTy := match i % 128 with
  | 0 => ⟨S2048x512, .f32⟩
  | 1 => ⟨S2048, .i32⟩
  | 2 => ⟨S50000x512, .f32⟩
  | 3 => ⟨S2048x512, .f32⟩
  | 4 => ⟨S_, .f32⟩
  | 5 => ⟨S2048, .f32⟩
  | 6 => ⟨S2048x1, .f32⟩
  | 7 => ⟨S2048x1, .f32⟩
  | 8 => ⟨S_, .f32⟩
  | 9 => ⟨S2048x1, .f32⟩
  | 10 => ⟨S2048x1, .f32⟩
  | 11 => ⟨S2048x512, .f32⟩
  | 12 => ⟨S2048x512, .f32⟩
  | 13 => ⟨S50000x512, .f32⟩
  | 14 => ⟨S_, .f32⟩
  | 15 => ⟨S50000, .f32⟩
  | 16 => ⟨S50000x1, .f32⟩
  | 17 => ⟨S50000x1, .f32⟩
  | 18 => ⟨S_, .f32⟩
  | 19 => ⟨S50000x1, .f32⟩
  | 20 => ⟨S50000x1, .f32⟩
  | 21 => ⟨S50000x512, .f32⟩
  | 22 => ⟨S50000x512, .f32⟩
  | 23 => ⟨S512x50000, .f32⟩
  | 24 => ⟨S2048x50000, .f32⟩
  | 25 => ⟨S_, .f32⟩
  | 26 => ⟨S_, .f32⟩
  | 27 => ⟨S_, .f32⟩
  | 28 => ⟨S2048x50000, .f32⟩
  | 29 => ⟨S2048x50000, .f32⟩
  | 30 => ⟨S_, .f32⟩
  | 31 => ⟨S2048x50000, .f32⟩
  | 32 => ⟨S2048x50000, .f32⟩
  | 33 => ⟨S2048x50000, .f32⟩
  | 34 => ⟨S_, .f32⟩
  | 35 => ⟨S2048x50000, .f32⟩
  | 36 => ⟨S2048x50000, .f32⟩
  | 37 => ⟨S2048x50000, .f32⟩
  | 38 => ⟨S_, .f32⟩
  | 39 => ⟨S2048x50000, .f32⟩
  | 40 => ⟨S2048x50000, .f32⟩
  | 41 => ⟨S_, .f32⟩
  | 42 => ⟨S2048x50000, .f32⟩
  | 43 => ⟨S2048x50000, .f32⟩
  | 44 => ⟨S_, .f32⟩
  | 45 => ⟨S2048x50000, .f32⟩
  | 46 => ⟨S2048x50000, .f32⟩
  | 47 => ⟨S2048x50000, .f32⟩
  | 48 => ⟨S_, .f32⟩
  | 49 => ⟨S2048x50000, .f32⟩
  | 50 => ⟨S2048x50000, .i1⟩
  | 51 => ⟨S_, .f32⟩
  | 52 => ⟨S2048x50000, .f32⟩
  | 53 => ⟨S2048x50000, .f32⟩
  | 54 => ⟨S2048x50000, .f32⟩
  | 55 => ⟨S2048x1, .i32⟩
  | 56 => ⟨S1x50000, .i32⟩
  | 57 => ⟨S2048x50000, .i32⟩
  | 58 => ⟨S2048x50000, .i32⟩
  | 59 => ⟨S2048x50000, .i1⟩
  | 60 => ⟨S2048x50000, .f32⟩
  | 61 => ⟨S_, .f32⟩
  | 62 => ⟨S2048x50000, .f32⟩
  | 63 => ⟨S2048x50000, .f32⟩
  | 64 => ⟨S2048x50000, .f32⟩
  | 65 => ⟨S2048x50000, .f32⟩
  | 66 => ⟨S2048x50000, .f32⟩
  | 67 => ⟨S_, .f32⟩
  | 68 => ⟨S2048x50000, .f32⟩
  | 69 => ⟨S2048x50000, .f32⟩
  | 70 => ⟨S_, .f32⟩
  | 71 => ⟨S2048, .f32⟩
  | 72 => ⟨S_, .f32⟩
  | 73 => ⟨S2048, .f32⟩
  | 74 => ⟨S2048, .f32⟩
  | 75 => ⟨S2048x1, .f32⟩
  | 76 => ⟨S2048x50000, .f32⟩
  | 77 => ⟨S2048x50000, .f32⟩
  | 78 => ⟨S2048x50000, .f32⟩
  | 79 => ⟨S_, .f32⟩
  | 80 => ⟨S2048, .f32⟩
  | 81 => ⟨S2048x1, .f32⟩
  | 82 => ⟨S2048x1, .f32⟩
  | 83 => ⟨S2048x50000, .f32⟩
  | 84 => ⟨S2048x50000, .f32⟩
  | 85 => ⟨S2048x1, .i32⟩
  | 86 => ⟨S_, .i32⟩
  | 87 => ⟨S2048x1, .i32⟩
  | 88 => ⟨S2048x1, .i1⟩
  | 89 => ⟨S_, .i32⟩
  | 90 => ⟨S2048x1, .i32⟩
  | 91 => ⟨S2048x1, .i32⟩
  | 92 => ⟨S2048x1, .i32⟩
  | 93 => ⟨S2048x1x1, .i32⟩
  | 94 => ⟨S1, .i32⟩
  | 95 => ⟨S_, .i32⟩
  | 96 => ⟨S2048x1x1, .i32⟩
  | 97 => ⟨S2048x1x1, .i1⟩
  | 98 => ⟨S1x1x1, .i32⟩
  | 99 => ⟨S2048x1x1, .i32⟩
  | 100 => ⟨S2048x1x1, .i1⟩
  | 101 => ⟨S2048x1x1, .i1⟩
  | 102 => ⟨S_, .i1⟩
  | 103 => ⟨S2048x1, .i1⟩
  | 104 => ⟨S2048x1, .f32⟩
  | 105 => ⟨S_, .f32⟩
  | 106 => ⟨S2048x1, .f32⟩
  | 107 => ⟨S2048x1, .f32⟩
  | 108 => ⟨S2048, .f32⟩
  | 109 => ⟨S2048, .f32⟩
  | 110 => ⟨S_, .f32⟩
  | 111 => ⟨S2048, .f32⟩
  | 112 => ⟨S_, .f32⟩
  | 113 => ⟨S2048, .f32⟩
  | 114 => ⟨S2048, .f32⟩
  | 115 => ⟨S2048, .f32⟩
  | 116 => ⟨S_, .f32⟩
  | 117 => ⟨S2048, .f32⟩
  | 118 => ⟨S2048, .f32⟩
  | 119 => ⟨S_, .f32⟩
  | 120 => ⟨S2048, .f32⟩
  | 121 => ⟨S2048, .f32⟩
  | 122 => ⟨S2048, .f32⟩
  | 123 => ⟨S_, .f32⟩
  | 124 => ⟨S_, .f32⟩
  | 125 => ⟨S_, .f32⟩
  | 126 => ⟨S_, .f32⟩
  | 127 => ⟨S_, .f32⟩
  | _ => ⟨S2048x512, .f32⟩

abbrev hbmTy0_1 (i : Nat) : BufTy := match i % 128 with
  | 0 => ⟨S2048x50000, .f32⟩
  | 1 => ⟨S2048x50000, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_cst_2 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v12 : Ref sig .tc := ⟨.hbm, 32, rfl⟩
abbrev main_v13 : Ref sig .tc := ⟨.hbm, 33, rfl⟩
abbrev main_cst_3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_v17 : Ref sig .tc := ⟨.hbm, 39, rfl⟩
abbrev main_v18 : Ref sig .tc := ⟨.hbm, 40, rfl⟩
abbrev main_cst_5 : Ref sig .tc := ⟨.hbm, 41, rfl⟩
abbrev main_v19 : Ref sig .tc := ⟨.hbm, 42, rfl⟩
abbrev main_v20 : Ref sig .tc := ⟨.hbm, 43, rfl⟩
abbrev main_cst_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_v25 : Ref sig .tc := ⟨.hbm, 50, rfl⟩
abbrev main_cst_8 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call4_v0 : Ref sig .tc := ⟨.hbm, 55, rfl⟩
abbrev main_call4_v1 : Ref sig .tc := ⟨.hbm, 56, rfl⟩
abbrev main_call4_v2 : Ref sig .tc := ⟨.hbm, 57, rfl⟩
abbrev main_call4_v3 : Ref sig .tc := ⟨.hbm, 58, rfl⟩
abbrev main_call4_v4 : Ref sig .tc := ⟨.hbm, 59, rfl⟩
abbrev main_v29 : Ref sig .tc := ⟨.hbm, 60, rfl⟩
abbrev main_cst_9 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_10 : Ref sig .tc := ⟨.hbm, 67, rfl⟩
abbrev main_v35 : Ref sig .tc := ⟨.hbm, 68, rfl⟩
abbrev main_v36 : Ref sig .tc := ⟨.hbm, 69, rfl⟩
abbrev main_call5_cst : Ref sig .tc := ⟨.hbm, 70, rfl⟩
abbrev main_call5_v0 : Ref sig .tc := ⟨.hbm, 71, rfl⟩
abbrev main_call5_cst_0 : Ref sig .tc := ⟨.hbm, 72, rfl⟩
abbrev main_call5_v1 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_v5 : Ref sig .tc := ⟨.hbm, 77, rfl⟩
abbrev main_call5_v6 : Ref sig .tc := ⟨.hbm, 78, rfl⟩
abbrev main_call5_cst_1 : Ref sig .tc := ⟨.hbm, 79, rfl⟩
abbrev main_call5_v7 : Ref sig .tc := ⟨.hbm, 80, rfl⟩
abbrev main_call5_v8 : Ref sig .tc := ⟨.hbm, 81, rfl⟩
abbrev main_call5_v9 : Ref sig .tc := ⟨.hbm, 82, rfl⟩
abbrev main_call5_v10 : Ref sig .tc := ⟨.hbm, 83, rfl⟩
abbrev main_v37 : Ref sig .tc := ⟨.hbm, 84, rfl⟩
abbrev main_v38 : Ref sig .tc := ⟨.hbm, 85, rfl⟩
abbrev main_call6_c : Ref sig .tc := ⟨.hbm, 86, rfl⟩
abbrev main_call6_v0 : Ref sig .tc := ⟨.hbm, 87, rfl⟩
abbrev main_call6_v1 : Ref sig .tc := ⟨.hbm, 88, rfl⟩
abbrev main_call6_c_0 : Ref sig .tc := ⟨.hbm, 89, rfl⟩
abbrev main_call6_v2 : Ref sig .tc := ⟨.hbm, 90, rfl⟩
abbrev main_call6_v3 : Ref sig .tc := ⟨.hbm, 91, rfl⟩
abbrev main_call6_v4 : Ref sig .tc := ⟨.hbm, 92, rfl⟩
abbrev main_call6_v5 : Ref sig .tc := ⟨.hbm, 93, rfl⟩
abbrev main_call6_c_1 : Ref sig .tc := ⟨.hbm, 94, rfl⟩
abbrev main_call6_c_2 : Ref sig .tc := ⟨.hbm, 95, rfl⟩
abbrev main_call6_v6 : Ref sig .tc := ⟨.hbm, 96, rfl⟩
abbrev main_call6_v7 : Ref sig .tc := ⟨.hbm, 97, rfl⟩
abbrev main_call6_v8 : Ref sig .tc := ⟨.hbm, 98, rfl⟩
abbrev main_call6_v9 : Ref sig .tc := ⟨.hbm, 99, rfl⟩
abbrev main_call6_v10 : Ref sig .tc := ⟨.hbm, 100, rfl⟩
abbrev main_call6_v11 : Ref sig .tc := ⟨.hbm, 101, rfl⟩
abbrev main_call6_c_3 : Ref sig .tc := ⟨.hbm, 102, rfl⟩
abbrev main_call6_v12 : Ref sig .tc := ⟨.hbm, 103, rfl⟩
abbrev main_call6_v13 : Ref sig .tc := ⟨.hbm, 104, rfl⟩
abbrev main_call6_cst : Ref sig .tc := ⟨.hbm, 105, rfl⟩
abbrev main_call6_v14 : Ref sig .tc := ⟨.hbm, 106, rfl⟩
abbrev main_v39 : Ref sig .tc := ⟨.hbm, 107, rfl⟩
abbrev main_v40 : Ref sig .tc := ⟨.hbm, 108, rfl⟩
abbrev main_v41 : Ref sig .tc := ⟨.hbm, 109, rfl⟩
abbrev main_cst_11 : Ref sig .tc := ⟨.hbm, 110, rfl⟩
abbrev main_v42 : Ref sig .tc := ⟨.hbm, 111, rfl⟩
abbrev main_cst_12 : Ref sig .tc := ⟨.hbm, 112, rfl⟩
abbrev main_v43 : Ref sig .tc := ⟨.hbm, 113, rfl⟩
abbrev main_v44 : Ref sig .tc := ⟨.hbm, 114, rfl⟩
abbrev main_v45 : Ref sig .tc := ⟨.hbm, 115, rfl⟩
abbrev main_cst_13 : Ref sig .tc := ⟨.hbm, 116, rfl⟩
abbrev main_v46 : Ref sig .tc := ⟨.hbm, 117, rfl⟩
abbrev main_v47 : Ref sig .tc := ⟨.hbm, 118, rfl⟩
abbrev main_cst_14 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_cst_15 : Ref sig .tc := ⟨.hbm, 123, rfl⟩
abbrev main_v51 : Ref sig .tc := ⟨.hbm, 124, rfl⟩
abbrev main_cst_16 : Ref sig .tc := ⟨.hbm, 125, rfl⟩
abbrev main_v52 : Ref sig .tc := ⟨.hbm, 126, rfl⟩
abbrev main_cst_17 : Ref sig .tc := ⟨.hbm, 127, rfl⟩
abbrev main_v53 : Ref sig .tc := ⟨.hbm, 128, rfl⟩
abbrev main_v54 : Ref sig .tc := ⟨.hbm, 129, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  reducesTo_S50000x512_S50000_d1 : S50000x512.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  transposes_S50000x512_S512x50000_1_0 : S50000x512.Transposes [1, 0] S512x50000
  bcast_S_S2048x50000 : S_.BroadcastsInDim S2048x50000 (![] : Fin 0 → Fin S2048x50000.rank)
  bcast_S2048x1_S2048x50000_0_1 : S2048x1.BroadcastsInDim S2048x50000 (![0, 1] : Fin 2 → Fin S2048x50000.rank)
  bcast_S1x50000_S2048x50000_0_1 : S1x50000.BroadcastsInDim S2048x50000 (![0, 1] : Fin 2 → Fin S2048x50000.rank)
  reducesTo_S2048x50000_S2048_d1 : S2048x50000.ReducesTo [1] S2048
  bcast_S_S2048 : S_.BroadcastsInDim S2048 (![] : Fin 0 → Fin S2048.rank)
  shapeCasts_S2048x1_S2048x1x1 : S2048x1.ShapeCasts S2048x1x1
  bcast_S_S2048x1x1 : S_.BroadcastsInDim S2048x1x1 (![] : Fin 0 → Fin S2048x1x1.rank)
  bcast_S1_S1x1x1_2 : S1.BroadcastsInDim S1x1x1 (![2] : Fin 1 → Fin S1x1x1.rank)
  bcast_S1x1x1_S2048x1x1_0_1_2 : S1x1x1.BroadcastsInDim S2048x1x1 (![0, 1, 2] : Fin 3 → Fin S2048x1x1.rank)
  reducesTo_S2048x1x1_S2048x1_d2 : S2048x1x1.ReducesTo [2] S2048x1
  shapeCasts_S2048x1_S2048 : S2048x1.ShapeCasts S2048
  reducesTo_S2048_S_d0 : S2048.ReducesTo [0] S_
  dot_S2048x512_S512x50000_S2048x50000_1_0_0_1_n_n_wf : DotDims.WF S2048x512 S512x50000 S2048x50000 [1] [0] [0] [1] [] []
  gather_S2048x50000_S2048x1x1_S2048x1_n_1_0_0_1_2_11_wf : GatherDims.WF S2048x50000 S2048x1x1 S2048x1 [] [1] [0] [1] [0] 2 ![1, 1]

variable [Facts₀]

def dot_S2048x512_S512x50000_S2048x50000_1_0_0_1_n_n : DotDims S2048x512 S512x50000 S2048x50000 where
  lhsContracting := [1]
  rhsContracting := [0]
  lhsNonContracting := [0]
  rhsNonContracting := [1]
  lhsBatch := []
  rhsBatch := []
  wf := dot_S2048x512_S512x50000_S2048x50000_1_0_0_1_n_n_wf
def gather_S2048x50000_S2048x1x1_S2048x1_n_1_0_0_1_2_11 : GatherDims S2048x50000 S2048x1x1 S2048x1 where
  offsetDims := []
  collapsedSliceDims := [1]
  operandBatchingDims := [0]
  startIndicesBatchingDims := [0]
  startIndexMap := [1]
  indexVectorDim := 2
  sliceSizes := ![1, 1]
  wf := gather_S2048x50000_S2048x1x1_S2048x1_n_1_0_0_1_2_11_wf

class Facts : Prop extends Facts₀ where

variable [Facts]
-- ==== Proof.BitsFrame.lean ====
/-
  The word-level kernel's frame.

  Nothing the body does — which branch it takes, which rectangle it loads or stores — depends on a value it has
  loaded: its two branches test the grid's column coordinate only. So the frame needs nothing about any buffer's
  contents: every window's staging buffer and every scratch buffer is handed to the body at some contents and
  taken back at some contents; the body's loads, stores and decided branches run in each of the three control
  cases (first column tile, middle, last); the pipeline terminates; the input windows' arrays are never written;
  and the host operations after the region write only their own result buffers, so the three arguments end as
  launched.
-/
import proofs.«430956_j65068754534622_2_alg».proof.Proof.Gen.Kernel.Frame
import proofs.«430956_j65068754534622_2_alg».proof.Proof.Gen.Kernel.Skeleton

set_option maxRecDepth 16384

noncomputable section

namespace Cert.Kernel.ArcFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's two tests, in closed form over the grid

The body branches twice, both times on grid coordinate 1 alone: at column 0 it resets its four scratch buffers, at
column 48 it stores the second output's block. No test reads a loaded value, so which way the body goes at a point is
a fact about the point's position. -/

/-- The test of the body's first conditional (grid column 0), from the grid coordinates. -/
abbrev cond0 (i : grid0.Coords) : Prop :=
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  v2 = 1#1
/-- The test of its second conditional (grid column 48). -/
abbrev cond1 (i : grid0.Coords) : Prop := k0_cond2 i = 1#1

/-- The first test holds exactly in grid column 0, -/
theorem hcond0 : ∀ t : Fin cfg0.N, cond0 (grid0.coords t) ↔ t.val % 49 = 0 :=
  (by decide +kernel : ∀ t : Fin grid0.N, cond0 (grid0.coords t) ↔ t.val % 49 = 0)
/-- the second exactly in grid column 48. -/
theorem hcond1 : ∀ t : Fin cfg0.N, cond1 (grid0.coords t) ↔ t.val % 49 = 48 :=
  (by decide +kernel : ∀ t : Fin grid0.N, cond1 (grid0.coords t) ↔ t.val % 49 = 48)

/-- The nine buffers the body is called on — five staging buffers, four scratch buffers — each at SOME contents. -/
def held (c : Dev nD) (arg2 : Memref sig .tc .vmem S1024x512 .f32) (arg3 : Memref sig .tc .vmem S1024x512 .f32) (arg4 : Memref sig .tc .vmem S1024x1 .i32) (arg5 : Memref sig .tc .vmem S1024x1024 .f32) (arg6 : Memref sig .tc .vmem S1024x1 .f32) (arg7 : Memref sig .tc .vmem S1024x512 .f32) (arg8 : Memref sig .tc .vmem S1024x1 .f32) (arg9 : Memref sig .tc .vmem S1024x1 .f32) (arg10 : Memref sig .tc .vmem S1024x1 .f32) : sProp 𝕄 :=
  iprop((∃ d, owns (c : Thread nD τ) arg2 fullShare d) ∗ (∃ d, owns (c : Thread nD τ) arg3 fullShare d) ∗ (∃ d, owns (c : Thread nD τ) arg4 fullShare d)
    ∗ (∃ d, owns (c : Thread nD τ) arg5 fullShare d) ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d) ∗ (∃ d, owns (c : Thread nD τ) arg10 fullShare d))

/-! ## The body on buffers at unnamed contents

The frame needs nothing of what any buffer holds: every load is whole-buffer, every store covers its buffer, and no
loaded value reaches a test, an offset or a check. So one statement serves every point of a control case: the nine
buffers in at some contents, the nine buffers out at some contents. The fourth combination of the two tests (column 0
and column 48 at once) is met by no point of a 49-column grid. -/

set_option maxHeartbeats 1000000 in
/-- Column 0: the reset is taken, the second output is not stored. -/
theorem kernelRun_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : cond0 i) (hc1 : ¬cond1 i) :
    ∀ (E : Set ℕ) (K : PUnit → sProp 𝕄),
      iprop(held (F := F) c arg2 arg3 arg4 arg5 arg6 arg7 arg8 arg9 arg10 ∗ (held (F := F) c arg2 arg3 arg4 arg5 arg6 arg7 arg8 arg9 arg10 -∗ K ⟨⟩))
        ⊢ wp frame (wpE (defs₀ (F := F)) Variants.none c none) E (cc0__arcface_kernel i arg2 harg2 arg3 harg3 arg4 harg4 arg5 harg5 arg6 harg6 arg7 harg7 arg8 harg8 arg9 harg9 arg10 harg10) K := by
  intro E K
  simp only [cc0__arcface_kernel_eq_skeleton]; unfold cc0__arcface_kernel_skel
  unfold held owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩, Hk⟩
  sl_exec (disch := first | exact hc0 | exact hc1)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 1000000 in
/-- Columns 1 to 47: neither region is taken. -/
theorem kernelRun_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : ¬cond1 i) :
    ∀ (E : Set ℕ) (K : PUnit → sProp 𝕄),
      iprop(held (F := F) c arg2 arg3 arg4 arg5 arg6 arg7 arg8 arg9 arg10 ∗ (held (F := F) c arg2 arg3 arg4 arg5 arg6 arg7 arg8 arg9 arg10 -∗ K ⟨⟩))
        ⊢ wp frame (wpE (defs₀ (F := F)) Variants.none c none) E (cc0__arcface_kernel i arg2 harg2 arg3 harg3 arg4 harg4 arg5 harg5 arg6 harg6 arg7 harg7 arg8 harg8 arg9 harg9 arg10 harg10) K := by
  intro E K
  simp only [cc0__arcface_kernel_eq_skeleton]; unfold cc0__arcface_kernel_skel
  unfold held owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩, Hk⟩
  sl_exec (disch := first | exact hc0 | exact hc1)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

set_option maxHeartbeats 1000000 in
/-- Column 48: no reset, the second output's block is stored. -/
theorem kernelRun_C (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hc0 : ¬cond0 i) (hc1 : cond1 i) :
    ∀ (E : Set ℕ) (K : PUnit → sProp 𝕄),
      iprop(held (F := F) c arg2 arg3 arg4 arg5 arg6 arg7 arg8 arg9 arg10 ∗ (held (F := F) c arg2 arg3 arg4 arg5 arg6 arg7 arg8 arg9 arg10 -∗ K ⟨⟩))
        ⊢ wp frame (wpE (defs₀ (F := F)) Variants.none c none) E (cc0__arcface_kernel i arg2 harg2 arg3 harg3 arg4 harg4 arg5 harg5 arg6 harg6 arg7 harg7 arg8 harg8 arg9 harg9 arg10 harg10) K := by
  intro E K
  simp only [cc0__arcface_kernel_eq_skeleton]; unfold cc0__arcface_kernel_skel
  unfold held owns
  iintro ⟨⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩⟩, Hk⟩
  sl_exec (disch := first | exact hc0 | exact hc1)
  sl_step
  iapply Hk
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

/-! ## The pipeline's proof data, every window forgotten -/

/-- Every window is forgotten: the claim reads no window's staging buffer, and of the input arrays only that the
    pipeline leaves them as it found them, which holds of an input window whatever its relation says. -/
def forgets0 : Fin 5 → Bool := fun _ => true

/-- The proof data on core `c`: the arrays as the region finds them; no staging contents named; the invariant the
    scoped rest (the four scratch buffers at some contents) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, h⟩ => Pipeline.Dat.unnamed (cfg := cfg0) ⟨0, h⟩ t
    | ⟨1, h⟩ => Pipeline.Dat.unnamed (cfg := cfg0) ⟨1, h⟩ t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- The region's invariant spelled out: each scratch buffer whole at some contents, and the generator register at some
    state. -/
theorem PhiA0_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d))
        ∗ (∃ r, prngReg c r)) := by
  unfold Pipeline.ΦA; rw [scopedRest0_eq]; simp only [owns_whole]; try rfl

/-! ## The body obligation, at a generic point -/

/-- Each window's current staging memref at point `t`, as the pipeline passes it to the body. -/
abbrev ms0 (t : Fin cfg0.N) : Memref sig .tc .vmem S1024x512 .f32 := win0_0.stage (cfg0.slots t 0)
abbrev ms1 (t : Fin cfg0.N) : Memref sig .tc .vmem S1024x512 .f32 := win0_1.stage (cfg0.slots t 1)
abbrev ms2 (t : Fin cfg0.N) : Memref sig .tc .vmem S1024x1 .i32 := win0_2.stage (cfg0.slots t 2)
abbrev ms3 (t : Fin cfg0.N) : Memref sig .tc .vmem S1024x1024 .f32 := win0_3.stage (cfg0.slots t 3)
abbrev ms4 (t : Fin cfg0.N) : Memref sig .tc .vmem S1024x1 .f32 := win0_4.stage (cfg0.slots t 4)

/-- What the body is called with at point `t`: the invariant, nothing owed, each window's current buffer at some contents, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare d)
    ∗ (∃ d, owns (c : Thread nD τ) (ms1 t) fullShare d)
    ∗ (∃ d, owns (c : Thread nD τ) (ms2 t) fullShare d)
    ∗ (∃ d, owns (c : Thread nD τ) (ms3 t) fullShare d)
    ∗ (∃ d, owns (c : Thread nD τ) (ms4 t) fullShare d))

/-- and what it returns: the same at the next point. -/
def bodyPost (c : Dev nD) (t : Fin cfg0.N) : sProp 𝕄 :=
  iprop((dats m 0 c).Φ t.succ ∗ (dats m 0 c).owesAt () t.succ
    ∗ (∃ d, owns (c : Thread nD τ) (ms0 t) fullShare d)
    ∗ (∃ d, owns (c : Thread nD τ) (ms1 t) fullShare d)
    ∗ (∃ d, owns (c : Thread nD τ) (ms2 t) fullShare d)
    ∗ (∃ d, owns (c : Thread nD τ) (ms3 t) fullShare d)
    ∗ (∃ d, owns (c : Thread nD τ) (ms4 t) fullShare d))

/-- The nine buffers regrouped: the invariant's scratch buffers and the windows' current buffers are what the body is
    called on, and conversely. -/
theorem held_iff (c : Dev nD) (t : Fin cfg0.N) (G O : sProp 𝕄) :
    iprop(((( ∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d) ∗ (∃ d, owns (c : Thread nD τ) (Memref.whole cc0_scratch3) fullShare d)) ∗ G) ∗ O
        ∗ (∃ d, owns (c : Thread nD τ) (ms0 t) fullShare d) ∗ (∃ d, owns (c : Thread nD τ) (ms1 t) fullShare d) ∗ (∃ d, owns (c : Thread nD τ) (ms2 t) fullShare d)
        ∗ (∃ d, owns (c : Thread nD τ) (ms3 t) fullShare d) ∗ (∃ d, owns (c : Thread nD τ) (ms4 t) fullShare d))
      ⊣⊢ iprop(held (F := F) c (ms0 t) (ms1 t) (ms2 t) (ms3 t) (ms4 t) (Memref.whole cc0_scratch0) (Memref.whole cc0_scratch1) (Memref.whole cc0_scratch2) (Memref.whole cc0_scratch3) ∗ G ∗ O) := by
  unfold held
  constructor
  · iintro ⟨⟨⟨S0, S1, S2, S3⟩, HG⟩, HO, W0, W1, W2, W3, W4⟩
    isplitr [HG HO]
    · isplitl [W0]; · iexact W0
      isplitl [W1]; · iexact W1
      isplitl [W2]; · iexact W2
      isplitl [W3]; · iexact W3
      isplitl [W4]; · iexact W4
      isplitl [S0]; · iexact S0
      isplitl [S1]; · iexact S1
      isplitl [S2]; · iexact S2
      iexact S3
    · isplitl [HG]; · iexact HG
      iexact HO
  · iintro ⟨⟨W0, W1, W2, W3, W4, S0, S1, S2, S3⟩, HG, HO⟩
    isplitl [S0 S1 S2 S3 HG]
    · isplitr [HG]
      · isplitl [S0]; · iexact S0
        isplitl [S1]; · iexact S1
        isplitl [S2]; · iexact S2
        iexact S3
      · iexact HG
    isplitl [HO]; · iexact HO
    isplitl [W0]; · iexact W0
    isplitl [W1]; · iexact W1
    isplitl [W2]; · iexact W2
    isplitl [W3]; · iexact W3
    iexact W4

/-- The body at any point: the closed forms say which control case the point is in, that case's run applies to the
    nine buffers at whatever they hold, and hands them back at whatever it left; the generator register and the
    (empty) debt pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, PhiA0_eq]
  refine (held_iff c t _ _).1.trans ?_
  have hback : ∀ K : sProp 𝕄, K ⊢ K := fun _ => .rfl
  have hN : t.val < 98 := lt_of_lt_of_eq t.isLt (show cfg0.N = 98 from N_0)
  by_cases h0 : t.val % 49 = 0
  · by_cases h1 : t.val % 49 = 48
    · exfalso; omega
    · iintro ⟨H, HG, HO⟩
      iapply ((kernelRun_A c (grid0.coords t) _ _ _ _ _ _ _ _ _ _ _ _ _ _ _ _ _ _ ((hcond0 t).mpr h0) (fun h => h1 ((hcond1 t).mp h))) Set.univ _)
      isplitl [H]; · iexact H
      iintro H
      iapply (held_iff c t _ _).2
      isplitl [H]; · iexact H
      isplitl [HG]; · iexact HG
      iexact HO
  · by_cases h1 : t.val % 49 = 48
    · iintro ⟨H, HG, HO⟩
      iapply ((kernelRun_C c (grid0.coords t) _ _ _ _ _ _ _ _ _ _ _ _ _ _ _ _ _ _ (fun h => h0 ((hcond0 t).mp h)) ((hcond1 t).mpr h1)) Set.univ _)
      isplitl [H]; · iexact H
      iintro H
      iapply (held_iff c t _ _).2
      isplitl [H]; · iexact H
      isplitl [HG]; · iexact HG
      iexact HO
    · iintro ⟨H, HG, HO⟩
      iapply ((kernelRun_B c (grid0.coords t) _ _ _ _ _ _ _ _ _ _ _ _ _ _ _ _ _ _ (fun h => h0 ((hcond0 t).mp h)) (fun h => h1 ((hcond1 t).mp h))) Set.univ _)
      isplitl [H]; · iexact H
      iintro H
      iapply (held_iff c t _ _).2
      isplitl [H]; · iexact H
      isplitl [HG]; · iexact HG
      iexact HO

/-- The library's body obligation, at every point, every window forgotten. -/
theorem body_obligation (c : Dev nD) : BodyObligation (dats (F := F) m 0 c) (defs₀ (F := F)) Variants.none () Set.univ forgets0 := fun t => by
  rw [bigSep_W0, bigSep_W0]
  exact sound_body m c t

/-! ## The run and the frame -/

/-- The buffers the host operations after the region write. -/
def T : Finset (Ref sig .tc) := {main_v2, main_cst, main_v3, main_cst_0, main_v4}

/-- Each host operation after the region writes only its own result buffer, one of `T`. -/
theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl
  all_goals
    intro b hb
    simp only [StableHlo.nullary_writes, StableHlo.binary_writes, StableHlo.reshape_writes, Finset.mem_singleton] at hb
    obtain rfl := Proc.devRef_injective _ hb
    decide

set_option backward.isDefEq.respectTransparency.types false in
/-- At the compiled mesh, for any values, from any memory with zero counters: every weakly fair execution of @main on
    the TensorCore terminates, and in every final state each input window's array holds its region-entry contents and
    every unscoped buffer that is no window's array and that no later host operation writes holds its region-entry
    contents; nothing is stated of the outputs or of the later operations' results. -/
theorem run_main : θ_run defs (onTc (τ := τ) (main (F := F))) (s₀ m ρ)
    (Pipeline.RDat.FramePostR (cfgs 0) (fun c => (dats m 0 c).toRForget forgets0) T (V m)) :=
  Pipeline.RDat.θ_run_frame_around_T cfgs (0 : Fin 1) launch0 defs₀ Variants.none (fun c => (dats m 0 c).toRForget forgets0) T m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- THE FRAME: the three argument arrays end as launched. The first and the third are the arrays of input windows 0
    and 1, which the pipeline only reads; the second is no window's array (the region reads a reshaped copy of it) and
    no later host operation writes it; and no host operation before the region writes any of the three. -/
theorem frame (m : (ℓ : Loc nD τ sig) → Buf (Elt F) ℓ) (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  by
  refine (θ_run defs _ _).mono (fun r h c => ?_) (run_main m ρ)
  exact ⟨(Pipeline.RDat.FramePostR.arr_in h c 0 rfl).trans ((A_eq m c 0).trans (V_main_arg0 m c)),
    ((h c).2 main_arg1 (Finset.mem_sdiff.mpr ⟨Pipeline.mem_restRefs_of main_arg1 (by decide) (by decide), by decide⟩)).trans (V_main_arg1 m c),
    (Pipeline.RDat.FramePostR.arr_in h c 1 rfl).trans ((A_eq m c 1).trans (V_main_arg2 m c))⟩

end Cert.Kernel.ArcFrame

end
-- ==== Proof.KStep.lean ====
/-
  One grid point of the kernel as a step on what it carries.

  Between grid points the kernel keeps four buffers: the normalised block of embedding rows and three columns of
  1024 entries — the running maximum, the running sum of shifted exponentials and the running pick of the label's
  logit. At a point it reads its block of class rows and its block of labels, writes the block of scaled cosines,
  and replaces the three columns; at the first column tile of a row block it first resets all four from the block of
  embedding rows, and at the last one it also writes the column of losses. This module names those functions over
  the body's arithmetic and states the body's effect on its nine buffers in the three control cases.
-/
import proofs.«430956_j65068754534622_2_alg».proof.Proof.Gen.KernelIdeal.Frame
import proofs.«430956_j65068754534622_2_alg».proof.Proof.Gen.KernelIdeal.Skeleton
import Idealize.ShloMosaic.Lib.Pipeline.Value

set_option maxRecDepth 16384

noncomputable section

namespace Cert.KernelIdeal.Arc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The step's functions -/

/-- The column tile's number as the 32-bit word the body computes with. -/
abbrev jw (i : grid0.Coords) : BitVec 32 := BitVec.ofNat 32 (i 1).val

/-- The masked logits of the tile: from the carried normalised embedding rows `S0`, the class rows `X1` and the
    labels `X2`; columns past the last class hold the named bottom constant. -/
def maskedOf (j : BitVec 32) (S0 X1 : Vec F S1024x512 .f32) (X2 : Vec F S1024x1 .i32) : FVec F S1024x1024 .f32 :=
  k0_pay14 j (k0_pay8 S0 X1) (k0_pay10 S0 X1) (k0_pay11 S0 X1) X2

/-- The new running maximum. -/
def mNew (j : BitVec 32) (S0 X1 : Vec F S1024x512 .f32) (X2 : Vec F S1024x1 .i32) (mP : Vec F S1024x1 .f32) : FVec F S1024x1 .f32 :=
  k0_pay2 (k0_pay15 j (k0_pay8 S0 X1) (k0_pay10 S0 X1) (k0_pay11 S0 X1) X2 mP)

/-- The new running sum. -/
def lNew (j : BitVec 32) (S0 X1 : Vec F S1024x512 .f32) (X2 : Vec F S1024x1 .i32) (mP lP : Vec F S1024x1 .f32) : FVec F S1024x1 .f32 :=
  k0_pay16 j (k0_pay8 S0 X1) (k0_pay10 S0 X1) (k0_pay11 S0 X1) X2 mP mP lP

/-- The new running pick. -/
def tNew (j : BitVec 32) (S0 X1 : Vec F S1024x512 .f32) (X2 : Vec F S1024x1 .i32) (tP : Vec F S1024x1 .f32) : FVec F S1024x1 .f32 :=
  k0_pay1 (k0_pay13 j X2) (maskedOf j S0 X1 X2) tP

/-- The block of scaled cosines the point writes. -/
def logitsOut (S0 X1 : Vec F S1024x512 .f32) : FVec F S1024x1024 .f32 := k0_pay9 S0 X1

/-- The column of losses the last column tile writes. -/
def nllOut (m l t : Vec F S1024x1 .f32) : FVec F S1024x1 .f32 := k0_pay3 m l t

/-- The normalised block of embedding rows the first column tile stores. -/
def embN (X0 : Vec F S1024x512 .f32) : FVec F S1024x512 .f32 := k0_pay4 X0

/-! ## The two conditions of the body -/

/-- The first column tile: the condition of the body's first `scf.if`, as it computes it. -/
abbrev condFirst (i : grid0.Coords) : Prop :=
  (Scalar.cmpi .ne (Scalar.extui (Scalar.cmpi .eq (BitVec.ofNat 32 (i 1).val) 0#32)) 0#32) = 1#1
/-- The last column tile: the condition of its second. -/
abbrev condLast (i : grid0.Coords) : Prop := k0_cond2 i = 1#1

theorem hcondFirst : ∀ t : Fin cfg0.N, condFirst (grid0.coords t) ↔ t.val % 49 = 0 :=
  (by decide +kernel : ∀ t : Fin grid0.N, condFirst (grid0.coords t) ↔ t.val % 49 = 0)
theorem hcondLast : ∀ t : Fin cfg0.N, condLast (grid0.coords t) ↔ t.val % 49 = 48 :=
  (by decide +kernel : ∀ t : Fin grid0.N, condLast (grid0.coords t) ↔ t.val % 49 = 48)

/-! ## What a whole buffer reads after whole stores

Every store of the body goes through the unmasked rectangle at offsets zero of the buffer's own sizes: it replaces
the buffer's contents, whatever they were and whatever was stored before. -/

/-- After one such store the buffer reads the store's payload. -/
theorem read_store_whole {κ : Kind} {sp : Space} {S : Shape} {e : EltTy} (v : View sig κ sp S e) (f : v.ty.Contents (Elt F))
    {off : Fin S.rank → Nat} (hz : off = fun _ => 0) (inb : ∀ a, off a + S.size a ≤ S.size a) (w : S.Idx → Elt F e) :
    v.read (Elt F) (v.writes (Elt F) f [⟨Rect.unit off S.size inb, w⟩]) = w :=
  (View.read_writes_eq_canon v f _ (fun y => ⟨_, List.mem_singleton_self _, View.mem_set_unit_zero hz inb y⟩)).trans
    (View.canon_unit_zero hz inb w)

/-- After two, the later one's. -/
theorem read_store_whole₂ {κ : Kind} {sp : Space} {S : Shape} {e : EltTy} (v : View sig κ sp S e) (f : v.ty.Contents (Elt F))
    {off off' : Fin S.rank → Nat} (hz : off = fun _ => 0) (inb : ∀ a, off a + S.size a ≤ S.size a)
    (inb' : ∀ a, off' a + S.size a ≤ S.size a) (w w' : S.Idx → Elt F e) :
    v.read (Elt F) (v.writes (Elt F) f [⟨Rect.unit off S.size inb, w⟩, ⟨Rect.unit off' S.size inb', w'⟩]) = w :=
  (View.read_writes_eq_canon v f _ (fun y => ⟨_, List.mem_cons_self, View.mem_set_unit_zero hz inb y⟩)).trans
    (View.canon_cons_unit_zero hz inb w _)

/-! ## The body on its nine buffers, case by case -/

/-- A middle column tile: neither condition holds. The three input buffers and the carried embedding rows are
    left as found, the logits buffer is overwritten, the loss buffer untouched, the three columns advanced. -/
theorem body_mid (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬condFirst i) (hc2 : ¬condLast i)
    (X0 X1 : Vec F S1024x512 .f32) (X2 : Vec F S1024x1 .i32) (Y4 : Vec F S1024x1 .f32)
    (S0 : Vec F S1024x512 .f32) (mP lP tP : Vec F S1024x1 .f32) :
    ∀ (E : Set ℕ) (K : PUnit → sProp 𝕄),
      iprop(owns (c : Thread nD τ) arg2 fullShare X0 ∗ owns (c : Thread nD τ) arg3 fullShare X1 ∗ owns (c : Thread nD τ) arg4 fullShare X2 ∗ (∃ d, owns (c : Thread nD τ) arg5 fullShare d) ∗ owns (c : Thread nD τ) arg6 fullShare Y4
          ∗ owns (c : Thread nD τ) arg7 fullShare S0 ∗ owns (c : Thread nD τ) arg8 fullShare mP ∗ owns (c : Thread nD τ) arg9 fullShare lP ∗ owns (c : Thread nD τ) arg10 fullShare tP
          ∗ (iprop(owns (c : Thread nD τ) arg2 fullShare X0 ∗ owns (c : Thread nD τ) arg3 fullShare X1 ∗ owns (c : Thread nD τ) arg4 fullShare X2 ∗ owns (c : Thread nD τ) arg5 fullShare (logitsOut S0 X1) ∗ owns (c : Thread nD τ) arg6 fullShare Y4
              ∗ owns (c : Thread nD τ) arg7 fullShare S0 ∗ owns (c : Thread nD τ) arg8 fullShare (mNew (jw i) S0 X1 X2 mP) ∗ owns (c : Thread nD τ) arg9 fullShare (lNew (jw i) S0 X1 X2 mP lP) ∗ owns (c : Thread nD τ) arg10 fullShare (tNew (jw i) S0 X1 X2 tP)) -∗ K ⟨⟩))
        ⊢ wp frame (wpE (defs₀ (F := F)) Variants.none c none) E (cc0__arcface_kernel i arg2 harg2 arg3 harg3 arg4 harg4 arg5 harg5 arg6 harg6 arg7 harg7 arg8 harg8 arg9 harg9 arg10 harg10) K := by
  intro E K
  -- the body and its two printed parts as memory operations over the named payloads
  simp only [cc0__arcface_kernel_eq_skeleton]; unfold cc0__arcface_kernel_skel
  simp only [k0_part1_eq_skeleton, k0_part2_eq_skeleton]; unfold k0_part1_skel k0_part2_skel
  unfold owns
  -- every access of the body is at offsets zero through the buffer's own sizes
  have hz : (![0, 0] : Fin 2 → Nat) = fun _ => 0 := funext fun a => by fin_cases a <;> rfl
  iintro ⟨⟨%f2, %hf2, H2⟩, ⟨%f3, %hf3, H3⟩, ⟨%f4, %hf4, H4⟩, ⟨%d5, %f5, -, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2
  obtain rfl := harg3.eq_unread hf3
  obtain rfl := harg4.eq_unread hf4
  obtain rfl := harg6.eq_unread hf6
  obtain rfl := harg7.eq_unread hf7
  obtain rfl := harg8.eq_unread hf8
  obtain rfl := harg9.eq_unread hf9
  obtain rfl := harg10.eq_unread hf10
  sl_exec (disch := first | exact hc1 | exact hc2)
  sl_step
  iapply Hk
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · -- the logits buffer: one store, of the scaled cosines of what the loads of the carried rows and of the class rows read
    iexists _; isplitr; swap; iexact H5; ipureintro
    refine (read_store_whole _ _ hz _ _).trans ?_
    sl_unfold_run_names
    simp only [View.readAt_eq_ld, harg7.read_unread, harg3.read_unread, View.ld_unit_zero (S := S1024x512) hz]
    rfl
  isplitl [H6]
  · iexists _; isplitr; swap; iexact H6; ipureintro; exact hf6
  isplitl [H7]
  · iexists _; isplitr; swap; iexact H7; ipureintro; exact hf7
  isplitl [H8]
  · -- the running maximum
    iexists _; isplitr; swap; iexact H8; ipureintro
    refine (read_store_whole _ _ hz _ _).trans ?_
    sl_unfold_run_names
    simp only [View.readAt_eq_ld, harg7.read_unread, harg3.read_unread, harg4.read_unread, harg8.read_unread, View.ld_unit_zero (S := S1024x512) hz, View.ld_unit_zero (S := S1024x1) hz]
    rfl
  isplitl [H9]
  · -- the running sum: both reads of the old maximum and the read of the old sum come before any store
    iexists _; isplitr; swap; iexact H9; ipureintro
    refine (read_store_whole _ _ hz _ _).trans ?_
    sl_unfold_run_names
    simp only [View.readAt_eq_ld, harg7.read_unread, harg3.read_unread, harg4.read_unread, harg8.read_unread, harg9.read_unread, View.ld_unit_zero (S := S1024x512) hz, View.ld_unit_zero (S := S1024x1) hz]
    rfl
  · -- the running pick: the update reads the old column
    iexists _; isplitr; swap; iexact H10; ipureintro
    refine (read_store_whole _ _ hz _ _).trans ?_
    sl_unfold_run_names
    simp only [View.readAt_eq_ld, harg7.read_unread, harg3.read_unread, harg4.read_unread, harg10.read_unread, View.ld_unit_zero (S := S1024x512) hz, View.ld_unit_zero (S := S1024x1) hz]
    rfl

/-- The first column tile of a row block: the first condition holds, the second does not. The four carried
    buffers, found at anything, are reset from the block of embedding rows `X0` and then advanced as in the middle. -/
theorem body_first (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : condFirst i) (hc2 : ¬condLast i)
    (X0 X1 : Vec F S1024x512 .f32) (X2 : Vec F S1024x1 .i32) (Y4 : Vec F S1024x1 .f32) :
    ∀ (E : Set ℕ) (K : PUnit → sProp 𝕄),
      iprop(owns (c : Thread nD τ) arg2 fullShare X0 ∗ owns (c : Thread nD τ) arg3 fullShare X1 ∗ owns (c : Thread nD τ) arg4 fullShare X2 ∗ (∃ d, owns (c : Thread nD τ) arg5 fullShare d) ∗ owns (c : Thread nD τ) arg6 fullShare Y4
          ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
          ∗ (iprop(owns (c : Thread nD τ) arg2 fullShare X0 ∗ owns (c : Thread nD τ) arg3 fullShare X1 ∗ owns (c : Thread nD τ) arg4 fullShare X2 ∗ owns (c : Thread nD τ) arg5 fullShare (logitsOut (embN X0) X1) ∗ owns (c : Thread nD τ) arg6 fullShare Y4
              ∗ owns (c : Thread nD τ) arg7 fullShare (embN X0) ∗ owns (c : Thread nD τ) arg8 fullShare (mNew (jw i) (embN X0) X1 X2 (k0_pay5 (F := F))) ∗ owns (c : Thread nD τ) arg9 fullShare (lNew (jw i) (embN X0) X1 X2 (k0_pay5 (F := F)) (k0_pay6 (F := F))) ∗ owns (c : Thread nD τ) arg10 fullShare (tNew (jw i) (embN X0) X1 X2 (k0_pay7 (F := F)))) -∗ K ⟨⟩))
        ⊢ wp frame (wpE (defs₀ (F := F)) Variants.none c none) E (cc0__arcface_kernel i arg2 harg2 arg3 harg3 arg4 harg4 arg5 harg5 arg6 harg6 arg7 harg7 arg8 harg8 arg9 harg9 arg10 harg10) K := by
  intro E K
  -- the body and its two printed parts as memory operations over the named payloads
  simp only [cc0__arcface_kernel_eq_skeleton]; unfold cc0__arcface_kernel_skel
  simp only [k0_part1_eq_skeleton, k0_part2_eq_skeleton]; unfold k0_part1_skel k0_part2_skel
  unfold owns
  -- every access of the body is at offsets zero through the buffer's own sizes
  have hz : (![0, 0] : Fin 2 → Nat) = fun _ => 0 := funext fun a => by fin_cases a <;> rfl
  iintro ⟨⟨%f2, %hf2, H2⟩, ⟨%f3, %hf3, H3⟩, ⟨%f4, %hf4, H4⟩, ⟨%d5, %f5, -, H5⟩, ⟨%f6, %hf6, H6⟩, ⟨%d7, %f7, -, H7⟩, ⟨%d8, %f8, -, H8⟩, ⟨%d9, %f9, -, H9⟩, ⟨%d10, %f10, -, H10⟩, Hk⟩
  obtain rfl := harg2.eq_unread hf2
  obtain rfl := harg3.eq_unread hf3
  obtain rfl := harg4.eq_unread hf4
  obtain rfl := harg6.eq_unread hf6
  sl_exec (disch := first | exact hc1 | exact hc2)
  sl_step
  iapply Hk
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · -- the logits buffer: the load of the carried rows comes after their reset, and reads the normalised embedding rows
    iexists _; isplitr; swap; iexact H5; ipureintro
    refine (read_store_whole _ _ hz _ _).trans ?_
    sl_unfold_run_names
    simp only [View.readAt_eq_ld, harg2.read_unread, harg3.read_unread, View.ld_unit_zero (S := S1024x512) hz, View.readCov_unit_zero (S := S1024x512) _ hz]
    rfl
  isplitl [H6]
  · iexists _; isplitr; swap; iexact H6; ipureintro; exact hf6
  isplitl [H7]
  · -- the carried rows: one store, the reset
    iexists _; isplitr; swap; iexact H7; ipureintro
    refine (read_store_whole _ _ hz _ _).trans ?_
    sl_unfold_run_names
    simp only [View.readAt_eq_ld, harg2.read_unread, View.ld_unit_zero (S := S1024x512) hz]
    rfl
  isplitl [H8]
  · -- the running maximum: reset, then advanced from what the reset left
    iexists _; isplitr; swap; iexact H8; ipureintro
    refine (read_store_whole₂ _ _ hz _ _ _ _).trans ?_
    sl_unfold_run_names
    simp only [View.readAt_eq_ld, harg2.read_unread, harg3.read_unread, harg4.read_unread, View.ld_unit_zero (S := S1024x512) hz, View.ld_unit_zero (S := S1024x1) hz, View.readCov_unit_zero (S := S1024x512) _ hz, View.readCov_unit_zero (S := S1024x1) _ hz]
    rfl
  isplitl [H9]
  · -- the running sum likewise
    iexists _; isplitr; swap; iexact H9; ipureintro
    refine (read_store_whole₂ _ _ hz _ _ _ _).trans ?_
    sl_unfold_run_names
    simp only [View.readAt_eq_ld, harg2.read_unread, harg3.read_unread, harg4.read_unread, View.ld_unit_zero (S := S1024x512) hz, View.ld_unit_zero (S := S1024x1) hz, View.readCov_unit_zero (S := S1024x512) _ hz, View.readCov_unit_zero (S := S1024x1) _ hz]
    rfl
  · -- the running pick likewise
    iexists _; isplitr; swap; iexact H10; ipureintro
    refine (read_store_whole₂ _ _ hz _ _ _ _).trans ?_
    sl_unfold_run_names
    simp only [View.readAt_eq_ld, harg2.read_unread, harg3.read_unread, harg4.read_unread, View.ld_unit_zero (S := S1024x512) hz, View.ld_unit_zero (S := S1024x1) hz, View.readCov_unit_zero (S := S1024x512) _ hz, View.readCov_unit_zero (S := S1024x1) _ hz]
    rfl

/-- The last column tile: the second condition holds, the first does not. As the middle case, and the loss buffer,
    found at anything, is overwritten with the losses computed from the advanced columns. -/
theorem body_last (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1024x1 .i32) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x512 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole)
    (hc1 : ¬condFirst i) (hc2 : condLast i)
    (X0 X1 : Vec F S1024x512 .f32) (X2 : Vec F S1024x1 .i32)
    (S0 : Vec F S1024x512 .f32) (mP lP tP : Vec F S1024x1 .f32) :
    ∀ (E : Set ℕ) (K : PUnit → sProp 𝕄),
      iprop(owns (c : Thread nD τ) arg2 fullShare X0 ∗ owns (c : Thread nD τ) arg3 fullShare X1 ∗ owns (c : Thread nD τ) arg4 fullShare X2 ∗ (∃ d, owns (c : Thread nD τ) arg5 fullShare d) ∗ (∃ d, owns (c : Thread nD τ) arg6 fullShare d)
          ∗ owns (c : Thread nD τ) arg7 fullShare S0 ∗ owns (c : Thread nD τ) arg8 fullShare mP ∗ owns (c : Thread nD τ) arg9 fullShare lP ∗ owns (c : Thread nD τ) arg10 fullShare tP
          ∗ (iprop(owns (c : Thread nD τ) arg2 fullShare X0 ∗ owns (c : Thread nD τ) arg3 fullShare X1 ∗ owns (c : Thread nD τ) arg4 fullShare X2 ∗ owns (c : Thread nD τ) arg5 fullShare (logitsOut S0 X1)
              ∗ owns (c : Thread nD τ) arg6 fullShare (nllOut (mNew (jw i) S0 X1 X2 mP) (lNew (jw i) S0 X1 X2 mP lP) (tNew (jw i) S0 X1 X2 tP))
              ∗ owns (c : Thread nD τ) arg7 fullShare S0 ∗ owns (c : Thread nD τ) arg8 fullShare (mNew (jw i) S0 X1 X2 mP) ∗ owns (c : Thread nD τ) arg9 fullShare (lNew (jw i) S0 X1 X2 mP lP) ∗ owns (c : Thread nD τ) arg10 fullShare (tNew (jw i) S0 X1 X2 tP)) -∗ K ⟨⟩))
        ⊢ wp frame (wpE (defs₀ (F := F)) Variants.none c none) E (cc0__arcface_kernel i arg2 harg2 arg3 harg3 arg4 harg4 arg5 harg5 arg6 harg6 arg7 harg7 arg8 harg8 arg9 harg9 arg10 harg10) K := by
  intro E K
  -- the body and its two printed parts as memory operations over the named payloads
  simp only [cc0__arcface_kernel_eq_skeleton]; unfold cc0__arcface_kernel_skel
  simp only [k0_part1_eq_skeleton, k0_part2_eq_skeleton]; unfold k0_part1_skel k0_part2_skel
  unfold owns
  -- every access of the body is at offsets zero through the buffer's own sizes
  have hz : (![0, 0] : Fin 2 → Nat) = fun _ => 0 := funext fun a => by fin_cases a <;> rfl
  iintro ⟨⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%f9, %hf9, H9⟩, ⟨%f10, %hf10, H10⟩, Hk⟩
  obtain rfl := harg2.eq_unread hf2
  obtain rfl := harg3.eq_unread hf3
  obtain rfl := harg4.eq_unread hf4
  obtain rfl := harg7.eq_unread hf7
  obtain rfl := harg8.eq_unread hf8
  obtain rfl := harg9.eq_unread hf9
  obtain rfl := harg10.eq_unread hf10
  sl_exec (disch := first | exact hc1 | exact hc2)
  sl_step
  iapply Hk
  isplitl [H2]
  · iexists _; isplitr; swap; iexact H2; ipureintro; exact hf2
  isplitl [H3]
  · iexists _; isplitr; swap; iexact H3; ipureintro; exact hf3
  isplitl [H4]
  · iexists _; isplitr; swap; iexact H4; ipureintro; exact hf4
  isplitl [H5]
  · -- the logits buffer
    iexists _; isplitr; swap; iexact H5; ipureintro
    refine (read_store_whole _ _ hz _ _).trans ?_
    sl_unfold_run_names
    simp only [View.readAt_eq_ld, harg7.read_unread, harg3.read_unread, View.ld_unit_zero (S := S1024x512) hz]
    rfl
  isplitl [H6]
  · -- the losses: the three loads of the branch come after the columns' stores, and read the advanced columns
    iexists _; isplitr; swap; iexact H6; ipureintro
    refine (read_store_whole _ _ hz _ _).trans ?_
    sl_unfold_run_names
    simp only [View.readAt_eq_ld, harg7.read_unread, harg3.read_unread, harg4.read_unread, harg8.read_unread, harg9.read_unread, harg10.read_unread, View.ld_unit_zero (S := S1024x512) hz, View.ld_unit_zero (S := S1024x1) hz, View.readCov_unit_zero (S := S1024x1) _ hz]
    rfl
  isplitl [H7]
  · iexists _; isplitr; swap; iexact H7; ipureintro; exact hf7
  isplitl [H8]
  · -- the running maximum
    iexists _; isplitr; swap; iexact H8; ipureintro
    refine (read_store_whole _ _ hz _ _).trans ?_
    sl_unfold_run_names
    simp only [View.readAt_eq_ld, harg7.read_unread, harg3.read_unread, harg4.read_unread, harg8.read_unread, View.ld_unit_zero (S := S1024x512) hz, View.ld_unit_zero (S := S1024x1) hz]
    rfl
  isplitl [H9]
  · -- the running sum
    iexists _; isplitr; swap; iexact H9; ipureintro
    refine (read_store_whole _ _ hz _ _).trans ?_
    sl_unfold_run_names
    simp only [View.readAt_eq_ld, harg7.read_unread, harg3.read_unread, harg4.read_unread, harg8.read_unread, harg9.read_unread, View.ld_unit_zero (S := S1024x512) hz, View.ld_unit_zero (S := S1024x1) hz]
    rfl
  · -- the running pick
    iexists _; isplitr; swap; iexact H10; ipureintro
    refine (read_store_whole _ _ hz _ _).trans ?_
    sl_unfold_run_names
    simp only [View.readAt_eq_ld, harg7.read_unread, harg3.read_unread, harg4.read_unread, harg10.read_unread, View.ld_unit_zero (S := S1024x512) hz, View.ld_unit_zero (S := S1024x1) hz]
    rfl

end Cert.KernelIdeal.Arc

end
-- ==== Proof.ArcMath.lean ====
/-
  The streaming form of log-sum-exp over the real numbers.

  For a sequence `x 0, x 1, …` of reals, the running maximum `mR x n` of the first `n` terms, the running sum
  `lR x n = ∑_{k<n} exp (x k - mR x n)` and the running pick `tR x y n = ∑_{k<n} [k = y] · x k` can be advanced
  over a further stretch of terms from their own previous values alone — the new maximum is the larger of the old
  one and the stretch's, and the old sum is rescaled by `exp (old max - new max)` — and after all `N` terms
  `mR + log lR - tR` is the negative log-softmax of `x` at `y`.
-/
import Mathlib.Analysis.SpecialFunctions.Log.Basic
import Mathlib.Analysis.SpecialFunctions.Exp
import Mathlib.Data.EReal.Basic
import Mathlib.Order.Interval.Finset.Nat
import Mathlib.Algebra.BigOperators.Intervals

noncomputable section

namespace Cert.Arc.Math

open Finset

/-- The largest of `x 0, …, x (n-1)` as an extended real (`⊥` for `n = 0`). -/
def mE (x : ℕ → ℝ) (n : ℕ) : EReal := (range n).sup fun k => ((x k : ℝ) : EReal)

/-- The same as a real number (`0` for `n = 0`). -/
def mR (x : ℕ → ℝ) (n : ℕ) : ℝ := (mE x n).toReal

/-- `∑_{k<n} exp (x k - max)`, the maximum taken over the same `n` terms. -/
def lR (x : ℕ → ℝ) (n : ℕ) : ℝ := ∑ k ∈ range n, Real.exp (x k - mR x n)

/-- `x y` once `y < n`, else `0`: the sum of the terms picked by the indicator of `y`. -/
def tR (x : ℕ → ℝ) (y : ℕ) (n : ℕ) : ℝ := ∑ k ∈ range n, if k = y then x k else 0

/-- The negative log-softmax of the first `N` terms at `y`, computed the shifted way:
    `-((x y - M) - log ∑ exp (x k - M))` with `M` the maximum. -/
def nllR (x : ℕ → ℝ) (y : ℕ) (N : ℕ) : ℝ := -((x y - mR x N) - Real.log (∑ k ∈ range N, Real.exp (x k - mR x N)))

/-- A nonempty prefix has a real maximum. -/
theorem mE_eq_coe (x : ℕ → ℝ) {n : ℕ} (hn : 0 < n) : mE x n = ((mR x n : ℝ) : EReal) := by
  -- a nonempty finite supremum in a linear order is attained, here at a real coercion
  have hne : (range n).Nonempty := nonempty_range_iff.mpr (Nat.pos_iff_ne_zero.mp hn)
  obtain ⟨i, _, hi⟩ := Finset.exists_mem_eq_sup (range n) hne (fun k => ((x k : ℝ) : EReal))
  have h : mE x n = ((x i : ℝ) : EReal) := hi
  unfold mR
  rw [h, EReal.toReal_coe]

/-- Every term of the prefix is at most the maximum. -/
theorem le_mR (x : ℕ → ℝ) {n k : ℕ} (hk : k < n) : x k ≤ mR x n := by
  have h1 : ((x k : ℝ) : EReal) ≤ mE x n :=
    Finset.le_sup (f := fun k => ((x k : ℝ) : EReal)) (mem_range.mpr hk)
  rw [mE_eq_coe x (lt_of_le_of_lt (Nat.zero_le k) hk)] at h1
  exact EReal.coe_le_coe_iff.mp h1

/-- The maximum over a longer prefix is the larger of the shorter prefix's and the added stretch's. -/
theorem mE_append (x : ℕ → ℝ) {n n' : ℕ} (h : n ≤ n') :
    mE x n' = max (mE x n) ((Ico n n').sup fun k => ((x k : ℝ) : EReal)) := by
  -- `[0, n') = [0, n) ∪ [n, n')`, and a supremum over a union is the join of the two suprema
  have hsplit : range n' = range n ∪ Ico n n' := by
    rw [range_eq_Ico, range_eq_Ico, Ico_union_Ico_eq_Ico (Nat.zero_le n) h]
  unfold mE
  rw [hsplit, sup_union]

/-- The running sum is positive on a nonempty prefix. -/
theorem lR_pos (x : ℕ → ℝ) {n : ℕ} (hn : 0 < n) : 0 < lR x n := by
  unfold lR
  exact Finset.sum_pos (fun k _ => Real.exp_pos _) (nonempty_range_iff.mpr (Nat.pos_iff_ne_zero.mp hn))

/-- Advancing the running sum: rescale by `exp (old max - new max)`, add the stretch. -/
theorem lR_append (x : ℕ → ℝ) {n n' : ℕ} (hn : 0 < n) (h : n ≤ n') :
    lR x n' = Real.exp (mR x n - mR x n') * lR x n + ∑ k ∈ Ico n n', Real.exp (x k - mR x n') := by
  -- split the sum at `n`; on the first part `exp (x k - M') = exp (M - M') * exp (x k - M)`
  unfold lR
  rw [← Finset.sum_range_add_sum_Ico (fun k => Real.exp (x k - mR x n')) h, Finset.mul_sum]
  congr 1
  refine Finset.sum_congr rfl fun k _ => ?_
  rw [← Real.exp_add]
  congr 1
  ring

/-- Advancing the running pick. -/
theorem tR_append (x : ℕ → ℝ) (y : ℕ) {n n' : ℕ} (h : n ≤ n') :
    tR x y n' = tR x y n + ∑ k ∈ Ico n n', if k = y then x k else 0 := by
  unfold tR
  exact (Finset.sum_range_add_sum_Ico (fun k => if k = y then x k else 0) h).symm

/-- Once `y` has been passed the running pick is `x y`. -/
theorem tR_of_lt (x : ℕ → ℝ) {y n : ℕ} (hy : y < n) : tR x y n = x y := by
  unfold tR
  rw [Finset.sum_ite_eq', if_pos (mem_range.mpr hy)]

/-- After all terms: running maximum plus the logarithm of the running sum minus the running pick is the negative
    log-softmax. -/
theorem stream_eq_nllR (x : ℕ → ℝ) {y N : ℕ} (hy : y < N) : mR x N + Real.log (lR x N) - tR x y N = nllR x y N := by
  rw [tR_of_lt x hy]
  unfold nllR lR
  ring

end Cert.Arc.Math

end
-- ==== Proof.ArcSpec.lean ====
/-
  What both programs compute, stated once over the argument arrays read as extended reals.

  A row of 512 numbers is divided by its Euclidean norm (clamped below by a small constant); the cosine of an
  embedding row and a class row is the sum of the products of their normalised entries, clamped into an interval
  strictly inside (-1, 1); a logit is that cosine — at the row's own label replaced by the margin-shifted cosine —
  times 64. The second result is the array of cosines times 64. The first result is the mean over the 2048 rows of
  the negative log-softmax of the row of 50000 logits at the row's label. Because every cosine is clamped, every
  logit is a real number whatever the arguments hold, so the softmax part is ordinary real analysis (ArcMath).
-/
import proofs.«430956_j65068754534622_2_alg».proof.Proof.ArcMath
import Idealize.ShloMosaic.PureOps.Ideal
import Idealize.ShloMosaic.PureOps.Ideal.Laws
import Idealize.ShloMosaic.Lib.ValueIdx

noncomputable section

namespace Cert.Arc

open Idealize.ShloMosaic Idealize.ShloMosaic.ValueIdx

/-! ## The constants, as the extended reals their single-precision patterns denote -/

/-- 1e-12 (single precision): the lower clamp of a norm. -/
abbrev epsN : EReal := Ideal.ofBits .f32 0x2B8CBCCC#32
/-- -(1 - 1e-7) and 1 - 1e-7 (single precision): the interval a cosine is clamped into. -/
abbrev loC : EReal := Ideal.ofBits .f32 0xBF7FFFFE#32
abbrev hiC : EReal := Ideal.ofBits .f32 0x3F7FFFFE#32
/-- 1. -/
abbrev oneC : EReal := Ideal.ofBits .f32 0x3F800000#32
/-- 1e-7 (single precision): the lower clamp of a sine. -/
abbrev epsS : EReal := Ideal.ofBits .f32 0x33D6BF95#32
/-- cos 0.6, sin 0.6, cos (π - 0.6), 0.6 · sin (π - 0.6), in single precision. -/
abbrev cmC : EReal := Ideal.ofBits .f32 0x3F534932#32
abbrev smC : EReal := Ideal.ofBits .f32 0x3F108C69#32
abbrev thC : EReal := Ideal.ofBits .f32 0xBF534932#32
abbrev mmC : EReal := Ideal.ofBits .f32 0x3EAD754A#32
/-- 64. -/
abbrev sc64 : EReal := Ideal.ofBits .f32 0x42800000#32

/-! ## Cosines and logits -/

/-- Entry `d` of a row divided by the row's Euclidean norm, the norm clamped below. -/
def nrm (a : Fin 512 → EReal) (d : Fin 512) : EReal :=
  Ideal.div (a d) (max (Ideal.sqrt (∑ d' : Fin 512, a d' * a d')) epsN)

/-- The clamped cosine of two rows. -/
def cosRow (a b : Fin 512 → EReal) : EReal :=
  min hiC (max loC (∑ d : Fin 512, nrm a d * nrm b d))

/-- The margin-shifted cosine: `c · cos m - max (√(1 - c²)) ε · sin m` above the threshold, `c - mm` below. -/
def tlE (c : EReal) : EReal :=
  Scalar.select (Ideal.cmp .ogt c thC) (c * cmC - max (Ideal.sqrt (oneC - c * c)) epsS * smC) (c - mmC)

/-- A logit from a cosine `c` and the indicator `oh` (1 at the row's label, else 0). -/
def logitE (c oh : EReal) : EReal := (c * (oneC - oh) + tlE c * oh) * sc64

/-- The indicator as an extended real. -/
def ohE (p : Prop) [Decidable p] : EReal := if p then 1 else 0

section Arrays

variable (e : (⟨2, ![2048, 512]⟩ : Shape).Idx → EReal) (w : (⟨2, ![50000, 512]⟩ : Shape).Idx → EReal)
  (lab : Fin 2048 → BitVec 32)

/-- The cosine of embedding row `r` and class row `k`. -/
def cosA (r : Fin 2048) (k : Fin 50000) : EReal := cosRow (fun d => e (ix2 r d)) (fun d => w (ix2 k d))

/-- The logit of row `r` at class `k`: the label word of the row compared with the class number as 32-bit words. -/
def xA (r : Fin 2048) (k : Fin 50000) : EReal := logitE (cosA e w r k) (ohE (lab r = BitVec.ofNat 32 k.val))

/-- The same as a real number, continued by 0 past the last class. -/
def xR (r : Fin 2048) (k : ℕ) : ℝ := if h : k < 50000 then (xA e w lab r ⟨k, h⟩).toReal else 0

/-- The label of row `r` as a number. -/
def yOf (r : Fin 2048) : ℕ := (lab r).toNat

/-- The negative log-softmax of row `r` at its label. -/
def nllRow (r : Fin 2048) : ℝ := Math.nllR (xR e w lab r) (yOf lab r) 50000

/-- The second result: cosines times 64. -/
def logitsA : (⟨2, ![2048, 50000]⟩ : Shape).Idx → EReal :=
  fun i => cosA e w ⟨(i 0).val, idx2_lt0 i⟩ ⟨(i 1).val, idx2_lt1 i⟩ * sc64

/-- The per-row losses as a column. -/
def nllArr : (⟨2, ![2048, 1]⟩ : Shape).Idx → EReal := fun i => ((nllRow e w lab ⟨(i 0).val, idx2_lt0 i⟩ : ℝ) : EReal)

/-- The per-row losses as a vector. -/
def nllVec : (⟨1, ![2048]⟩ : Shape).Idx → EReal := fun i => ((nllRow e w lab ⟨(i 0).val, (i 0).isLt⟩ : ℝ) : EReal)

/-- The first result: the host's sum of the per-row losses from 0, divided by 2048. -/
def lossA (hred : (⟨1, ![2048]⟩ : Shape).ReducesTo [0] ⟨0, ![]⟩) (h0 : 0 < (⟨0, ![]⟩ : Shape).numel) : (⟨0, ![]⟩ : Shape).Idx → EReal :=
  Host.divf (F := Ideal) (φ := .f32) (Host.reduceAdd (F := Ideal) (φ := .f32) (nllVec e w lab) (constant (F := Ideal) ⟨0, ![]⟩ .f32 0x00000000#32) hred h0)
    (constant (F := Ideal) ⟨0, ![]⟩ .f32 0x45000000#32)

/-! ## The running state of the streamed softmax, per block of 1024 rows

After the first `n` classes have been processed, the three columns of 1024 entries the kernel carries for row
block `i` hold, for its row `p`: the largest logit so far, the sum of `exp (logit - largest)` so far, and the
label's logit if the label has been passed (else 0). -/

/-- Row `p` of row block `i`. -/
def rowOf (i : Fin 2) (p : Fin 1024) : Fin 2048 := ⟨1024 * i.val + p.val, by have := i.isLt; have := p.isLt; omega⟩

def mCol (i : Fin 2) (n : ℕ) : (⟨2, ![1024, 1]⟩ : Shape).Idx → EReal :=
  fun y => ((Math.mR (xR e w lab (rowOf i ⟨(y 0).val, idx2_lt0 y⟩)) n : ℝ) : EReal)
def lCol (i : Fin 2) (n : ℕ) : (⟨2, ![1024, 1]⟩ : Shape).Idx → EReal :=
  fun y => ((Math.lR (xR e w lab (rowOf i ⟨(y 0).val, idx2_lt0 y⟩)) n : ℝ) : EReal)
def tCol (i : Fin 2) (n : ℕ) : (⟨2, ![1024, 1]⟩ : Shape).Idx → EReal :=
  fun y => ((Math.tR (xR e w lab (rowOf i ⟨(y 0).val, idx2_lt0 y⟩)) (yOf lab (rowOf i ⟨(y 0).val, idx2_lt0 y⟩)) n : ℝ) : EReal)

/-- How many classes have been processed after column tile `j` (tiles of 1024, the last one cut at 50000). -/
def colsAfter (j : ℕ) : ℕ := min (1024 * (j + 1)) 50000

end Arrays

end Cert.Arc

end
-- ==== Proof.LibColumnLayout.lean ====
/-
  A column kept beside a matrix: the layout steps of a row reduction that keeps its axis.

  A vector of `a` entries viewed as an `a × 1` column reads, at row `i`, entry `i` (and back); a column
  broadcast along the rows of an `a × b` matrix reads, at `(i, j)`, the column's entry `i`; the index a
  reduction over the second axis of a matrix inserts over result index `i` with coordinate `k` is `(i, k)`.
  Together: at the ideal values the sum over the second axis of a matrix, kept as a column, reads at row `i` the
  sum over `k` of the matrix's entries `(i, k)`; and a one-axis contraction of two matrices, read at an output
  index, is the sum over the contracted coordinate of the products of the operands' entries.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

variable {α : Type}

/-! ## A vector as a column, a column as a vector -/

/-- A vector of `a` entries cast to an `a × 1` column reads, at `(i, u)`, the vector's entry `i`, whatever the
    unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a vector of `a` entries reads, at `i`, the column's entry `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-! ## A column broadcast along the rows -/

/-- An `a × 1` column broadcast to `a × b` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The index a reduction over the second axis inserts -/

/-- Over result index `i` of a matrix's reduction along its second axis, the source index with coordinate `k`
    inserted on that axis is `(i, k)`. -/
theorem reduces_ab_a_lift {a b : ℕ} (h : (⟨2, ![a, b]⟩ : Shape).Reduces [1] ⟨1, ![a]⟩) (i : Fin a) (k : Fin b) :
    h.lift (ix1 i) k = ix2 i k := by
  funext c
  apply Fin.ext
  match c with
  | ⟨0, _⟩ => rfl
  | ⟨1, _⟩ => rfl

/-- At the ideal values the sum over the second axis of an `a × b` matrix, kept as an `a × 1` column, reads at
    row `i` the sum over `k` of the matrix's entries `(i, k)`: nothing is added to it. -/
theorem rowSum_column_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (i : Fin a) (u : Fin 1) :
    shapeCast ⟨2, ![a, 1]⟩ (multiReduction (F := Ideal) .add [1] ⟨1, ![a]⟩ src acc h hφ hacc) hc (ix2 i u)
      = ∑ k : Fin b, src (ix2 i k) := by
  refine (shapeCast_a_a1_apply _ hc i u).trans ?_
  refine (Ideal.multiReduction_add_single src acc h hφ hacc (ix1 i)).trans ?_
  exact Finset.sum_congr rfl fun k _ => congrArg src (reduces_ab_a_lift h i k)

end Cert.Lib

end
-- ==== Proof.KCosAt.lean ====
/-
  The cosine block of one grid point, read at an index.

  At the ideal instance the body's normalisation of the embedding rows, its normalisation of the class rows, the
  change of format on the way into the matrix unit (the identity), the transposition, the matrix product onto a
  zero accumulator and the clamp give, at row `p` and column `q` of the block, the clamped cosine of embedding
  row `p` and class row `q` of the two blocks — whatever the rows hold. The stored block is that times 64.
-/
import proofs.«430956_j65068754534622_2_alg».proof.Proof.KStep
import proofs.«430956_j65068754534622_2_alg».proof.Proof.ArcSpec
import proofs.«430956_j65068754534622_2_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Arc

open Cert.KernelIdeal Cert.KernelIdeal.Gen Cert.Arc
open Idealize.ShloMosaic Idealize.ShloMosaic.ValueIdx

/-! ## The body's two values as terms

Both normalisations are one expression of the block they divide: the block over the column of its rows' clamped
norms, broadcast along the rows. The first value is that expression of the embedding block; the second is the
clamp of the matrix product of the carried block with the transposed normalised class block. -/

/-- A block with each row divided by its norm clamped below, as the body writes it: the squares summed along the
    rows (from the zero word), kept as a column, the root, the maximum with the small constant, the column
    broadcast back along the rows, the quotient. -/
def nrmBlock (X : Vec Ideal S1024x512 .f32) : FVec Ideal S1024x512 .f32 :=
  divf X (broadcastTo S1024x512
    (maximumf
      (sqrt (shapeCast S1024x1
        (multiReduction .add [1] S1024 (mulf X X) 0x00000000#32 reduces_S1024x512_S1024 (.inl rfl) rfl)
        shapeCasts_S1024_S1024x1))
      (broadcast S1024x1 (Scalar.ofBits .f32 0x2B8CBCCC#32)))
    broadcasts_S1024x1_S1024x512)

/-- The stored embedding block is the normalised block, cast to its own shape. -/
theorem embN_eq (X0 : Vec Ideal S1024x512 .f32) :
    embN (F := Ideal) X0 = shapeCast S1024x512 (nrmBlock X0) shapeCasts_S1024x512_S1024x512 := rfl

/-- The clamped product: the carried block times the transposed normalised class block, onto zeros, then the
    maximum with the lower bound and the minimum with the upper bound, the bound first in both. -/
theorem k0_pay8_eq (S0 X1 : Vec Ideal S1024x512 .f32) :
    k0_pay8 (F := Ideal) S0 X1
      = minimumf (broadcast S1024x1024 (Scalar.ofBits .f32 0x3F7FFFFE#32))
          (maximumf (broadcast S1024x1024 (Scalar.ofBits .f32 0xBF7FFFFE#32))
            (matmul dot_S1024x512_S512x1024_S1024x1024_1_0_0_1_n_n none
              (truncf .bf16 S0 bitsLt_bf16_f32)
              (transpose S512x1024 [1, 0] (truncf .bf16 (nrmBlock X1) bitsLt_bf16_f32) transposes_S1024x512_p1_0_S512x1024)
              (constant S1024x1024 .f32 0x00000000#32))) := rfl

/-! ## The normalised block at an index -/

/-- Entry `(p, d)` of the normalised block is entry `d` of row `p` over the row's clamped norm. The lane sum
    starts from the zero word and adds nothing: it is the sum of the squares itself. -/
theorem nrmBlock_at (X : Vec Ideal S1024x512 .f32) (p : Fin 1024) (d : Fin 512) :
    nrmBlock X (ix2 p d) = nrm (fun d' => X (ix2 p d')) d := by
  unfold nrmBlock nrm
  refine (divf_apply _ _ _).trans ?_
  refine congrArg (Ideal.div (X (ix2 p d))) ?_
  refine (Cert.Lib.broadcastTo_a1_ab_apply _ broadcasts_S1024x1_S1024x512 p d).trans ?_
  refine congrArg (fun s => max (Ideal.sqrt s) epsN) ?_
  exact Cert.Lib.rowSum_column_apply (mulf X X) _ reduces_S1024x512_S1024 _ _ shapeCasts_S1024_S1024x1 p 0

/-- The block of normalised embedding rows at an index: the entry over its row's clamped norm. -/
theorem embN_at (X0 : Vec Ideal S1024x512 .f32) (p : Fin 1024) (d : Fin 512) :
    embN (F := Ideal) X0 (ix2 p d) = nrm (fun d' => X0 (ix2 p d')) d := by
  rw [embN_eq, shapeCast_self]
  exact nrmBlock_at X0 p d

/-! ## The matrix product at an index

The product contracts axis 1 of its left operand with axis 0 of its right one; the result's axes are the left
operand's axis 0 and the right operand's axis 1. Onto the zero block it is the sum over the contracted coordinate. -/

/-- The left operand's row is the result's row. -/
theorem lhs_axis0 (i : S1024x1024.Idx) (r : dot_S1024x512_S512x1024_S1024x1024_1_0_0_1_n_n.contr.Idx) :
    (dot_S1024x512_S512x1024_S1024x1024_1_0_0_1_n_n.lhsIdx i r 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl

/-- The left operand's column is the contracted coordinate. -/
theorem lhs_axis1 (i : S1024x1024.Idx) (r : dot_S1024x512_S512x1024_S1024x1024_1_0_0_1_n_n.contr.Idx) :
    (dot_S1024x512_S512x1024_S1024x1024_1_0_0_1_n_n.lhsIdx i r 1).val = (r ⟨0, by decide⟩).val :=
  dot_S1024x512_S512x1024_S1024x1024_1_0_0_1_n_n.lhsIdx_val_of_single rfl i r

/-- The right operand's row is the contracted coordinate. -/
theorem rhs_axis0 (i : S1024x1024.Idx) (r : dot_S1024x512_S512x1024_S1024x1024_1_0_0_1_n_n.contr.Idx) :
    (dot_S1024x512_S512x1024_S1024x1024_1_0_0_1_n_n.rhsIdx i r 0).val = (r ⟨0, by decide⟩).val :=
  dot_S1024x512_S512x1024_S1024x1024_1_0_0_1_n_n.rhsIdx_val_of_single rfl i r

/-- The right operand's column is the result's column. -/
theorem rhs_axis1 (i : S1024x1024.Idx) (r : dot_S1024x512_S512x1024_S1024x1024_1_0_0_1_n_n.contr.Idx) :
    (dot_S1024x512_S512x1024_S1024x1024_1_0_0_1_n_n.rhsIdx i r 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- The product onto zeros at `(p, q)`: the sum over `k` of the left operand at `(p, k)` times the right one at
    `(k, q)`. The zero accumulator adds nothing. -/
theorem matmul_at (L : FVec Ideal S1024x512 .bf16) (R : FVec Ideal S512x1024 .bf16) (p q : Fin 1024) :
    matmul dot_S1024x512_S512x1024_S1024x1024_1_0_0_1_n_n none L R (constant S1024x1024 .f32 0x00000000#32) (ix2 p q)
      = ∑ k : Fin 512, L (ix2 p k) * R (ix2 k q) := by
  refine (Ideal.matmul_constant_zero_apply _ none L R (ix2 p q)).trans ?_
  refine (Equiv.sum_comp (contrEquiv1 dot_S1024x512_S512x1024_S1024x1024_1_0_0_1_n_n 512 rfl rfl).symm _).symm.trans ?_
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q)
      ((contrEquiv1 dot_S1024x512_S512x1024_S1024x1024_1_0_0_1_n_n 512 rfl rfl).symm k) = ix2 p k :=
    funext fun a => Fin.ext (by
      match a with
      | ⟨0, _⟩ => exact lhs_axis0 _ _
      | ⟨1, _⟩ => exact (lhs_axis1 _ _).trans hk)
  have er : dot_S1024x512_S512x1024_S1024x1024_1_0_0_1_n_n.rhsIdx (ix2 p q)
      ((contrEquiv1 dot_S1024x512_S512x1024_S1024x1024_1_0_0_1_n_n 512 rfl rfl).symm k) = ix2 k q :=
    funext fun a => Fin.ext (by
      match a with
      | ⟨0, _⟩ => exact (rhs_axis0 _ _).trans hk
      | ⟨1, _⟩ => exact rhs_axis1 _ _)
  exact congrArg₂ (fun x y => L x * R y) el er

/-- The right operand at `(k, q)`: the transposed normalised class block reads row `q`, entry `k`; the change of
    format is the identity. -/
theorem rhs_at (X1 : Vec Ideal S1024x512 .f32) (k : Fin 512) (q : Fin 1024) :
    transpose S512x1024 [1, 0] (truncf .bf16 (nrmBlock X1) bitsLt_bf16_f32) transposes_S1024x512_p1_0_S512x1024 (ix2 k q)
      = nrm (fun d => X1 (ix2 q d)) k :=
  (transpose_ix2_apply _ transposes_S1024x512_p1_0_S512x1024 k q).trans (nrmBlock_at X1 q k)

/-! ## The three readings -/

/-- The clamped cosines of the block: row `p` of the embedding block against row `q` of the class block. -/
theorem cos_at (X0 X1 : Vec Ideal S1024x512 .f32) (p q : Fin 1024) :
    k0_pay8 (F := Ideal) (embN (F := Ideal) X0) X1 (ix2 p q)
      = cosRow (fun d => X0 (ix2 p d)) (fun d => X1 (ix2 q d)) := by
  rw [k0_pay8_eq]
  unfold cosRow
  refine congrArg (fun s => min hiC (max loC s)) ?_
  refine (matmul_at _ _ p q).trans ?_
  refine Finset.sum_congr rfl fun k _ => ?_
  exact congrArg₂ (fun x y : EReal => x * y) (embN_at X0 p k) (rhs_at X1 k q)

/-- The stored block: the clamped cosine times 64. -/
theorem logitsOut_at (X0 X1 : Vec Ideal S1024x512 .f32) (p q : Fin 1024) :
    logitsOut (F := Ideal) (embN (F := Ideal) X0) X1 (ix2 p q)
      = cosRow (fun d => X0 (ix2 p d)) (fun d => X1 (ix2 q d)) * sc64 :=
  congrArg (fun c : EReal => c * sc64) (cos_at X0 X1 p q)

end Cert.KernelIdeal.Arc

end
-- ==== Proof.KRowAt.lean ====
/-
  One grid point's update of the three carried columns, row by row, as extended-real formulas.

  Write `c p q` for the block's clamped cosine at row `p`, column `q`. The masked logit at (p, q) is the logit of
  `c p q` with the indicator of "this column's class number is row p's label", where the column's class number
  `1024·j + q` is below 50000, and the bottom element elsewhere. The new maximum of row `p` is the larger of the old
  one and the largest masked logit of the row; the new sum is `exp (old max - new max)` times the old sum plus the
  sum over the row of `exp (masked logit - new max)`; the new pick is the old one plus the sum over the row of
  masked logit times indicator; and the loss is new maximum plus the logarithm of the sum minus the pick.
-/
import proofs.«430956_j65068754534622_2_alg».proof.Proof.KCosAt

set_option maxRecDepth 16384

noncomputable section

namespace Cert.KernelIdeal.Arc

open Cert.KernelIdeal Cert.KernelIdeal.Gen Cert.Arc
open Idealize.ShloMosaic Idealize.ShloMosaic.ValueIdx

/-- The class number of column `q` of column tile `j`. -/
abbrev colNo (j : ℕ) (q : Fin 1024) : ℕ := 1024 * j + q.val

namespace Row

/-! ## Column layouts read at an index -/

/-- A vector `[a]` cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of row `p` of a `[1024, 1024]` block with coordinate `k` put on the reduced axis 1. -/
theorem lift_row (h : S1024x1024.Reduces [1] S1024) (p k : Fin 1024) : h.lift (ix1 p) k = ix2 p k := by
  funext c
  refine Fin.ext ?_
  match c with
  | ⟨0, _⟩ => rfl
  | ⟨1, _⟩ => rfl

/-! ## Words -/

/-- The class-number word of a column: the lane number plus 1024 times the tile number, as 32-bit words. -/
theorem colWord (j : ℕ) (q : Fin 1024) :
    BitVec.ofNat 32 q.val + BitVec.ofNat 32 j * 1024#32 = BitVec.ofNat 32 (1024 * j + q.val) := by
  apply BitVec.eq_of_toNat_eq
  simp only [BitVec.toNat_add, BitVec.toNat_mul, BitVec.toNat_ofNat]
  omega

/-- The signed comparison of a small non-negative word with 50000. -/
theorem slt_small (n : ℕ) (hn : n < 2 ^ 31) :
    IntOp.cmpi .slt (BitVec.ofNat 32 n) 50000#32 = if n < 50000 then 1#1 else 0#1 := by
  have h0 : (BitVec.ofNat 32 n).toNat = n := by
    rw [BitVec.toNat_ofNat]; omega
  have h1 : (BitVec.ofNat 32 n).toInt = (n : ℤ) := by
    rw [BitVec.toInt_eq_toNat_of_lt (by rw [h0]; omega), h0]
  have h2 : (50000#32 : BitVec 32).toInt = 50000 := by decide
  show BitVec.ofBool ((BitVec.ofNat 32 n).slt 50000#32) = _
  rw [BitVec.slt, h1, h2]
  by_cases h : n < 50000
  · rw [if_pos h, decide_eq_true (by omega)]; rfl
  · rw [if_neg h, decide_eq_false (by omega)]; rfl

/-- The equality bit of two words, widened and read as a signed integer, is the indicator. -/
theorem eqBit_toReal (x y : BitVec 32) :
    ((((IntOp.cmpi .eq x y).setWidth 32).toInt : ℝ) : EReal) = ohE (y = x) := by
  unfold ohE
  have e1 : ((1#1 : BitVec 1).setWidth 32).toInt = 1 := by decide
  have e0 : ((0#1 : BitVec 1).setWidth 32).toInt = 0 := by decide
  by_cases h : y = x
  · subst h
    have hb : IntOp.cmpi .eq y y = 1#1 := by simp [IntOp.cmpi]
    rw [if_pos rfl, hb, e1]; simp
  · have hne : (x == y) = false := by
      rw [beq_eq_false_iff_ne]; exact fun e => h e.symm
    have hb : IntOp.cmpi .eq x y = 0#1 := by simp [IntOp.cmpi, hne]
    rw [if_neg h, hb, e0]; simp

/-! ## The blocks of the masked logits read at an index -/

/-- The class-number word at an index. -/
theorem pay12_at (jw : BitVec 32) (p q : Fin 1024) :
    k0_pay12 jw (ix2 p q) = BitVec.ofNat 32 q.val + jw * 1024#32 := by
  unfold k0_pay12
  show IntOp.addi (iota .tc S1024x1024 32 [1] iota_S1024x1024_d1_w32 (ix2 p q)) (IntOp.muli jw 1024#32) = _
  rw [iota_single_apply]
  rfl

/-- The indicator block at an index, over the class-number word. -/
theorem pay13_at (jw : BitVec 32) (X2 : Vec Ideal S1024x1 .i32) (p q : Fin 1024) :
    k0_pay13 (F := Ideal) jw X2 (ix2 p q)
      = ((((IntOp.cmpi .eq (k0_pay12 jw (ix2 p q)) (X2 (ix2 p 0))).setWidth 32).toInt : ℝ) : EReal) := by
  unfold k0_pay13
  show FloatOps.sitofp (F := Ideal) .f32 ((IntOp.cmpi .eq (k0_pay12 jw (ix2 p q))
    (broadcastTo S1024x1024 (shapeCast S1024x1 X2 shapeCasts_S1024x1_S1024x1) broadcasts_S1024x1_S1024x1024 (ix2 p q))).setWidth 32) = _
  rw [broadcastTo_a1_ab_apply, shapeCast_self]
  rfl

/-- The margin-shifted cosine block at an index, over the cosine block. -/
theorem pay10_at (S0 X1 : Vec Ideal S1024x512 .f32) (i : S1024x1024.Idx) :
    k0_pay10 (F := Ideal) S0 X1 i
      = k0_pay8 (F := Ideal) S0 X1 i * cmC
        - max (Ideal.sqrt (oneC - k0_pay8 (F := Ideal) S0 X1 i * k0_pay8 (F := Ideal) S0 X1 i)) epsS * smC := rfl

/-- The threshold bit at an index, over the cosine block. -/
theorem pay11_at (S0 X1 : Vec Ideal S1024x512 .f32) (i : S1024x1024.Idx) :
    k0_pay11 (F := Ideal) S0 X1 i = Ideal.cmp .ogt (k0_pay8 (F := Ideal) S0 X1 i) thC := rfl

/-- The named stand-in for minus infinity is the bottom element. -/
theorem negBig_eq : (Named.named (F := Ideal) κ "neg_big" (φ := .f32) 0xFF333332#32 : Ideal .f32) = ⊥ := rfl

/-- The masked block at an index, over any cosine block, margin block and threshold bits. -/
theorem pay14_at (jw : BitVec 32) (v20 v34 : FVec Ideal S1024x1024 .f32) (v36 : IVec S1024x1024 1)
    (X2 : Vec Ideal S1024x1 .i32) (i : S1024x1024.Idx) :
    k0_pay14 (F := Ideal) jw v20 v34 v36 X2 i
      = Scalar.select (IntOp.cmpi .slt (k0_pay12 jw i) 50000#32)
          ((v20 i * (oneC - k0_pay13 (F := Ideal) jw X2 i)
            + Scalar.select (v36 i) (v34 i) (v20 i - mmC) * k0_pay13 (F := Ideal) jw X2 i) * sc64)
          (Named.named (F := Ideal) κ "neg_big" (φ := .f32) 0xFF333332#32) := rfl

/-! ## Row reductions read at an index -/

/-- The pattern of minus infinity is the bottom element. -/
theorem ofBits_negInf : Ideal.ofBits .f32 0xFF800000#32 = ⊥ := by simp [Ideal.ofBits, Ideal.ieee]

/-- The lane maximum of a block from minus infinity, as a column, at row `p`: the supremum of the row. -/
theorem rowMax_at (v : FVec Ideal S1024x1024 .f32) (p : Fin 1024) :
    shapeCast S1024x1 (multiReduction (F := Ideal) .maximumf [1] S1024 v 0xFF800000#32 reduces_S1024x1024_S1024 (.inl rfl) rfl)
        shapeCasts_S1024_S1024x1 (ix2 p 0)
      = (Finset.univ : Finset (Fin 1024)).sup fun q => v (ix2 p q) := by
  refine (shapeCast_a_a1_apply _ _ p 0).trans ?_
  refine (Ideal.multiReduction_maximumf_single v _ _ _ _ (ix1 p)).trans ?_
  show (Finset.univ : Finset (Fin 1024)).fold max (Ideal.ofBits .f32 0xFF800000#32)
      (v ∘ reduces_S1024x1024_S1024.lift (ix1 p)) = _
  rw [ofBits_negInf]
  refine (Finset.fold_congr (g := fun q : Fin 1024 => v (ix2 p q))
    fun q _ => congrArg v (lift_row _ p q)).trans ?_
  rfl

/-- The lane sum of a block from zero, as a column, at row `p`: the sum of the row. -/
theorem rowSum_at (v : FVec Ideal S1024x1024 .f32) (p : Fin 1024) :
    shapeCast S1024x1 (multiReduction (F := Ideal) .add [1] S1024 v 0x00000000#32 reduces_S1024x1024_S1024 (.inl rfl) rfl)
        shapeCasts_S1024_S1024x1 (ix2 p 0)
      = ∑ q : Fin 1024, v (ix2 p q) := by
  refine (shapeCast_a_a1_apply _ _ p 0).trans ?_
  refine (Ideal.multiReduction_add_single v _ _ _ _ (ix1 p)).trans ?_
  exact Finset.sum_congr rfl fun q _ => congrArg v (lift_row _ p q)

end Row

open Row

/-- The indicator block at an index: 1 where the column's class number, as a 32-bit word, is the row's label word. -/
theorem onehot_at (j : ℕ) (hj : j < 49) (X2 : Vec Ideal S1024x1 .i32) (p q : Fin 1024) :
    k0_pay13 (F := Ideal) (BitVec.ofNat 32 j) X2 (ix2 p q) = ohE (X2 (ix2 p 0) = BitVec.ofNat 32 (colNo j q)) := by
  rw [pay13_at, pay12_at, colWord, eqBit_toReal]

/-- The masked logits at an index. -/
theorem masked_at (j : ℕ) (hj : j < 49) (S0 X1 : Vec Ideal S1024x512 .f32) (X2 : Vec Ideal S1024x1 .i32) (p q : Fin 1024) :
    maskedOf (F := Ideal) (BitVec.ofNat 32 j) S0 X1 X2 (ix2 p q)
      = if colNo j q < 50000 then
          logitE (k0_pay8 (F := Ideal) S0 X1 (ix2 p q)) (ohE (X2 (ix2 p 0) = BitVec.ofNat 32 (colNo j q)))
        else ⊥ := by
  unfold maskedOf
  rw [pay14_at, pay12_at, colWord, slt_small _ (by have := q.isLt; omega), onehot_at j hj, pay10_at, pay11_at, negBig_eq]
  by_cases h : colNo j q < 50000
  · rw [if_pos h, if_pos h, select_one]; rfl
  · rw [if_neg h, if_neg h, select_zero]

/-- The new running maximum of row `p`. -/
theorem mNew_at (j : BitVec 32) (S0 X1 : Vec Ideal S1024x512 .f32) (X2 : Vec Ideal S1024x1 .i32) (mP : Vec Ideal S1024x1 .f32) (p : Fin 1024) :
    mNew (F := Ideal) j S0 X1 X2 mP (ix2 p 0)
      = max (mP (ix2 p 0)) ((Finset.univ : Finset (Fin 1024)).sup fun q => maskedOf (F := Ideal) j S0 X1 X2 (ix2 p q)) := by
  unfold mNew k0_pay2
  rw [shapeCast_self]
  unfold k0_pay15
  show max (mP (ix2 p 0)) _ = _
  exact congrArg (max (mP (ix2 p 0))) (rowMax_at _ p)

/-- The new running sum of row `p`. -/
theorem lNew_at (j : BitVec 32) (S0 X1 : Vec Ideal S1024x512 .f32) (X2 : Vec Ideal S1024x1 .i32) (mP lP : Vec Ideal S1024x1 .f32) (p : Fin 1024) :
    lNew (F := Ideal) j S0 X1 X2 mP lP (ix2 p 0)
      = Ideal.exp (mP (ix2 p 0) - mNew (F := Ideal) j S0 X1 X2 mP (ix2 p 0)) * lP (ix2 p 0)
        + ∑ q : Fin 1024, Ideal.exp (maskedOf (F := Ideal) j S0 X1 X2 (ix2 p q) - mNew (F := Ideal) j S0 X1 X2 mP (ix2 p 0)) := by
  have hm : ∀ y, mNew (F := Ideal) j S0 X1 X2 mP y
      = k0_pay15 (F := Ideal) j (k0_pay8 S0 X1) (k0_pay10 S0 X1) (k0_pay11 S0 X1) X2 mP y := by
    intro y; unfold mNew k0_pay2; rw [shapeCast_self]
  rw [hm]
  unfold lNew k0_pay16
  rw [shapeCast_self]
  show Ideal.exp (mP (ix2 p 0) - _) * lP (ix2 p 0) + _ = _
  refine congrArg (_ + ·) ((rowSum_at _ p).trans (Finset.sum_congr rfl fun q _ => ?_))
  show Ideal.exp (_ - broadcastTo S1024x1024 _ broadcasts_S1024x1_S1024x1024 (ix2 p q)) = _
  rw [broadcastTo_a1_ab_apply]
  rfl

/-- The new running pick of row `p`. -/
theorem tNew_at (j : BitVec 32) (S0 X1 : Vec Ideal S1024x512 .f32) (X2 : Vec Ideal S1024x1 .i32) (tP : Vec Ideal S1024x1 .f32) (p : Fin 1024) :
    tNew (F := Ideal) j S0 X1 X2 tP (ix2 p 0)
      = tP (ix2 p 0) + ∑ q : Fin 1024, maskedOf (F := Ideal) j S0 X1 X2 (ix2 p q) * k0_pay13 (F := Ideal) j X2 (ix2 p q) := by
  unfold tNew k0_pay1
  rw [shapeCast_self]
  show tP (ix2 p 0) + _ = _
  exact congrArg (tP (ix2 p 0) + ·) (rowSum_at _ p)

/-- The loss of row `p` from the three columns. -/
theorem nllOut_at (m l t : Vec Ideal S1024x1 .f32) (p : Fin 1024) :
    nllOut (F := Ideal) m l t (ix2 p 0) = (m (ix2 p 0) + Ideal.log (l (ix2 p 0))) - t (ix2 p 0) := rfl

/-- The columns the first column tile resets to: the bottom element, zero, zero. -/
theorem pay5_at (y : S1024x1.Idx) : k0_pay5 (F := Ideal) y = ⊥ := by
  unfold k0_pay5
  rw [shapeCast_self]
  exact ofBits_negInf
theorem pay6_at (y : S1024x1.Idx) : k0_pay6 (F := Ideal) y = 0 := by
  unfold k0_pay6
  rw [shapeCast_self]
  exact Ideal.ofBits_zero_f32
theorem pay7_at (y : S1024x1.Idx) : k0_pay7 (F := Ideal) y = 0 := by
  unfold k0_pay7
  rw [shapeCast_self]
  exact Ideal.ofBits_zero_f32

end Cert.KernelIdeal.Arc

end
-- ==== Proof.ArcReal.lean ====
/-
  The extended-real arithmetic of the cosine / logit specification, reduced to real arithmetic.

  Every constant of the specification is a real number (an explicit dyadic rational). A cosine is clamped between
  two of them, so it is a real number strictly inside (-1, 1) whatever the rows hold; for such a cosine 1 - c² is
  nonnegative, so the square root in the margin-shifted cosine is a real number, and the logit is a real number.
  The exponential, the logarithm of a positive number, a finite sum and the division by 2048 of real numbers are
  the real operations.
-/
import proofs.«430956_j65068754534622_2_alg».proof.Proof.ArcSpec
import Mathlib.Data.EReal.Basic
import Mathlib.Data.EReal.Operations
import Mathlib.Data.EReal.Inv
import Mathlib.Analysis.Real.Sqrt
import Mathlib.Order.MinMax
import Mathlib.Algebra.BigOperators.Group.Finset.Basic

noncomputable section

namespace Cert.Arc

open Idealize.ShloMosaic Idealize.ShloMosaic.ValueIdx

/-! ## The constants as real numbers -/

/-- 9223372 · 2⁻⁶³, about 1e-12. -/
def epsNR : ℝ := 9223372 / 9223372036854775808
/-- -(1 - 2⁻²³). -/
def loR : ℝ := -(8388607 / 8388608)
/-- 1 - 2⁻²³. -/
def hiR : ℝ := 8388607 / 8388608
/-- 14073749 · 2⁻⁴⁷, about 1e-7. -/
def epsSR : ℝ := 14073749 / 140737488355328
/-- 13846834 · 2⁻²⁴, about cos 0.6. -/
def cmR : ℝ := 6923417 / 8388608
/-- 9473129 · 2⁻²⁴, about sin 0.6. -/
def smR : ℝ := 9473129 / 16777216
/-- -13846834 · 2⁻²⁴, about cos (π - 0.6). -/
def thR : ℝ := -(6923417 / 8388608)
/-- 11367754 · 2⁻²⁵, about 0.6 · sin (π - 0.6). -/
def mmR : ℝ := 5683877 / 16777216

theorem neg_one_lt_loR : -1 < loR := by unfold loR; norm_num
theorem loR_le_hiR : loR ≤ hiR := by unfold loR hiR; norm_num
theorem hiR_lt_one : hiR < 1 := by unfold hiR; norm_num
theorem epsSR_pos : 0 < epsSR := by unfold epsSR; norm_num
theorem epsNR_pos : 0 < epsNR := by unfold epsNR; norm_num

theorem epsN_eq : epsN = ((epsNR : ℝ) : EReal) := by
  unfold epsNR; simp [epsN, Ideal.ofBits, Ideal.ieee, -EReal.coe_mul]; norm_num
theorem loC_eq : loC = ((loR : ℝ) : EReal) := by
  unfold loR; simp [loC, Ideal.ofBits, Ideal.ieee, -EReal.coe_mul]; norm_num
theorem hiC_eq : hiC = ((hiR : ℝ) : EReal) := by
  unfold hiR; simp [hiC, Ideal.ofBits, Ideal.ieee, -EReal.coe_mul]; norm_num
theorem oneC_eq : oneC = ((1 : ℝ) : EReal) := by
  simp [oneC, Ideal.ofBits, Ideal.ieee, -EReal.coe_mul]; norm_num
theorem oneC_eq_one : oneC = 1 := oneC_eq
theorem epsS_eq : epsS = ((epsSR : ℝ) : EReal) := by
  unfold epsSR; simp [epsS, Ideal.ofBits, Ideal.ieee, -EReal.coe_mul]; norm_num
theorem cmC_eq : cmC = ((cmR : ℝ) : EReal) := by
  unfold cmR; simp [cmC, Ideal.ofBits, Ideal.ieee, -EReal.coe_mul]; norm_num
theorem smC_eq : smC = ((smR : ℝ) : EReal) := by
  unfold smR; simp [smC, Ideal.ofBits, Ideal.ieee, -EReal.coe_mul]; norm_num
theorem thC_eq : thC = ((thR : ℝ) : EReal) := by
  unfold thR; simp [thC, Ideal.ofBits, Ideal.ieee, -EReal.coe_mul]; norm_num
theorem mmC_eq : mmC = ((mmR : ℝ) : EReal) := by
  unfold mmR; simp [mmC, Ideal.ofBits, Ideal.ieee, -EReal.coe_mul]; norm_num
theorem sc64_eq : sc64 = ((64 : ℝ) : EReal) := by
  simp [sc64, Ideal.ofBits, Ideal.ieee, -EReal.coe_mul]; norm_num
/-- The divisor of the mean, 2048. -/
theorem ofBits_2048 : Ideal.ofBits .f32 0x45000000#32 = ((2048 : ℝ) : EReal) := by
  simp [Ideal.ofBits, Ideal.ieee, -EReal.coe_mul]; norm_num

/-! ## General facts about real numbers inside the extended reals -/

/-- The inclusion of the reals preserves maxima. -/
theorem coe_max (x y : ℝ) : ((max x y : ℝ) : EReal) = max (x : EReal) (y : EReal) :=
  EReal.coe_strictMono.monotone.map_max

/-- The inclusion of the reals preserves minima. -/
theorem coe_min (x y : ℝ) : ((min x y : ℝ) : EReal) = min (x : EReal) (y : EReal) :=
  EReal.coe_strictMono.monotone.map_min

/-- Whatever is clamped between two real numbers is a real number between them. -/
theorem clamp_eq_coe {lo hi : ℝ} (h : lo ≤ hi) (s : EReal) :
    ∃ c : ℝ, min (hi : EReal) (max (lo : EReal) s) = ((c : ℝ) : EReal) ∧ lo ≤ c ∧ c ≤ hi := by
  have h1 : (lo : EReal) ≤ min (hi : EReal) (max (lo : EReal) s) :=
    le_min (EReal.coe_le_coe_iff.mpr h) (le_max_left _ _)
  have h2 : min (hi : EReal) (max (lo : EReal) s) ≤ (hi : EReal) := min_le_left _ _
  -- a value with a real below it and a real above it is neither infinity
  generalize min (hi : EReal) (max (lo : EReal) s) = m at h1 h2
  induction m using EReal.rec with
  | bot => exact absurd (le_bot_iff.mp h1) (EReal.coe_ne_bot lo)
  | top => exact absurd (top_le_iff.mp h2) (EReal.coe_ne_top hi)
  | coe c => exact ⟨c, rfl, EReal.coe_le_coe_iff.mp h1, EReal.coe_le_coe_iff.mp h2⟩

theorem exp_coe (x : ℝ) : Ideal.exp ((x : ℝ) : EReal) = ((Real.exp x : ℝ) : EReal) := rfl

theorem exp_bot : Ideal.exp ⊥ = 0 := rfl

theorem log_coe {x : ℝ} (hx : 0 < x) : Ideal.log ((x : ℝ) : EReal) = ((Real.log x : ℝ) : EReal) := by
  rw [Ideal.log_coe, if_neg (not_le.mpr hx)]

/-- The square root of a nonnegative real number is the real square root. -/
theorem sqrt_coe {x : ℝ} (hx : 0 ≤ x) : Ideal.sqrt ((x : ℝ) : EReal) = ((Real.sqrt x : ℝ) : EReal) := by
  rw [Ideal.sqrt_coe, if_neg (not_lt.mpr hx)]

theorem coe_finset_sum {ι : Type*} (s : Finset ι) (f : ι → ℝ) :
    ((∑ i ∈ s, f i : ℝ) : EReal) = ∑ i ∈ s, ((f i : ℝ) : EReal) := by
  induction s using Finset.cons_induction with
  | empty => rw [Finset.sum_empty, Finset.sum_empty, EReal.coe_zero]
  | cons a s ha ih => rw [Finset.sum_cons, Finset.sum_cons, EReal.coe_add, ih]

/-- Division of a real number by a nonzero real number is the real quotient. -/
theorem div_coe_coe (x : ℝ) {y : ℝ} (hy : y ≠ 0) : Ideal.div ((x : ℝ) : EReal) ((y : ℝ) : EReal) = ((x / y : ℝ) : EReal) := by
  rw [Ideal.div_coe hy, ← EReal.coe_mul, mul_one_div]

theorem div_coe_2048 (x : ℝ) :
    Ideal.div ((x : ℝ) : EReal) (Ideal.ofBits .f32 0x45000000#32) = ((x / 2048 : ℝ) : EReal) := by
  rw [ofBits_2048]; exact div_coe_coe x (by norm_num)

/-! ## Cosines -/

theorem cosRow_eq_coe (a b : Fin 512 → EReal) :
    ∃ c : ℝ, cosRow a b = ((c : ℝ) : EReal) ∧ loR ≤ c ∧ c ≤ hiR := by
  unfold cosRow
  rw [hiC_eq, loC_eq]
  exact clamp_eq_coe loR_le_hiR _

/-- The cosine of two rows as a real number. -/
def cosRowR (a b : Fin 512 → EReal) : ℝ := (cosRow a b).toReal

theorem cosRow_eq_cosRowR (a b : Fin 512 → EReal) : cosRow a b = ((cosRowR a b : ℝ) : EReal) := by
  obtain ⟨c, hc, _, _⟩ := cosRow_eq_coe a b
  unfold cosRowR
  rw [hc, EReal.toReal_coe]

theorem loR_le_cosRowR (a b : Fin 512 → EReal) : loR ≤ cosRowR a b := by
  obtain ⟨c, hc, h1, _⟩ := cosRow_eq_coe a b
  unfold cosRowR
  rw [hc, EReal.toReal_coe]; exact h1

theorem cosRowR_le_hiR (a b : Fin 512 → EReal) : cosRowR a b ≤ hiR := by
  obtain ⟨c, hc, _, h2⟩ := cosRow_eq_coe a b
  unfold cosRowR
  rw [hc, EReal.toReal_coe]; exact h2

theorem neg_one_lt_cosRowR (a b : Fin 512 → EReal) : -1 < cosRowR a b :=
  lt_of_lt_of_le neg_one_lt_loR (loR_le_cosRowR a b)

theorem cosRowR_lt_one (a b : Fin 512 → EReal) : cosRowR a b < 1 :=
  lt_of_le_of_lt (cosRowR_le_hiR a b) hiR_lt_one

/-! ## Logits -/

/-- The margin-shifted cosine over the reals. -/
def tlR (c : ℝ) : ℝ :=
  if thR < c then c * cmR - max (Real.sqrt (1 - c * c)) epsSR * smR else c - mmR

/-- The logit over the reals: the cosine, at the label the margin-shifted cosine, times 64. -/
def logitR (c : ℝ) (p : Prop) [Decidable p] : ℝ := (if p then tlR c else c) * 64

/-- For a cosine in [-1, 1] the margin-shifted cosine is the real one: 1 - c² is nonnegative, so its square root is real. -/
theorem tlE_coe (c : ℝ) (h1 : -1 ≤ c) (h2 : c ≤ 1) : tlE ((c : ℝ) : EReal) = ((tlR c : ℝ) : EReal) := by
  have hs : (0 : ℝ) ≤ 1 - c * c := by nlinarith
  have hsq : Ideal.sqrt (oneC - ((c : ℝ) : EReal) * ((c : ℝ) : EReal)) = ((Real.sqrt (1 - c * c) : ℝ) : EReal) := by
    rw [oneC_eq, ← EReal.coe_mul, ← EReal.coe_sub, sqrt_coe hs]
  unfold tlE tlR
  rw [hsq, epsS_eq, cmC_eq, smC_eq, mmC_eq, thC_eq, ← coe_max, ← EReal.coe_mul, ← EReal.coe_mul, ← EReal.coe_sub,
    ← EReal.coe_sub]
  unfold Scalar.select Ideal.cmp
  by_cases h : thR < c
  · rw [if_pos h, if_pos]
    simp [EReal.coe_lt_coe_iff.mpr h]
  · rw [if_neg h, if_neg]
    simp [mt EReal.coe_lt_coe_iff.mp h]

theorem logitE_coe (c : ℝ) (h1 : -1 ≤ c) (h2 : c ≤ 1) (p : Prop) [Decidable p] :
    logitE ((c : ℝ) : EReal) (ohE p) = ((logitR c p : ℝ) : EReal) := by
  unfold logitE ohE logitR
  rw [tlE_coe c h1 h2, oneC_eq, sc64_eq]
  by_cases hp : p
  · rw [if_pos hp, if_pos hp, ← EReal.coe_one, ← EReal.coe_sub, ← EReal.coe_mul, ← EReal.coe_mul, ← EReal.coe_add,
      ← EReal.coe_mul]
    congr 1; ring
  · rw [if_neg hp, if_neg hp, ← EReal.coe_zero, ← EReal.coe_sub, ← EReal.coe_mul, ← EReal.coe_mul, ← EReal.coe_add,
      ← EReal.coe_mul]
    congr 1; ring

theorem logitE_eq_coe (c : ℝ) (h1 : -1 ≤ c) (h2 : c ≤ 1) (p : Prop) [Decidable p] :
    ∃ x : ℝ, logitE ((c : ℝ) : EReal) (ohE p) = ((x : ℝ) : EReal) :=
  ⟨logitR c p, logitE_coe c h1 h2 p⟩

section Arrays

variable (e : (⟨2, ![2048, 512]⟩ : Shape).Idx → EReal) (w : (⟨2, ![50000, 512]⟩ : Shape).Idx → EReal)
  (lab : Fin 2048 → BitVec 32)

/-- The cosine of embedding row r and class row k as a real number. -/
def cosR (r : Fin 2048) (k : Fin 50000) : ℝ := cosRowR (fun d => e (ix2 r d)) (fun d => w (ix2 k d))

theorem cosA_eq_coe (r : Fin 2048) (k : Fin 50000) : cosA e w r k = ((cosR e w r k : ℝ) : EReal) :=
  cosRow_eq_cosRowR _ _

theorem neg_one_lt_cosR (r : Fin 2048) (k : Fin 50000) : -1 < cosR e w r k := neg_one_lt_cosRowR _ _

theorem cosR_lt_one (r : Fin 2048) (k : Fin 50000) : cosR e w r k < 1 := cosRowR_lt_one _ _

/-- A logit is the real logit of the real cosine. -/
theorem xA_eq_logitR (r : Fin 2048) (k : Fin 50000) :
    xA e w lab r k = ((logitR (cosR e w r k) (lab r = BitVec.ofNat 32 k.val) : ℝ) : EReal) := by
  unfold xA
  rw [cosA_eq_coe]
  exact logitE_coe _ (le_of_lt (neg_one_lt_cosR e w r k)) (le_of_lt (cosR_lt_one e w r k)) _

theorem xA_eq_coe (r : Fin 2048) (k : Fin 50000) : xA e w lab r k = ((xR e w lab r k.val : ℝ) : EReal) := by
  unfold xR
  rw [dif_pos k.isLt]
  show xA e w lab r k = (((xA e w lab r k).toReal : ℝ) : EReal)
  rw [xA_eq_logitR, EReal.toReal_coe]

/-- The real logit at a class number below 50000. -/
theorem xR_eq_logitR (r : Fin 2048) (k : Fin 50000) :
    xR e w lab r k.val = logitR (cosR e w r k) (lab r = BitVec.ofNat 32 k.val) := by
  have h := xA_eq_coe e w lab r k
  rw [xA_eq_logitR] at h
  exact (EReal.coe_eq_coe_iff.mp h).symm

/-- An entry of the second result is 64 times the real cosine. -/
theorem cosA_mul_sc64 (r : Fin 2048) (k : Fin 50000) : cosA e w r k * sc64 = ((cosR e w r k * 64 : ℝ) : EReal) := by
  rw [cosA_eq_coe, sc64_eq, ← EReal.coe_mul]

end Arrays

end Cert.Arc

end
-- ==== Proof.KSoftAt.lean ====
/-
  One grid point advances the carried columns from the first `n` classes to the first `n'`.

  For row block `i` the three carried columns, after the first `n` classes, hold per row the running maximum, the
  running sum of shifted exponentials and the running pick of the row's logits (ArcSpec's `mCol`, `lCol`, `tCol`
  over ArcMath's `mR`, `lR`, `tR`). A grid point at column tile `j`, given blocks that agree with the argument
  arrays on the classes that exist, takes the columns from `colsAfter (j-1)` to `colsAfter j` (from the reset
  values to `colsAfter 0` at the first tile): the columns past the last class carry the bottom element, whose
  exponential is zero and whose product with a zero indicator is zero, so whatever the class block holds there does
  not enter. The stored block of scaled cosines agrees with the second result on the classes that exist, and the
  losses computed from the columns after all 50000 classes are the rows' negative log-softmax at their labels.
-/
import proofs.«430956_j65068754534622_2_alg».proof.Proof.KRowAt
import proofs.«430956_j65068754534622_2_alg».proof.Proof.ArcReal

set_option maxRecDepth 16384

noncomputable section

namespace Cert.KernelIdeal.Arc

open Cert.KernelIdeal Cert.KernelIdeal.Gen Cert.Arc
open Idealize.ShloMosaic Idealize.ShloMosaic.ValueIdx

/-! ## A row of 1024 columns as a stretch of class numbers -/

/-- A sum over the 1024 columns of the terms whose class number n + q is below n' is the sum over the classes from n
    up to n'. -/
theorem sum_cols {M : Type*} [AddCommMonoid M] (n n' : ℕ) (h' : n' ≤ n + 1024) (f : ℕ → M) :
    ∑ q : Fin 1024, (if n + q.val < n' then f (n + q.val) else 0) = ∑ k ∈ Finset.Ico n n', f k := by
  rw [Fin.sum_univ_eq_sum_range (fun q => if n + q < n' then f (n + q) else 0) 1024, ← Finset.sum_filter,
    Finset.sum_Ico_eq_sum_range]
  congr 1
  ext q
  simp only [Finset.mem_filter, Finset.mem_range]
  omega

/-- The same for a supremum, the columns past n' holding the bottom element. -/
theorem sup_cols (n n' : ℕ) (h' : n' ≤ n + 1024) (g : ℕ → EReal) :
    ((Finset.univ : Finset (Fin 1024)).sup fun q => if n + q.val < n' then g (n + q.val) else ⊥) = (Finset.Ico n n').sup g := by
  apply le_antisymm
  · refine Finset.sup_le fun q _ => ?_
    by_cases hq : n + q.val < n'
    · rw [if_pos hq]
      exact Finset.le_sup (f := g) (Finset.mem_Ico.mpr ⟨Nat.le_add_right _ _, hq⟩)
    · rw [if_neg hq]
      exact bot_le
  · refine Finset.sup_le fun k hk => ?_
    obtain ⟨hk1, hk2⟩ := Finset.mem_Ico.mp hk
    have hq : k - n < 1024 := by omega
    have hk' : n + (k - n) = k := by omega
    have hle := Finset.le_sup (f := fun q : Fin 1024 => if n + q.val < n' then g (n + q.val) else ⊥)
      (Finset.mem_univ (⟨k - n, hq⟩ : Fin 1024))
    have hterm : (if n + (k - n) < n' then g (n + (k - n)) else ⊥) = g k := by
      rw [hk', if_pos hk2]
    exact hterm ▸ hle

/-- A 32-bit word is the word of a number below 2³² exactly when its value is that number. -/
theorem word_eq_iff (b : BitVec 32) (k : ℕ) (hk : k < 4294967296) : b = BitVec.ofNat 32 k ↔ b.toNat = k := by
  constructor
  · intro h
    rw [h, BitVec.toNat_ofNat]
    exact Nat.mod_eq_of_lt hk
  · intro h
    apply BitVec.eq_of_toNat_eq
    rw [BitVec.toNat_ofNat, h]
    exact (Nat.mod_eq_of_lt hk).symm

/-- Every index of a column of 1024 entries is a row with second coordinate 0. -/
theorem exists_row (y : (⟨2, ![1024, 1]⟩ : Shape).Idx) : ∃ p : Fin 1024, y = ix2 p (0 : Fin 1) := by
  refine ⟨y 0, ?_⟩
  have h1 : @Eq (Fin 1) (y 1) (0 : Fin 1) := Subsingleton.elim _ _
  exact (eq_ix2 y).trans (congrArg (fun b : Fin 1 => (ix2 (y 0) b : (⟨2, ![1024, 1]⟩ : Shape).Idx)) h1)

section

variable (e : S2048x512.Idx → EReal) (w : S50000x512.Idx → EReal) (lab : Fin 2048 → BitVec 32)

/-- The block of embedding rows of row block `i`. -/
def IsEmbBlock (i : Fin 2) (X0 : Vec Ideal S1024x512 .f32) : Prop :=
  ∀ (p : Fin 1024) (d : Fin 512), X0 (ix2 p d) = e (ix2 (rowOf i p) d)
/-- The block of class rows of column tile `j`, on the classes that exist; nothing is said of the rows past them. -/
def IsWBlock (j : ℕ) (X1 : Vec Ideal S1024x512 .f32) : Prop :=
  ∀ (q : Fin 1024) (d : Fin 512) (h : 1024 * j + q.val < 50000), X1 (ix2 q d) = w (ix2 ⟨1024 * j + q.val, h⟩ d)
/-- The block of labels of row block `i`. -/
def IsLabBlock (i : Fin 2) (X2 : Vec Ideal S1024x1 .i32) : Prop :=
  ∀ p : Fin 1024, X2 (ix2 p 0) = lab (rowOf i p)

/-! ## One row of one tile -/

/-- The masked logit at row p, column q of tile j: the real logit of the row at the column's class where that class
    exists, the bottom element past the last class. -/
theorem masked_eq (i : Fin 2) (j : ℕ) (hj : j < 49) (X0 X1 : Vec Ideal S1024x512 .f32) (X2 : Vec Ideal S1024x1 .i32)
    (h0 : IsEmbBlock e i X0) (h1 : IsWBlock w j X1) (h2 : IsLabBlock lab i X2) (p q : Fin 1024) :
    maskedOf (F := Ideal) (BitVec.ofNat 32 j) (embN (F := Ideal) X0) X1 X2 (ix2 p q)
      = if 1024 * j + q.val < 50000 then ((xR e w lab (rowOf i p) (1024 * j + q.val) : ℝ) : EReal) else ⊥ := by
  rw [masked_at j hj]
  by_cases hq : 1024 * j + q.val < 50000
  · rw [if_pos hq, if_pos hq, cos_at]
    have hx := xA_eq_coe e w lab (rowOf i p) ⟨1024 * j + q.val, hq⟩
    refine Eq.trans ?_ hx
    unfold xA cosA
    have e0 : (fun d => X0 (ix2 p d)) = fun d => e (ix2 (rowOf i p) d) := funext fun d => h0 p d
    have e1 : (fun d => X1 (ix2 q d)) = fun d => w (ix2 ⟨1024 * j + q.val, hq⟩ d) := funext fun d => h1 q d hq
    rw [e0, e1, h2 p]
  · rw [if_neg hq, if_neg hq]

/-- The largest masked logit of the row is the largest real logit over the tile's classes. -/
theorem row_sup (i : Fin 2) (j : ℕ) (hj : j < 49) (X0 X1 : Vec Ideal S1024x512 .f32) (X2 : Vec Ideal S1024x1 .i32)
    (h0 : IsEmbBlock e i X0) (h1 : IsWBlock w j X1) (h2 : IsLabBlock lab i X2) (p : Fin 1024) :
    ((Finset.univ : Finset (Fin 1024)).sup fun q => maskedOf (F := Ideal) (BitVec.ofNat 32 j) (embN (F := Ideal) X0) X1 X2 (ix2 p q))
      = (Finset.Ico (1024 * j) (colsAfter j)).sup fun k => ((xR e w lab (rowOf i p) k : ℝ) : EReal) := by
  have hn' : colsAfter j ≤ 1024 * j + 1024 := by unfold colsAfter; omega
  rw [← sup_cols (1024 * j) (colsAfter j) hn' (fun k => ((xR e w lab (rowOf i p) k : ℝ) : EReal))]
  refine Finset.sup_congr rfl fun q _ => ?_
  rw [masked_eq e w lab i j hj X0 X1 X2 h0 h1 h2 p q]
  have hiff : 1024 * j + q.val < 50000 ↔ 1024 * j + q.val < colsAfter j := by
    unfold colsAfter; have := q.isLt; omega
  exact if_congr hiff rfl rfl

/-- The sum over the row of the exponentials of the masked logits shifted by a real number: a column past the last
    class contributes the exponential of the bottom element, zero. -/
theorem row_exp (i : Fin 2) (j : ℕ) (hj : j < 49) (X0 X1 : Vec Ideal S1024x512 .f32) (X2 : Vec Ideal S1024x1 .i32)
    (h0 : IsEmbBlock e i X0) (h1 : IsWBlock w j X1) (h2 : IsLabBlock lab i X2) (p : Fin 1024) (m' : ℝ) :
    ∑ q : Fin 1024, Ideal.exp (maskedOf (F := Ideal) (BitVec.ofNat 32 j) (embN (F := Ideal) X0) X1 X2 (ix2 p q) - ((m' : ℝ) : EReal))
      = ((∑ k ∈ Finset.Ico (1024 * j) (colsAfter j), Real.exp (xR e w lab (rowOf i p) k - m') : ℝ) : EReal) := by
  have hn' : colsAfter j ≤ 1024 * j + 1024 := by unfold colsAfter; omega
  rw [coe_finset_sum]
  refine Eq.trans ?_ (sum_cols (1024 * j) (colsAfter j) hn'
    (fun k => ((Real.exp (xR e w lab (rowOf i p) k - m') : ℝ) : EReal)))
  refine Finset.sum_congr rfl fun q _ => ?_
  rw [masked_eq e w lab i j hj X0 X1 X2 h0 h1 h2 p q]
  have hiff : 1024 * j + q.val < 50000 ↔ 1024 * j + q.val < colsAfter j := by
    unfold colsAfter; have := q.isLt; omega
  by_cases hq : 1024 * j + q.val < 50000
  · rw [if_pos hq, if_pos (hiff.mp hq), ← EReal.coe_sub, Cert.Arc.exp_coe]
  · rw [if_neg hq, if_neg (mt hiff.mpr hq), EReal.bot_sub, Cert.Arc.exp_bot]

/-- The sum over the row of masked logit times indicator: the label's logit if the label is among the tile's
    classes, else zero. Past the last class the indicator is zero, the label being below 50000. -/
theorem row_pick (hlab : ∀ r, (lab r).toNat < 50000) (i : Fin 2) (j : ℕ) (hj : j < 49) (X0 X1 : Vec Ideal S1024x512 .f32)
    (X2 : Vec Ideal S1024x1 .i32) (h0 : IsEmbBlock e i X0) (h1 : IsWBlock w j X1) (h2 : IsLabBlock lab i X2) (p : Fin 1024) :
    ∑ q : Fin 1024, maskedOf (F := Ideal) (BitVec.ofNat 32 j) (embN (F := Ideal) X0) X1 X2 (ix2 p q)
        * k0_pay13 (F := Ideal) (BitVec.ofNat 32 j) X2 (ix2 p q)
      = ((∑ k ∈ Finset.Ico (1024 * j) (colsAfter j),
          (if k = yOf lab (rowOf i p) then xR e w lab (rowOf i p) k else 0) : ℝ) : EReal) := by
  have hn' : colsAfter j ≤ 1024 * j + 1024 := by unfold colsAfter; omega
  rw [coe_finset_sum]
  refine Eq.trans ?_ (sum_cols (1024 * j) (colsAfter j) hn'
    (fun k => (((if k = yOf lab (rowOf i p) then xR e w lab (rowOf i p) k else 0) : ℝ) : EReal)))
  refine Finset.sum_congr rfl fun q _ => ?_
  rw [masked_eq e w lab i j hj X0 X1 X2 h0 h1 h2 p q, onehot_at j hj X2 p q, h2 p]
  have hiff : 1024 * j + q.val < 50000 ↔ 1024 * j + q.val < colsAfter j := by
    unfold colsAfter; have := q.isLt; omega
  have hk : 1024 * j + q.val < 4294967296 := by have := q.isLt; omega
  have hw := word_eq_iff (lab (rowOf i p)) (1024 * j + q.val) hk
  unfold ohE
  by_cases hq : 1024 * j + q.val < 50000
  · rw [if_pos hq, if_pos (hiff.mp hq)]
    by_cases hy : 1024 * j + q.val = yOf lab (rowOf i p)
    · rw [if_pos (hw.mpr hy.symm), if_pos hy, mul_one]
    · rw [if_neg (fun h => hy (hw.mp h).symm), if_neg hy, mul_zero, EReal.coe_zero]
  · rw [if_neg hq, if_neg (mt hiff.mpr hq)]
    have hne : ¬ lab (rowOf i p) = BitVec.ofNat 32 (1024 * j + q.val) := fun h => by
      have h3 := hw.mp h
      have h4 := hlab (rowOf i p)
      omega
    rw [if_neg hne, mul_zero]

/-- The first column tile: from the reset values to the state after the first 1024 classes. -/
theorem step_first (hlab : ∀ r, (lab r).toNat < 50000) (i : Fin 2) (X0 X1 : Vec Ideal S1024x512 .f32) (X2 : Vec Ideal S1024x1 .i32)
    (h0 : IsEmbBlock e i X0) (h1 : IsWBlock w 0 X1) (h2 : IsLabBlock lab i X2) :
    mNew (F := Ideal) (BitVec.ofNat 32 0) (embN (F := Ideal) X0) X1 X2 (k0_pay5 (F := Ideal)) = mCol e w lab i (colsAfter 0)
    ∧ lNew (F := Ideal) (BitVec.ofNat 32 0) (embN (F := Ideal) X0) X1 X2 (k0_pay5 (F := Ideal)) (k0_pay6 (F := Ideal)) = lCol e w lab i (colsAfter 0)
    ∧ tNew (F := Ideal) (BitVec.ofNat 32 0) (embN (F := Ideal) X0) X1 X2 (k0_pay7 (F := Ideal)) = tCol e w lab i (colsAfter 0) := by
  have hj0 : (0 : ℕ) < 49 := by norm_num
  have hpos' : 0 < colsAfter 0 := by unfold colsAfter; omega
  have hI : Finset.Ico (1024 * 0) (colsAfter 0) = Finset.range (colsAfter 0) := by
    rw [Nat.mul_zero, Finset.range_eq_Ico]
  -- the new maximum of row p: the old one is the bottom element, the stretch is all of the first classes
  have hm : ∀ p : Fin 1024,
      mNew (F := Ideal) (BitVec.ofNat 32 0) (embN (F := Ideal) X0) X1 X2 (k0_pay5 (F := Ideal)) (ix2 p 0)
        = ((Math.mR (xR e w lab (rowOf i p)) (colsAfter 0) : ℝ) : EReal) := by
    intro p
    rw [mNew_at, pay5_at, row_sup e w lab i 0 hj0 X0 X1 X2 h0 h1 h2 p, hI, max_bot_left]
    exact Math.mE_eq_coe _ hpos'
  refine ⟨?_, ?_, ?_⟩
  · funext y
    obtain ⟨p, rfl⟩ := exists_row y
    exact hm p
  · -- the old sum is zero, so only the stretch's exponentials remain
    funext y
    obtain ⟨p, rfl⟩ := exists_row y
    rw [lNew_at, hm p, pay6_at, mul_zero, zero_add, row_exp e w lab i 0 hj0 X0 X1 X2 h0 h1 h2 p, hI]
    rfl
  · -- the old pick is zero
    funext y
    obtain ⟨p, rfl⟩ := exists_row y
    rw [tNew_at, pay7_at, zero_add, row_pick e w lab hlab i 0 hj0 X0 X1 X2 h0 h1 h2 p, hI]
    rfl

/-- A later column tile `j`: from the state after tile `j - 1` to the state after tile `j`. -/
theorem step_next (hlab : ∀ r, (lab r).toNat < 50000) (i : Fin 2) (j : ℕ) (hj : 0 < j) (hj' : j < 49)
    (X0 X1 : Vec Ideal S1024x512 .f32) (X2 : Vec Ideal S1024x1 .i32)
    (h0 : IsEmbBlock e i X0) (h1 : IsWBlock w j X1) (h2 : IsLabBlock lab i X2) :
    mNew (F := Ideal) (BitVec.ofNat 32 j) (embN (F := Ideal) X0) X1 X2 (mCol e w lab i (colsAfter (j - 1))) = mCol e w lab i (colsAfter j)
    ∧ lNew (F := Ideal) (BitVec.ofNat 32 j) (embN (F := Ideal) X0) X1 X2 (mCol e w lab i (colsAfter (j - 1))) (lCol e w lab i (colsAfter (j - 1))) = lCol e w lab i (colsAfter j)
    ∧ tNew (F := Ideal) (BitVec.ofNat 32 j) (embN (F := Ideal) X0) X1 X2 (tCol e w lab i (colsAfter (j - 1))) = tCol e w lab i (colsAfter j) := by
  -- tile j - 1 ended at class 1024 j, all of whose predecessors exist
  have hn : colsAfter (j - 1) = 1024 * j := by unfold colsAfter; omega
  have hnn' : 1024 * j ≤ colsAfter j := by unfold colsAfter; omega
  have hpos : 0 < 1024 * j := by omega
  have hpos' : 0 < colsAfter j := by omega
  rw [hn]
  -- the new maximum of row p: the larger of the old maximum and the stretch's
  have hm : ∀ p : Fin 1024,
      mNew (F := Ideal) (BitVec.ofNat 32 j) (embN (F := Ideal) X0) X1 X2 (mCol e w lab i (1024 * j)) (ix2 p 0)
        = ((Math.mR (xR e w lab (rowOf i p)) (colsAfter j) : ℝ) : EReal) := by
    intro p
    rw [mNew_at, row_sup e w lab i j hj' X0 X1 X2 h0 h1 h2 p]
    show max (((Math.mR (xR e w lab (rowOf i p)) (1024 * j) : ℝ) : EReal)) _ = _
    rw [← Math.mE_eq_coe (xR e w lab (rowOf i p)) hpos, ← Math.mE_eq_coe (xR e w lab (rowOf i p)) hpos',
      Math.mE_append (xR e w lab (rowOf i p)) hnn']
  refine ⟨?_, ?_, ?_⟩
  · funext y
    obtain ⟨p, rfl⟩ := exists_row y
    exact hm p
  · -- the old sum rescaled by the exponential of old maximum minus new, plus the stretch's exponentials
    funext y
    obtain ⟨p, rfl⟩ := exists_row y
    rw [lNew_at, hm p, row_exp e w lab i j hj' X0 X1 X2 h0 h1 h2 p]
    show Ideal.exp (((Math.mR (xR e w lab (rowOf i p)) (1024 * j) : ℝ) : EReal) - _)
        * ((Math.lR (xR e w lab (rowOf i p)) (1024 * j) : ℝ) : EReal) + _
      = ((Math.lR (xR e w lab (rowOf i p)) (colsAfter j) : ℝ) : EReal)
    rw [← EReal.coe_sub, Cert.Arc.exp_coe, ← EReal.coe_mul, ← EReal.coe_add,
      ← Math.lR_append (xR e w lab (rowOf i p)) hpos hnn']
  · -- the old pick plus the stretch's
    funext y
    obtain ⟨p, rfl⟩ := exists_row y
    rw [tNew_at, row_pick e w lab hlab i j hj' X0 X1 X2 h0 h1 h2 p]
    show ((Math.tR (xR e w lab (rowOf i p)) (yOf lab (rowOf i p)) (1024 * j) : ℝ) : EReal) + _
      = ((Math.tR (xR e w lab (rowOf i p)) (yOf lab (rowOf i p)) (colsAfter j) : ℝ) : EReal)
    rw [← EReal.coe_add, ← Math.tR_append (xR e w lab (rowOf i p)) (yOf lab (rowOf i p)) hnn']

/-- The stored block agrees with the second result on the classes that exist. -/
theorem logits_at (i : Fin 2) (j : ℕ) (X0 X1 : Vec Ideal S1024x512 .f32) (h0 : IsEmbBlock e i X0) (h1 : IsWBlock w j X1)
    (p q : Fin 1024) (hq : 1024 * j + q.val < 50000) :
    logitsOut (F := Ideal) (embN (F := Ideal) X0) X1 (ix2 p q) = logitsA e w (ix2 (rowOf i p) ⟨1024 * j + q.val, hq⟩) := by
  rw [logitsOut_at]
  show _ = cosRow (fun d => e (ix2 (rowOf i p) d)) (fun d => w (ix2 ⟨1024 * j + q.val, hq⟩ d)) * sc64
  have e0 : (fun d => X0 (ix2 p d)) = fun d => e (ix2 (rowOf i p) d) := funext fun d => h0 p d
  have e1 : (fun d => X1 (ix2 q d)) = fun d => w (ix2 ⟨1024 * j + q.val, hq⟩ d) := funext fun d => h1 q d hq
  rw [e0, e1]

/-- The losses from the columns after all classes. -/
theorem nll_at (hlab : ∀ r, (lab r).toNat < 50000) (i : Fin 2) (p : Fin 1024) :
    nllOut (F := Ideal) (mCol e w lab i 50000) (lCol e w lab i 50000) (tCol e w lab i 50000) (ix2 p 0)
      = nllArr e w lab (ix2 (rowOf i p) 0) := by
  rw [nllOut_at]
  have hy : yOf lab (rowOf i p) < 50000 := hlab (rowOf i p)
  have hl : 0 < Math.lR (xR e w lab (rowOf i p)) 50000 := Math.lR_pos _ (by norm_num)
  show (((Math.mR (xR e w lab (rowOf i p)) 50000 : ℝ) : EReal)
        + Ideal.log ((Math.lR (xR e w lab (rowOf i p)) 50000 : ℝ) : EReal))
      - ((Math.tR (xR e w lab (rowOf i p)) (yOf lab (rowOf i p)) 50000 : ℝ) : EReal)
    = ((Math.nllR (xR e w lab (rowOf i p)) (yOf lab (rowOf i p)) 50000 : ℝ) : EReal)
  rw [Cert.Arc.log_coe hl, ← EReal.coe_add, ← EReal.coe_sub, Math.stream_eq_nllR _ hy]

end

end Cert.KernelIdeal.Arc

end
-- ==== Proof.KBlocks.lean ====
/-
  The windows' blocks as parts of the arrays, and the two result windows' blocks as a cover of their arrays.

  Grid point `t` of the 2 × 49 grid is row block `t / 49` and column tile `t % 49`. Its block of embedding rows is
  rows `1024·(t/49) + p` of the first argument; its block of class rows, however the rows past the array's end are
  filled, is rows `1024·(t%49) + q` of the third argument on the rows that exist; its block of labels is the same rows
  of the label column. The part of a 1024 × 1024 block that the logits window writes back is the block's entries
  whose class exists, and those parts together cover the 2048 × 50000 array; the loss window's blocks at the two
  last-column points cover the 2048 × 1 array.
-/
import proofs.«430956_j65068754534622_2_alg».proof.Proof.KSoftAt
import Idealize.ShloMosaic.Lib.Pipeline.Value

set_option maxRecDepth 16384

noncomputable section

namespace Cert.KernelIdeal.Arc

open Cert.KernelIdeal Cert.KernelIdeal.Gen Cert.Arc
open Idealize.ShloMosaic Idealize.ShloMosaic.ValueIdx Idealize.ShloMosaic.TcCoe Idealize.SL.Sem
open Idealize.ShloMosaic.Pipeline (Dat Cfg Window)

variable (m : (ℓ : Loc nD τ sig) → Buf (Elt Ideal) ℓ)

/-- The row block and the column tile of a grid point. -/
def rowBlk (t : Fin cfg0.N) : Fin 2 := ⟨t.val / 49, by have := t.isLt; have h : cfg0.N = 98 := N_0; omega⟩
def colTile (t : Fin cfg0.N) : ℕ := t.val % 49

theorem colTile_lt (t : Fin cfg0.N) : colTile t < 49 := Nat.mod_lt _ (by decide)

/-- The three argument arrays as the region finds them, as plain functions of an index. -/
def embArr (c : Dev nD) : S2048x512.Idx → EReal := V m c main_arg0
def wArr (c : Dev nD) : S50000x512.Idx → EReal := V m c main_arg2
/-- The labels, one word per row, as launched. -/
def labOf (c : Dev nD) : Fin 2048 → BitVec 32 := fun r => m ((c.tc : Thread nD τ).loc main_arg1) (ix1 r)

/-- The block indices of the five windows at a grid point, decided once over the 98 points: the embedding rows, the
    labels, the logits' rows and the losses move with the row block `t / 49`; the class rows and the logits' columns
    with the column tile `t % 49`; every other block index is 0. -/
theorem idx_facts : ∀ t : Fin cfg0.N,
    win0_0.index t (0 : Fin 2) = t.val / 49 ∧ win0_0.index t (1 : Fin 2) = 0
    ∧ win0_1.index t (0 : Fin 2) = t.val % 49 ∧ win0_1.index t (1 : Fin 2) = 0
    ∧ win0_2.index t (0 : Fin 2) = t.val / 49 ∧ win0_2.index t (1 : Fin 2) = 0
    ∧ win0_3.index t (0 : Fin 2) = t.val / 49 ∧ win0_3.index t (1 : Fin 2) = t.val % 49
    ∧ win0_4.index t (0 : Fin 2) = t.val / 49 ∧ win0_4.index t (1 : Fin 2) = 0 :=
  (by decide +kernel : ∀ t : Fin grid0.N, _)

/-- The extents of the two windows whose last block overhangs its array: 50000 = 48 · 1024 + 848, so at column tile 48
    the class rows' block keeps its first 848 rows and the logits' block its first 848 columns; elsewhere the blocks
    are whole. -/
theorem xsize_facts : ∀ t : Fin cfg0.N,
    win0_1.xsize (grid0.coords t) (0 : Fin 2) = (if t.val % 49 = 48 then 848 else 1024)
    ∧ win0_1.xsize (grid0.coords t) (1 : Fin 2) = 512
    ∧ win0_3.xsize (grid0.coords t) (0 : Fin 2) = 1024
    ∧ win0_3.xsize (grid0.coords t) (1 : Fin 2) = (if t.val % 49 = 48 then 848 else 1024) :=
  (by decide +kernel : ∀ t : Fin grid0.N, _)

/-- The label column the region finds (the host's reshape of the label vector) holds row `r`'s label at `(r, 0)`. -/
theorem V_labels (c : Dev nD) (r : Fin 2048) : (V m c main_v0 : S2048x1.Idx → BitVec 32) (ix2 r 0) = labOf m c r := by
  -- the one host line before the region reshapes the label vector into a column; entry (r, 0) of the column and
  -- entry r of the vector have the same row-major position
  have e : (V m c main_v0 : S2048x1.Idx → BitVec 32)
      = shapeCast S2048x1 (m ((c.tc : Thread nD τ).loc main_arg1)) shapeCasts_S2048_S2048x1 := by
    show StableHlo.after hostOps0 (fun b => m (c, b)) (Proc.devRef .tc main_v0) = _
    after_results; rfl
  rw [e]
  exact Cert.Lib.shapeCast_a_a1_apply _ _ r 0

theorem emb_block (c : Dev nD) (t : Fin cfg0.N) : IsEmbBlock (embArr m c) (rowBlk t) (iblk m c 0 t) := by
  intro p d
  obtain ⟨e00, e01, -⟩ := idx_facts t
  unfold iblk embArr
  rw [View.read_apply]
  show V m c main_arg0 (((cfg0.win 0).blk t).view.emb (ix2 p d)) = V m c main_arg0 (ix2 (rowOf (rowBlk t) p) d)
  -- a block's coordinate in the array is block index × block size + the coordinate inside the block
  refine congrArg _ (funext fun a => Fin.ext ?_)
  match a with
  | ⟨0, _⟩ => show win0_0.index t (0 : Fin 2) * 1024 + 1 * p.val = 1024 * (t.val / 49) + p.val; omega
  | ⟨1, _⟩ => show win0_0.index t (1 : Fin 2) * 512 + 1 * d.val = d.val; omega

theorem w_block (c : Dev nD) (t : Fin cfg0.N) (d : S1024x512.Idx → EReal) :
    IsWBlock (wArr m c) (colTile t) (win0_1.fill (grid0.coords t) d (iblk m c 1 t)) := by
  intro q k h
  obtain ⟨-, -, e10, e11, -⟩ := idx_facts t
  obtain ⟨x10, x11, -⟩ := xsize_facts t
  -- a class row that exists lies in the part of the block inside the array: at tile 48 it is one of the first 848
  have hmv : win0_1.moved (grid0.coords t) (ix2 q k) = true := by
    rw [Window.moved_iff]
    intro a
    match a with
    | ⟨0, _⟩ =>
      show q.val < win0_1.xsize (grid0.coords t) (0 : Fin 2)
      rw [x10]; unfold colTile at h; split <;> omega
    | ⟨1, _⟩ =>
      show k.val < win0_1.xsize (grid0.coords t) (1 : Fin 2)
      rw [x11]; exact k.isLt
  unfold Window.fill
  rw [dif_pos hmv]
  unfold iblk wArr
  rw [View.read_apply]
  show V m c main_arg2 (((cfg0.win 1).blk t).view.emb _) = V m c main_arg2 (ix2 ⟨1024 * colTile t + q.val, h⟩ k)
  refine congrArg _ (funext fun a => Fin.ext ?_)
  match a with
  | ⟨0, _⟩ => show win0_1.index t (0 : Fin 2) * 1024 + 1 * q.val = 1024 * colTile t + q.val; unfold colTile; omega
  | ⟨1, _⟩ => show win0_1.index t (1 : Fin 2) * 512 + 1 * k.val = k.val; omega

theorem lab_block (c : Dev nD) (t : Fin cfg0.N) : IsLabBlock (labOf m c) (rowBlk t) (iblk m c 2 t) := by
  intro p
  obtain ⟨-, -, -, -, e20, e21, -⟩ := idx_facts t
  rw [← V_labels m c (rowOf (rowBlk t) p)]
  unfold iblk
  rw [View.read_apply]
  show V m c main_v0 (((cfg0.win 2).blk t).view.emb (ix2 p 0)) = V m c main_v0 (ix2 (rowOf (rowBlk t) p) 0)
  refine congrArg _ (funext fun a => Fin.ext ?_)
  match a with
  | ⟨0, _⟩ => show win0_2.index t (0 : Fin 2) * 1024 + 1 * p.val = 1024 * (t.val / 49) + p.val; omega
  | ⟨1, _⟩ => show win0_2.index t (1 : Fin 2) * 1 + 1 * 0 = 0; omega

/-- What the logits window writes back from a staging block `Y` that agrees with a whole-array function `G` on the
    classes that exist is `G`'s block. -/
theorem cut_logits (t : Fin cfg0.N) (G : S2048x50000.Idx → EReal) (Y : S1024x1024.Idx → EReal)
    (h : ∀ (p q : Fin 1024) (hq : 1024 * colTile t + q.val < 50000), Y (ix2 p q) = G (ix2 (rowOf (rowBlk t) p) ⟨1024 * colTile t + q.val, hq⟩)) :
    win0_3.cut (grid0.coords t) Y = (win0_3.blk t).view.read (Elt Ideal) G := by
  obtain ⟨-, -, -, -, -, -, e30, e31, -⟩ := idx_facts t
  obtain ⟨-, -, x30, x31⟩ := xsize_facts t
  funext y
  rw [View.read_apply]
  show Y (win0_3.xinj (grid0.coords t) y) = G ((win0_3.blk t).view.emb y)
  -- an index of the part written back has its row below 1024 and its column below the extent, so its class exists
  have hy0 : (y 0).val < 1024 := by
    have h0 : (y 0).val < win0_3.xsize (grid0.coords t) (0 : Fin 2) := (y 0).isLt
    rw [x30] at h0; exact h0
  have hy1 : (y 1).val < (if t.val % 49 = 48 then 848 else 1024) := by
    have h1 : (y 1).val < win0_3.xsize (grid0.coords t) (1 : Fin 2) := (y 1).isLt
    rw [x31] at h1; exact h1
  have hy1' : (y 1).val < 1024 := by split at hy1 <;> omega
  have ht : t.val % 49 < 49 := Nat.mod_lt _ (by decide)
  have hq : 1024 * colTile t + (y 1).val < 50000 := by unfold colTile; split at hy1 <;> omega
  refine (congrArg Y ?_).trans ((h ⟨(y 0).val, hy0⟩ ⟨(y 1).val, hy1'⟩ hq).trans (congrArg G ?_))
  · funext a; apply Fin.ext
    match a with
    | ⟨0, _⟩ => rfl
    | ⟨1, _⟩ => rfl
  · funext a; apply Fin.ext
    match a with
    | ⟨0, _⟩ => show 1024 * (t.val / 49) + (y 0).val = win0_3.index t (0 : Fin 2) * 1024 + 1 * (y 0).val; omega
    | ⟨1, _⟩ => show 1024 * colTile t + (y 1).val = win0_3.index t (1 : Fin 2) * 1024 + 1 * (y 1).val; unfold colTile; omega

/-- The loss window's block of a whole-array column `G` at an index: the row of the point's row block. -/
theorem read_nll (t : Fin cfg0.N) (G : S2048x1.Idx → EReal) (p : Fin 1024) :
    (win0_4.blk t).view.read (Elt Ideal) G (ix2 p 0) = G (ix2 (rowOf (rowBlk t) p) 0) := by
  obtain ⟨-, -, -, -, -, -, -, -, e40, e41⟩ := idx_facts t
  rw [View.read_apply]
  show G ((win0_4.blk t).view.emb (ix2 p 0)) = G (ix2 (rowOf (rowBlk t) p) 0)
  refine congrArg _ (funext fun a => Fin.ext ?_)
  match a with
  | ⟨0, _⟩ => show win0_4.index t (0 : Fin 2) * 1024 + 1 * p.val = 1024 * (t.val / 49) + p.val; omega
  | ⟨1, _⟩ => show win0_4.index t (1 : Fin 2) * 1 + 1 * 0 = 0; omega

/-- Every entry of the 2048 × 50000 array lies in the part some grid point's logits block writes back (every point
    writes its block back). -/
theorem cover_logits (i : S2048x50000.Idx) :
    ∃ t : Fin cfg0.N, (cfg0.win 3).flush t = true ∧ i ∈ ((cfg0.win 3).blk t).view.set := by
  -- entry (r, k) lies in the block of the point at row block r / 1024 and column tile k / 1024: k is below 50000, so
  -- at tile 48 it is among the block's first 848 columns
  have hr : (i 0).val < 2048 := idx2_lt0 i
  have hk : (i 1).val < 50000 := idx2_lt1 i
  have hN : cfg0.N = 98 := N_0
  refine ⟨⟨49 * ((i 0).val / 1024) + (i 1).val / 1024, by omega⟩, flush0_3 _, ?_⟩
  generalize ht : (⟨49 * ((i 0).val / 1024) + (i 1).val / 1024, by omega⟩ : Fin cfg0.N) = t
  have htv : t.val = 49 * ((i 0).val / 1024) + (i 1).val / 1024 := by rw [← ht]
  obtain ⟨-, -, -, -, -, -, e30, e31, -⟩ := idx_facts t
  obtain ⟨-, -, x30, x31⟩ := xsize_facts t
  show i ∈ ((View.whole main_v1_0).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + win0_3.xsize (grid0.coords t) (0 : Fin 2)
    rw [x30, e30]; omega
  | ⟨1, _⟩ =>
    show win0_3.index t (1 : Fin 2) * 1024 ≤ (i 1).val ∧ (i 1).val < win0_3.index t (1 : Fin 2) * 1024 + win0_3.xsize (grid0.coords t) (1 : Fin 2)
    rw [x31, e31]; split <;> omega

/-- Every entry of the 2048 × 1 array lies in the loss block of one of the two last-column points, which are the
    points that write that block back. -/
theorem cover_nll (i : S2048x1.Idx) :
    ∃ t : Fin cfg0.N, (cfg0.win 4).flush t = true ∧ i ∈ ((cfg0.win 4).blk t).view.set := by
  -- entry (r, 0) lies in the block of the last-column point of row block r / 1024
  have hr : (i 0).val < 2048 := idx2_lt0 i
  have hk : (i 1).val < 1 := idx2_lt1 i
  have hN : cfg0.N = 98 := N_0
  generalize ht : (⟨49 * ((i 0).val / 1024) + 48, by omega⟩ : Fin cfg0.N) = t
  have htv : t.val = 49 * ((i 0).val / 1024) + 48 := by rw [← ht]
  refine ⟨t, (flush0_4 t).mpr (by omega), ?_⟩
  obtain ⟨-, -, -, -, -, -, -, -, e40, e41⟩ := idx_facts t
  show i ∈ ((View.whole main_v1_1).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e40]; omega
  | ⟨1, _⟩ =>
    show win0_4.index t (1 : Fin 2) * 1 ≤ (i 1).val ∧ (i 1).val < win0_4.index t (1 : Fin 2) * 1 + 1
    rw [e41]; omega

/-- The column of per-row losses reshaped to a vector. -/
theorem shapeCast_nllArr (e : S2048x512.Idx → EReal) (w : S50000x512.Idx → EReal) (lab : Fin 2048 → BitVec 32) :
    shapeCast S2048 (nllArr e w lab : S2048x1.Idx → EReal) shapeCasts_S2048x1_S2048 = nllVec e w lab := by
  funext j
  rw [eq_ix1 j]
  exact Cert.Lib.shapeCast_a1_a_apply _ _ (j 0)

end Cert.KernelIdeal.Arc

end
-- ==== Proof.KDat.lean ====
/-
  The idealized kernel's run with its results named.

  Proof data for the pipeline at the ideal instance: every array at what the region finds; after the body at a
  point the three input windows at their blocks (the class rows' block filled out past the array's end with a word
  nothing reads), the logits window at the second result's block, the loss window at the loss column's block; and
  between points the four carried buffers at the normalised block of embedding rows of the point's row block and at
  the three columns of the streamed softmax after the classes processed so far. The body obligation is the body's
  effect on its nine buffers, the columns advanced by one column tile; the launch theorem then gives every array
  after the run, the two result windows' blocks cover their arrays, and the host's mean of the loss column is the
  first result.
-/
import proofs.«430956_j65068754534622_2_alg».proof.Proof.KBlocks
import Idealize.ShloMosaic.Lib.Pipeline.FrameSuffix
import Idealize.ShloMosaic.Lib.StableHlo.Run

set_option maxRecDepth 16384

noncomputable section

namespace Cert.KernelIdeal.Arc

open Cert.KernelIdeal Cert.KernelIdeal.Gen Cert.Arc
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The two results as whole-array functions of the arguments the region finds -/

/-- The second result: every cosine times 64. -/
def G3 (c : Dev nD) : S2048x50000.Idx → EReal := logitsA (embArr m c) (wArr m c)
/-- The loss column: every row's negative log-softmax at its label. -/
def G4 (c : Dev nD) : S2048x1.Idx → EReal := nllArr (embArr m c) (wArr m c) (labOf m c)

/-! ## What the kernel carries between grid points -/

/-- The carried columns after grid point `t`: the streamed softmax of the point's row block over the classes of
    the column tiles up to the point's. -/
def mAt (c : Dev nD) (t : Fin cfg0.N) : Vec Ideal S1024x1 .f32 := mCol (embArr m c) (wArr m c) (labOf m c) (rowBlk t) (colsAfter (colTile t))
def lAt (c : Dev nD) (t : Fin cfg0.N) : Vec Ideal S1024x1 .f32 := lCol (embArr m c) (wArr m c) (labOf m c) (rowBlk t) (colsAfter (colTile t))
def tAt (c : Dev nD) (t : Fin cfg0.N) : Vec Ideal S1024x1 .f32 := tCol (embArr m c) (wArr m c) (labOf m c) (rowBlk t) (colsAfter (colTile t))
/-- The carried block of normalised embedding rows after grid point `t`. -/
def sAt (c : Dev nD) (t : Fin cfg0.N) : Vec Ideal S1024x512 .f32 := embN (F := Ideal) (iblk m c 0 t)

/-- The four scratch buffers as whole memrefs. -/
abbrev scM0 : Memref sig .tc .vmem S1024x512 .f32 := Memref.whole cc0_scratch0
abbrev scM1 : Memref sig .tc .vmem S1024x1 .f32 := Memref.whole cc0_scratch1
abbrev scM2 : Memref sig .tc .vmem S1024x1 .f32 := Memref.whole cc0_scratch2
abbrev scM3 : Memref sig .tc .vmem S1024x1 .f32 := Memref.whole cc0_scratch3

/-- The region's invariant before position `n`: before the first point the scratch buffers at anything; afterwards
    at what the point before left in them; and the generator register at some state. -/
def PhiS (c : Dev nD) : (n : ℕ) → n ≤ cfg0.N → sProp 𝕄
  | 0, _ => Pipeline.ΦA spec0 c
  | n + 1, hn => iprop((owns (c : Thread nD τ) scM0 fullShare (sAt m c ⟨n, hn⟩) ∗ owns (c : Thread nD τ) scM1 fullShare (mAt m c ⟨n, hn⟩)
      ∗ owns (c : Thread nD τ) scM2 fullShare (lAt m c ⟨n, hn⟩) ∗ owns (c : Thread nD τ) scM3 fullShare (tAt m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop((owns (c : Thread nD τ) scM0 fullShare (sAt m c ⟨n, hn⟩) ∗ owns (c : Thread nD τ) scM1 fullShare (mAt m c ⟨n, hn⟩)
      ∗ owns (c : Thread nD τ) scM2 fullShare (lAt m c ⟨n, hn⟩) ∗ owns (c : Thread nD τ) scM3 fullShare (tAt m c ⟨n, hn⟩)) ∗ (∃ r, prngReg c r)) := rfl

theorem PhiS_pos (c : Dev nD) (n : ℕ) (h : n ≤ cfg0.N) (hz : n ≠ 0) :
    PhiS m c n h = iprop((owns (c : Thread nD τ) scM0 fullShare (sAt m c ⟨n - 1, by omega⟩) ∗ owns (c : Thread nD τ) scM1 fullShare (mAt m c ⟨n - 1, by omega⟩)
      ∗ owns (c : Thread nD τ) scM2 fullShare (lAt m c ⟨n - 1, by omega⟩) ∗ owns (c : Thread nD τ) scM3 fullShare (tAt m c ⟨n - 1, by omega⟩)) ∗ (∃ r, prngReg c r)) := by
  cases n with
  | zero => exact absurd rfl hz
  | succ n => rfl

/-! ## The pipeline's proof data -/

/-- The proof data on core `c`: the arrays as the region finds them; after the body at point `t` the three inputs'
    buffers at their blocks (the class rows' filled out past the array's end with zero), the logits buffer at the
    second result's block (filled out likewise), the loss buffer at the loss column's block; the invariant `PhiS`;
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => iblk m c 2 t
    | ⟨3, _⟩ => win0_3.fill (grid0.coords t) (fun _ => (0 : EReal)) ((win0_3.blk t).view.read (Elt Ideal) (G3 m c))
    | ⟨4, _⟩ => (win0_4.blk t).view.read (Elt Ideal) (G4 m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = win0_1.fill (grid0.coords t) (fun _ => (0 : EReal)) (iblk m c 1 t) := by dsimp only [dats]
theorem after2 (c : Dev nD) (t : Fin cfg0.N) : (dats m 0 c).after 2 t = iblk m c 2 t := by dsimp only [dats]
theorem after3 (c : Dev nD) (t : Fin cfg0.N) : (dats m 0 c).after 3 t = win0_3.fill (grid0.coords t) (fun _ => (0 : EReal)) ((win0_3.blk t).view.read (Elt Ideal) (G3 m c)) := by dsimp only [dats]
theorem after4 (c : Dev nD) (t : Fin cfg0.N) : (dats m 0 c).after 4 t = (win0_4.blk t).view.read (Elt Ideal) (G4 m c) := by dsimp only [dats]

/-! ## The grid coordinates of a point, and where the loss window is idle -/

/-- Grid coordinate 1 of point `t` is its column tile. -/
theorem col_eq : ∀ t : Fin cfg0.N, (grid0.coords t 1).val = t.val % 49 :=
  (by decide +kernel : ∀ t : Fin grid0.N, (grid0.coords t 1).val = t.val % 49)

theorem jw_eq (t : Fin cfg0.N) : jw (grid0.coords t) = BitVec.ofNat 32 (colTile t) := by
  unfold jw colTile; rw [col_eq]

/-- Away from the last column tile the loss window is idle and is not written back. -/
theorem idle4 (t : Fin cfg0.N) (h : ¬condLast (grid0.coords t)) : cfg0.idle 4 (cfg0.grid.coords t) = true := by
  show (!(k0_cond2 (grid0.coords t) == 1#1)) = true
  simp only [Bool.not_eq_true', beq_eq_false_iff_ne, ne_eq]; exact h
theorem live4 (t : Fin cfg0.N) (h : condLast (grid0.coords t)) : cfg0.idle 4 (cfg0.grid.coords t) = false := by
  show (!(k0_cond2 (grid0.coords t) == 1#1)) = false
  simp only [Bool.not_eq_false', beq_iff_eq]; exact h
theorem noFlush4 (t : Fin cfg0.N) (h : ¬t.val % 49 = 48) : (cfg0.win 4).flush t = false :=
  Bool.eq_false_iff.mpr fun hf => h ((flush0_4 t).mp hf)

/-! ## What the body finds in each window's buffer -/

theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
/-- The class rows' buffer, fetched at every point: the block on the rows inside the array, anything past them. -/
theorem before1 (c : Dev nD) (t : Fin cfg0.N) (d) : (dats m 0 c).before 1 t d = win0_1.fill (grid0.coords t) d (iblk m c 1 t) := by
  rw [Dat.before_fetched _ 1 t (fetch0_1 t) d]; unfold Dat.fetched Dat.blockOf iblk; rw [A_eq]
/-- The logits buffer, written back at every point: anything. -/
theorem before3 (c : Dev nD) (t : Fin cfg0.N) (d) : (dats m 0 c).before 3 t d = d :=
  Dat.before_out_reset _ 3 rfl t (by
    by_cases h : t.val = 0
    · exact .inl h
    · exact .inr ⟨h, flush0_3 _⟩) d

/-! ## What the body must leave -/

abbrev ms0 (t : Fin cfg0.N) : Memref sig .tc .vmem S1024x512 .f32 := win0_0.stage (cfg0.slots t 0)
abbrev ms1 (t : Fin cfg0.N) : Memref sig .tc .vmem S1024x512 .f32 := win0_1.stage (cfg0.slots t 1)
abbrev ms2 (t : Fin cfg0.N) : Memref sig .tc .vmem S1024x1 .i32 := win0_2.stage (cfg0.slots t 2)
abbrev ms3 (t : Fin cfg0.N) : Memref sig .tc .vmem S1024x1024 .f32 := win0_3.stage (cfg0.slots t 3)
abbrev ms4 (t : Fin cfg0.N) : Memref sig .tc .vmem S1024x1 .f32 := win0_4.stage (cfg0.slots t 4)

theorem leaves0 (c : Dev nD) (t : Fin cfg0.N) : (dats m 0 c).leaves 0 t = owns (c : Thread nD τ) (ms0 t) fullShare (iblk m c 0 t) := by
  unfold Dat.leaves; rw [show cfg0.idle 0 (cfg0.grid.coords t) = false from rfl, show cfg0.loose 0 = false from rfl, after0]
theorem leaves2 (c : Dev nD) (t : Fin cfg0.N) : (dats m 0 c).leaves 2 t = owns (c : Thread nD τ) (ms2 t) fullShare (iblk m c 2 t) := by
  unfold Dat.leaves; rw [show cfg0.idle 2 (cfg0.grid.coords t) = false from rfl, show cfg0.loose 2 = false from rfl, after2]
theorem leaves1 (c : Dev nD) (t : Fin cfg0.N) : (dats m 0 c).leaves 1 t
    = iprop(∃ d, owns (c : Thread nD τ) (ms1 t) fullShare (win0_1.fill (grid0.coords t) d (iblk m c 1 t))) := by
  unfold Dat.leaves; rw [show cfg0.idle 1 (cfg0.grid.coords t) = false from rfl, show cfg0.loose 1 = true from rfl, after1]
  simp only [Window.cut_fill]; rfl
theorem leaves3 (c : Dev nD) (t : Fin cfg0.N) : (dats m 0 c).leaves 3 t
    = iprop(∃ d, owns (c : Thread nD τ) (ms3 t) fullShare (win0_3.fill (grid0.coords t) d ((win0_3.blk t).view.read (Elt Ideal) (G3 m c)))) := by
  unfold Dat.leaves; rw [show cfg0.idle 3 (cfg0.grid.coords t) = false from rfl, show cfg0.loose 3 = true from rfl, after3]
  simp only [Window.cut_fill]; rfl
theorem leaves4_idle (c : Dev nD) (t : Fin cfg0.N) (h : ¬condLast (grid0.coords t)) (h' : ¬t.val % 49 = 48) : (dats m 0 c).leaves 4 t
    = iprop(∃ d, owns (c : Thread nD τ) (ms4 t) fullShare ((dats m 0 c).before 4 t d)) :=
  Dat.leaves_idle _ 4 t (idle4 t h) (noFlush4 t h')
theorem leaves4_last (c : Dev nD) (t : Fin cfg0.N) (h : condLast (grid0.coords t)) : (dats m 0 c).leaves 4 t
    = owns (c : Thread nD τ) (ms4 t) fullShare ((win0_4.blk t).view.read (Elt Ideal) (G4 m c)) := by
  unfold Dat.leaves; rw [live4 t h, show cfg0.loose 4 = false from rfl, after4]

/-! ## The carried state from one point to the next -/

theorem IsEmbBlock.unique {e : S2048x512.Idx → EReal} {i : Fin 2} {X Y : Vec Ideal S1024x512 .f32}
    (hX : IsEmbBlock e i X) (hY : IsEmbBlock e i Y) : X = Y := by
  funext y
  have hy : y = ix2 (n0 := 1024) (n1 := 512) (y 0) (y 1) := eq_ix2 (n0 := 1024) (n1 := 512) y
  rw [hy]; exact (hX _ _).trans (hY _ _).symm

theorem N98 : cfg0.N = 98 := N_0

/-- Within a row block the point before has the same row block and the column tile before. -/
theorem rowBlk_pred (t : Fin cfg0.N) (h : ¬t.val % 49 = 0) (h' : t.val - 1 < cfg0.N) : rowBlk ⟨t.val - 1, h'⟩ = rowBlk t := by
  apply Fin.ext; show (t.val - 1) / 49 = t.val / 49; omega
theorem colTile_pred (t : Fin cfg0.N) (h : ¬t.val % 49 = 0) (h' : t.val - 1 < cfg0.N) : colTile ⟨t.val - 1, h'⟩ = colTile t - 1 := by
  show (t.val - 1) % 49 = t.val % 49 - 1; omega

/-- The carried block of normalised embedding rows does not change within a row block. -/
theorem sAt_pred (c : Dev nD) (t : Fin cfg0.N) (h : ¬t.val % 49 = 0) (h' : t.val - 1 < cfg0.N) : sAt m c ⟨t.val - 1, h'⟩ = sAt m c t := by
  unfold sAt
  have h1 := emb_block m c ⟨t.val - 1, h'⟩
  rw [rowBlk_pred t h h'] at h1
  exact congrArg (embN (F := Ideal)) (IsEmbBlock.unique h1 (emb_block m c t))

section
variable (hlab : ∀ (c : Dev nD) (r : Fin 2048), (labOf m c r).toNat < 50000)
include hlab

/-- The first column tile of a row block: the reset columns advanced by the tile are the columns after it. -/
theorem cols_first (c : Dev nD) (t : Fin cfg0.N) (h0 : t.val % 49 = 0) (d1 : S1024x512.Idx → EReal) :
    mNew (F := Ideal) (jw (grid0.coords t)) (sAt m c t) (win0_1.fill (grid0.coords t) d1 (iblk m c 1 t)) (iblk m c 2 t) (k0_pay5 (F := Ideal)) = mAt m c t
    ∧ lNew (F := Ideal) (jw (grid0.coords t)) (sAt m c t) (win0_1.fill (grid0.coords t) d1 (iblk m c 1 t)) (iblk m c 2 t) (k0_pay5 (F := Ideal)) (k0_pay6 (F := Ideal)) = lAt m c t
    ∧ tNew (F := Ideal) (jw (grid0.coords t)) (sAt m c t) (win0_1.fill (grid0.coords t) d1 (iblk m c 1 t)) (iblk m c 2 t) (k0_pay7 (F := Ideal)) = tAt m c t := by
  have hc : colTile t = 0 := h0
  have hw := w_block m c t d1
  rw [hc] at hw
  unfold mAt lAt tAt sAt
  rw [jw_eq, hc]
  exact step_first (embArr m c) (wArr m c) (labOf m c) (hlab c) (rowBlk t) (iblk m c 0 t) _ (iblk m c 2 t) (emb_block m c t) hw (lab_block m c t)

/-- A later column tile: the columns after the tile before, advanced by the tile, are the columns after it. -/
theorem cols_next (c : Dev nD) (t : Fin cfg0.N) (h0 : ¬t.val % 49 = 0) (h' : t.val - 1 < cfg0.N) (d1 : S1024x512.Idx → EReal) :
    mNew (F := Ideal) (jw (grid0.coords t)) (sAt m c t) (win0_1.fill (grid0.coords t) d1 (iblk m c 1 t)) (iblk m c 2 t) (mAt m c ⟨t.val - 1, h'⟩) = mAt m c t
    ∧ lNew (F := Ideal) (jw (grid0.coords t)) (sAt m c t) (win0_1.fill (grid0.coords t) d1 (iblk m c 1 t)) (iblk m c 2 t) (mAt m c ⟨t.val - 1, h'⟩) (lAt m c ⟨t.val - 1, h'⟩) = lAt m c t
    ∧ tNew (F := Ideal) (jw (grid0.coords t)) (sAt m c t) (win0_1.fill (grid0.coords t) d1 (iblk m c 1 t)) (iblk m c 2 t) (tAt m c ⟨t.val - 1, h'⟩) = tAt m c t := by
  unfold mAt lAt tAt sAt
  rw [jw_eq, rowBlk_pred t h0 h', colTile_pred t h0 h']
  exact step_next (embArr m c) (wArr m c) (labOf m c) (hlab c) (rowBlk t) (colTile t) (Nat.pos_of_ne_zero h0) (colTile_lt t) (iblk m c 0 t) _ (iblk m c 2 t)
    (emb_block m c t) (w_block m c t d1) (lab_block m c t)

/-- The last column tile: the losses computed from the columns after it are the loss column's block. -/
theorem nll_ok (c : Dev nD) (t : Fin cfg0.N) (h48 : t.val % 49 = 48) :
    nllOut (F := Ideal) (mAt m c t) (lAt m c t) (tAt m c t) = (win0_4.blk t).view.read (Elt Ideal) (G4 m c) := by
  have hc : colTile t = 48 := h48
  have h5 : colsAfter 48 = 50000 := by decide
  unfold mAt lAt tAt G4
  rw [hc, h5]
  funext y
  have hy : y = ix2 (n0 := 1024) (n1 := 1) (y 0) 0 :=
    (eq_ix2 (n0 := 1024) (n1 := 1) y).trans (congrArg (ix2 (n0 := 1024) (n1 := 1) (y 0)) (Subsingleton.elim (α := Fin 1) _ _))
  rw [hy]
  exact (nll_at (embArr m c) (wArr m c) (labOf m c) (hlab c) (rowBlk t) (y 0)).trans (read_nll t _ (y 0)).symm

end

/-- The block of scaled cosines the point stores agrees, on the part the write-back moves, with the second result's
    block: so stated on that part it is what the body leaves. -/
theorem logits_ok (c : Dev nD) (t : Fin cfg0.N) (d1 : S1024x512.Idx → EReal) :
    win0_3.fill (grid0.coords t) (logitsOut (F := Ideal) (sAt m c t) (win0_1.fill (grid0.coords t) d1 (iblk m c 1 t)))
        ((win0_3.blk t).view.read (Elt Ideal) (G3 m c))
      = logitsOut (F := Ideal) (sAt m c t) (win0_1.fill (grid0.coords t) d1 (iblk m c 1 t)) := by
  have h : win0_3.cut (grid0.coords t) (logitsOut (F := Ideal) (sAt m c t) (win0_1.fill (grid0.coords t) d1 (iblk m c 1 t)))
      = (win0_3.blk t).view.read (Elt Ideal) (G3 m c) :=
    cut_logits t (G3 m c) _ fun p q hq =>
      logits_at (embArr m c) (wArr m c) (rowBlk t) (colTile t) (iblk m c 0 t) _ (emb_block m c t) (w_block m c t d1) p q hq
  rw [← h]; exact win0_3.fill_cut _ _

/-! ## The body obligation, at a generic point -/

theorem PhiA0_eq (c : Dev nD) :
    (Pipeline.ΦA spec0 c : sProp 𝕄)
      = iprop(((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d))
        ∗ (∃ r, prngReg c r)) := by
  unfold Pipeline.ΦA; rw [scopedRest0_eq]; simp only [owns_whole]; try rfl

/-- At any position the invariant gives the scratch buffers at some contents: what they hold is forgotten. -/
theorem Phi_weak (c : Dev nD) (n : ℕ) (h : n ≤ cfg0.N) :
    PhiS m c n h ⊢ iprop(((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d))
        ∗ (∃ r, prngReg c r)) := by
  by_cases hz : n = 0
  · rw [PhiS_zero m c n h hz, PhiA0_eq]
  · rw [PhiS_pos m c n h hz]
    iintro ⟨⟨S0, S1, S2, S3⟩, Hg⟩
    isplitr [Hg]
    · isplitl [S0]; · iexists _; iexact S0
      isplitl [S1]; · iexists _; iexact S1
      isplitl [S2]; · iexists _; iexact S2
      iexists _; iexact S3
    · iexact Hg

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t ∗ (dats m 0 c).leaves 4 t)

section
variable (hlab : ∀ (c : Dev nD) (r : Fin 2048), (labOf m c r).toNat < 50000)
include hlab

/-- The body at any point. The inputs' buffers hold their blocks; the point's position says which control case it is
    in; the invariant hands the body the four carried buffers at what the point before left (at anything where a row
    block starts, which resets them); the case's effect on the nine buffers applies; the advanced columns are the
    columns after the point's tile, the stored block of cosines is the second result's block on the classes that
    exist, and at the last tile the stored losses are the loss column's block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl,
    show (dats m 0 c).Φ t.succ = PhiS m c (t.val + 1) t.isLt from rfl, PhiS_succ, PhiS_castSucc,
    leaves0, leaves1, leaves2, leaves3]
  have hN : t.val < 98 := lt_of_lt_of_eq t.isLt N98
  have hs : sAt m c t = embN (F := Ideal) (iblk m c 0 t) := rfl
  by_cases h0 : t.val % 49 = 0
  · have hc1 : condFirst (grid0.coords t) := (hcondFirst t).mpr h0
    have hc2 : ¬condLast (grid0.coords t) := fun h => by have := (hcondLast t).mp h; omega
    rw [leaves4_idle m c t hc2 (by omega)]
    iintro ⟨HΦ, Ho, ⟨%d0, H0⟩, ⟨%d1, H1⟩, ⟨%d2, H2⟩, ⟨%d3, H3⟩, ⟨%d4, H4⟩⟩
    ihave HΦ' := (Phi_weak m c _ _) $$ HΦ
    icases HΦ' with ⟨⟨S0, S1, S2, S3⟩, Hg⟩
    obtain ⟨em, el, et⟩ := cols_first m hlab c t h0 d1
    have elog := logits_ok m c t d1
    rw [hs] at em el et elog
    rw [hs]
    iapply (body_first (F := Ideal) c (grid0.coords t) _ _ _ _ _ _ _ _ _ _ _ _ _ _ _ _ _ _ hc1 hc2 (iblk m c 0 t) (win0_1.fill (grid0.coords t) d1 (iblk m c 1 t)) (iblk m c 2 t) ((dats m 0 c).before 4 t d4) Set.univ _)
    isplitl [H0]; · iexact H0
    isplitl [H1]; · iexact H1
    isplitl [H2]; · iexact H2
    isplitl [H3]; · iexists _; iexact H3
    isplitl [H4]; · iexact H4
    isplitl [S0]; · iexact S0
    isplitl [S1]; · iexact S1
    isplitl [S2]; · iexact S2
    isplitl [S3]; · iexact S3
    iintro ⟨H0, H1, H2, H3, H4, S0, S1, S2, S3⟩
    rw [em, el, et]
    isplitl [S0 S1 S2 S3 Hg]
    · isplitr [Hg]
      · isplitl [S0]; · iexact S0
        isplitl [S1]; · iexact S1
        isplitl [S2]; · iexact S2
        iexact S3
      · iexact Hg
    isplitl [Ho]; · iexact Ho
    isplitl [H0]; · iexact H0
    isplitl [H1]; · iexists d1; iexact H1
    isplitl [H2]; · iexact H2
    isplitl [H3]
    · iexists _; rw [elog]; iexact H3
    iexists d4; iexact H4
  · have hc1 : ¬condFirst (grid0.coords t) := fun h => h0 ((hcondFirst t).mp h)
    have h' : t.val - 1 < cfg0.N := Nat.lt_of_le_of_lt (Nat.sub_le _ _) t.isLt
    have hz : t.val ≠ 0 := fun h => h0 (by rw [h])
    rw [PhiS_pos m c _ _ hz, sAt_pred m c t h0 h']
    by_cases h1 : t.val % 49 = 48
    · have hc2 : condLast (grid0.coords t) := (hcondLast t).mpr h1
      rw [leaves4_last m c t hc2]
      iintro ⟨⟨⟨S0, S1, S2, S3⟩, Hg⟩, Ho, ⟨%d0, H0⟩, ⟨%d1, H1⟩, ⟨%d2, H2⟩, ⟨%d3, H3⟩, ⟨%d4, H4⟩⟩
      obtain ⟨em, el, et⟩ := cols_next m hlab c t h0 h' d1
      have elog := logits_ok m c t d1
      have enll := nll_ok m hlab c t h1
      iapply (body_last (F := Ideal) c (grid0.coords t) _ _ _ _ _ _ _ _ _ _ _ _ _ _ _ _ _ _ hc1 hc2 (iblk m c 0 t) (win0_1.fill (grid0.coords t) d1 (iblk m c 1 t)) (iblk m c 2 t)
        (sAt m c t) (mAt m c ⟨t.val - 1, h'⟩) (lAt m c ⟨t.val - 1, h'⟩) (tAt m c ⟨t.val - 1, h'⟩) Set.univ _)
      isplitl [H0]; · iexact H0
      isplitl [H1]; · iexact H1
      isplitl [H2]; · iexact H2
      isplitl [H3]; · iexists _; iexact H3
      isplitl [H4]; · iexists _; iexact H4
      isplitl [S0]; · iexact S0
      isplitl [S1]; · iexact S1
      isplitl [S2]; · iexact S2
      isplitl [S3]; · iexact S3
      iintro ⟨H0, H1, H2, H3, H4, S0, S1, S2, S3⟩
      rw [em, el, et, enll]
      isplitl [S0 S1 S2 S3 Hg]
      · isplitr [Hg]
        · isplitl [S0]; · iexact S0
          isplitl [S1]; · iexact S1
          isplitl [S2]; · iexact S2
          iexact S3
        · iexact Hg
      isplitl [Ho]; · iexact Ho
      isplitl [H0]; · iexact H0
      isplitl [H1]; · iexists d1; iexact H1
      isplitl [H2]; · iexact H2
      isplitl [H3]
      · iexists _; rw [elog]; iexact H3
      iexact H4
    · have hc2 : ¬condLast (grid0.coords t) := fun h => h1 ((hcondLast t).mp h)
      rw [leaves4_idle m c t hc2 h1]
      iintro ⟨⟨⟨S0, S1, S2, S3⟩, Hg⟩, Ho, ⟨%d0, H0⟩, ⟨%d1, H1⟩, ⟨%d2, H2⟩, ⟨%d3, H3⟩, ⟨%d4, H4⟩⟩
      obtain ⟨em, el, et⟩ := cols_next m hlab c t h0 h' d1
      have elog := logits_ok m c t d1
      iapply (body_mid (F := Ideal) c (grid0.coords t) _ _ _ _ _ _ _ _ _ _ _ _ _ _ _ _ _ _ hc1 hc2 (iblk m c 0 t) (win0_1.fill (grid0.coords t) d1 (iblk m c 1 t)) (iblk m c 2 t) ((dats m 0 c).before 4 t d4)
        (sAt m c t) (mAt m c ⟨t.val - 1, h'⟩) (lAt m c ⟨t.val - 1, h'⟩) (tAt m c ⟨t.val - 1, h'⟩) Set.univ _)
      isplitl [H0]; · iexact H0
      isplitl [H1]; · iexact H1
      isplitl [H2]; · iexact H2
      isplitl [H3]; · iexists _; iexact H3
      isplitl [H4]; · iexact H4
      isplitl [S0]; · iexact S0
      isplitl [S1]; · iexact S1
      isplitl [S2]; · iexact S2
      isplitl [S3]; · iexact S3
      iintro ⟨H0, H1, H2, H3, H4, S0, S1, S2, S3⟩
      rw [em, el, et]
      isplitl [S0 S1 S2 S3 Hg]
      · isplitr [Hg]
        · isplitl [S0]; · iexact S0
          isplitl [S1]; · iexact S1
          isplitl [S2]; · iexact S2
          iexact S3
        · iexact Hg
      isplitl [Ho]; · iexact Ho
      isplitl [H0]; · iexact H0
      isplitl [H1]; · iexists d1; iexact H1
      isplitl [H2]; · iexact H2
      isplitl [H3]
      · iexists _; rw [elog]; iexact H3
      iexists d4; iexact H4

/-- The library's body obligation, in the form the pipeline's loop uses, at every point. -/
theorem body_obligation (c : Dev nD) : BodyObligationLoose (dats m 0 c) (defs₀ (F := Ideal)) Variants.none () Set.univ := fun t => by
  rw [bigSep_W0, bigSep_W0]
  exact sound_body m hlab c t

end

/-! ## The run -/

section
variable (hlab : ∀ (c : Dev nD) (r : Fin 2048), (labOf m c r).toNat < 50000)

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_zero m c 0 _ rfl]

/-- and after the last point the invariant gives it back. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact Phi_weak m c _ _

include hlab in
set_option backward.isDefEq.respectTransparency.types false in
/-- Every weakly fair execution of @main terminates, and in every final state each array of the pipeline holds what
    the write-backs of the proof data leave in it and every other unscoped buffer what the host operations after the
    region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hlab c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-! ## The arrays after the run -/

/-- The logits array: every point writes back its block of the second result, and the blocks cover the array. -/
theorem final3 (c : Dev nD) : (dats m 0 c).arrAt 3 cfg0.N = G3 m c :=
  Dat.arrAt_eq_of_cover (dats m 0 c) 3 (G3 m c)
    (fun t _ => by
      show win0_3.cut (grid0.coords t) ((dats m 0 c).after 3 t) = _
      rw [after3]; exact win0_3.cut_fill _ _ _)
    cover_logits

/-- The loss column: the two last-column points write back its two blocks. -/
theorem final4 (c : Dev nD) : (dats m 0 c).arrAt 4 cfg0.N = G4 m c :=
  Dat.arrAt_eq_of_cover (dats m 0 c) 4 (G4 m c)
    (fun t _ => by
      show win0_4.cut (grid0.coords t) ((dats m 0 c).after 4 t) = _
      rw [after4])
    cover_nll

theorem tail_v4 (c : Dev nD) : Pipeline.afterTail₀ cfgs (dats m) 0 (V0 m) [hostOps1] c main_v4
    = lossA (embArr m c) (wArr m c) (labOf m c) reducesTo_S2048_S_d0 h_S_ := by
  unfold Pipeline.afterTail₀
  show StableHlo.after hostOps1 _ (Proc.devRef .tc main_v4) = _
  after_results
  have e' : Pipeline.withArrays (cfgs 0).spec c (V0 m c) (fun w => (dats m 0 c).arrAt w (cfgs 0).N) (Proc.tc.devRef main_v1_1) = G4 m c :=
    (Pipeline.withArrays_arr spec0 launch0.win.arr_inj c (V0 m c) (fun w => (dats m 0 c).arrAt w cfg0.N) 4).trans (final4 m c)
  rw [e']
  show Host.divf (F := Ideal) (φ := .f32) (Host.reduceAdd (F := Ideal) (φ := .f32) (shapeCast S2048 (G4 m c) shapeCasts_S2048x1_S2048) (constant (F := Ideal) S_ .f32 0x00000000#32) reducesTo_S2048_S_d0 h_S_) (constant (F := Ideal) S_ .f32 0x45000000#32) = _
  unfold G4
  rw [shapeCast_nllArr]
  rfl

end

/-- At the compiled mesh, from any memory with zero counters whose labels are class numbers: every weakly fair
    execution of the idealized kernel's @main terminates, its first result is the mean of the rows' negative
    log-softmax at their labels, its second the array of cosines times 64, and the arguments are unchanged. -/
theorem run_values (hlab : ∀ (c : Dev nD) (r : Fin 2048), (labOf m c r).toNat < 50000) :
    θ_run defs (onTc (τ := τ) (main (F := Ideal))) ⟨m, fun _ => 0, ρ⟩ (fun r => ∀ c : Dev nD,
      r.2.mem ((c.tc : Thread nD τ).loc main_v4)
          = lossA (m ((c.tc : Thread nD τ).loc main_arg0)) (m ((c.tc : Thread nD τ).loc main_arg2)) (labOf m c) reducesTo_S2048_S_d0 h_S_
      ∧ r.2.mem ((c.tc : Thread nD τ).loc main_v1_0)
          = logitsA (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (run_main m ρ hlab)
  have he : embArr m c = m ((c.tc : Thread nD τ).loc main_arg0) := V_main_arg0 m c
  have hw : wArr m c = m ((c.tc : Thread nD τ).loc main_arg2) := V_main_arg2 m c
  refine ⟨?_, ?_, ?_, ?_, ?_⟩
  · rw [← he, ← hw]
    exact ((h c).2 main_v4 (Pipeline.mem_restRefs_of main_v4 (by decide) (by decide))).trans (tail_v4 m c)
  · rw [← he, ← hw]
    exact ((h c).1 3).trans (final3 m c)
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).1 1).trans (((dats m 0 c).arrAt_in 1 rfl _).trans ((A_eq m c 1).trans (V_main_arg2 m c)))

end Cert.KernelIdeal.Arc

end
-- ==== Proof.RefRun.lean ====
/-
  The reference program's run: every weakly fair execution of its @main terminates with its two results at the
  composition of its host operations, stage by stage, of the argument arrays, and the arguments unchanged.
-/
import proofs.«430956_j65068754534622_2_alg».proof.Proof.RefReadP

noncomputable section

namespace Cert.ReferenceIdeal.ArcRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in four stretches

The 127 operations of @main in program order, cut after the clamped cosines (`main_v12`), after the logits
(`main_v36`) and after the log-softmax (`main_v37`). -/

/-- Operations 1–30: the two normalisations, their product, the clamp. -/
abbrev ops1 : List (HloOp τ sig (Elt F)) :=
  [ TRef.binary (TRef.of (T := ⟨S2048x512, .f32⟩) main_arg0) (TRef.of (T := ⟨S2048x512, .f32⟩) main_arg0) (TRef.of (T := ⟨S2048x512, .f32⟩) main_call0_v0) mulf,
    TRef.nullary (TRef.of (T := ⟨S_, .f32⟩) main_call0_cst) (constant S_ .f32 0x00000000#32),
    TRef.binary (TRef.of (T := ⟨S2048x512, .f32⟩) main_call0_v0) (TRef.of (T := ⟨S_, .f32⟩) main_call0_cst) (TRef.of (T := ⟨S2048, .f32⟩) main_call0_v1) (fun x v => Host.reduceAdd x v reducesTo_S2048x512_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v0) Host.sqrt,
    nullary main_cst (constant S_ .f32 0x2B8CBCCC#32),
    unary main_cst main_v1 (broadcastInDim S2048x1 ![] bcast_S_S2048x1 : (⟨S_, .f32⟩ : BufTy).Contents (Elt F) → (⟨S2048x1, .f32⟩ : BufTy).Contents (Elt F)),
    binary main_v0 main_v1 main_v2 (maximumf : (⟨S2048x1, .f32⟩ : BufTy).Contents (Elt F) → (⟨S2048x1, .f32⟩ : BufTy).Contents (Elt F) → (⟨S2048x1, .f32⟩ : BufTy).Contents (Elt F)),
    unary main_v2 main_v3 (broadcastInDim S2048x512 ![0, 1] bcast_S2048x1_S2048x512_0_1 : (⟨S2048x1, .f32⟩ : BufTy).Contents (Elt F) → (⟨S2048x512, .f32⟩ : BufTy).Contents (Elt F)),
    binary main_arg0 main_v3 main_v4 (Host.divf : (⟨S2048x512, .f32⟩ : BufTy).Contents (Elt F) → (⟨S2048x512, .f32⟩ : BufTy).Contents (Elt F) → (⟨S2048x512, .f32⟩ : BufTy).Contents (Elt F)),
    TRef.binary (TRef.of (T := ⟨S50000x512, .f32⟩) main_arg2) (TRef.of (T := ⟨S50000x512, .f32⟩) main_arg2) (TRef.of (T := ⟨S50000x512, .f32⟩) main_call1_v0) mulf,
    TRef.nullary (TRef.of (T := ⟨S_, .f32⟩) main_call1_cst) (constant S_ .f32 0x00000000#32),
    TRef.binary (TRef.of (T := ⟨S50000x512, .f32⟩) main_call1_v0) (TRef.of (T := ⟨S_, .f32⟩) main_call1_cst) (TRef.of (T := ⟨S50000, .f32⟩) main_call1_v1) (fun x v => Host.reduceAdd x v reducesTo_S50000x512_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v5) Host.sqrt,
    nullary main_cst_0 (constant S_ .f32 0x2B8CBCCC#32),
    unary main_cst_0 main_v6 (broadcastInDim S50000x1 ![] bcast_S_S50000x1 : (⟨S_, .f32⟩ : BufTy).Contents (Elt F) → (⟨S50000x1, .f32⟩ : BufTy).Contents (Elt F)),
    binary main_v5 main_v6 main_v7 (maximumf : (⟨S50000x1, .f32⟩ : BufTy).Contents (Elt F) → (⟨S50000x1, .f32⟩ : BufTy).Contents (Elt F) → (⟨S50000x1, .f32⟩ : BufTy).Contents (Elt F)),
    unary main_v7 main_v8 (broadcastInDim S50000x512 ![0, 1] bcast_S50000x1_S50000x512_0_1 : (⟨S50000x1, .f32⟩ : BufTy).Contents (Elt F) → (⟨S50000x512, .f32⟩ : BufTy).Contents (Elt F)),
    binary main_arg2 main_v8 main_v9 (Host.divf : (⟨S50000x512, .f32⟩ : BufTy).Contents (Elt F) → (⟨S50000x512, .f32⟩ : BufTy).Contents (Elt F) → (⟨S50000x512, .f32⟩ : BufTy).Contents (Elt F)),
    unary main_v9 main_v10 ((transpose S512x50000 [1, 0] · transposes_S50000x512_S512x50000_1_0) : (⟨S50000x512, .f32⟩ : BufTy).Contents (Elt F) → (⟨S512x50000, .f32⟩ : BufTy).Contents (Elt F)),
    binary main_v4 main_v10 main_v11 ((fun l r => Host.dotGeneral dot_S2048x512_S512x50000_S2048x50000_1_0_0_1_n_n none l r) : (⟨S2048x512, .f32⟩ : BufTy).Contents (Elt F) → (⟨S512x50000, .f32⟩ : BufTy).Contents (Elt F) → (⟨S2048x50000, .f32⟩ : BufTy).Contents (Elt F)),
    nullary main_cst_1 (constant S_ .f32 0xBF7FFFFE#32),
    nullary main_cst_2 (constant S_ .f32 0x3F7FFFFE#32),
    TRef.unary (TRef.of (T := ⟨S_, .f32⟩) main_cst_1) (TRef.of (T := ⟨S_, .f32⟩) main_call2_v0) id,
    TRef.unary (TRef.of (T := ⟨S_, .f32⟩) main_call2_v0) (TRef.of (T := ⟨S2048x50000, .f32⟩) main_call2_v1) (broadcastInDim S2048x50000 ![] bcast_S_S2048x50000),
    TRef.binary (TRef.of (T := ⟨S2048x50000, .f32⟩) main_call2_v1) (TRef.of (T := ⟨S2048x50000, .f32⟩) main_v11) (TRef.of (T := ⟨S2048x50000, .f32⟩) main_call2_v2) maximumf,
    TRef.unary (TRef.of (T := ⟨S_, .f32⟩) main_cst_2) (TRef.of (T := ⟨S_, .f32⟩) main_call2_v3) id,
    TRef.unary (TRef.of (T := ⟨S_, .f32⟩) main_call2_v3) (TRef.of (T := ⟨S2048x50000, .f32⟩) main_call2_v4) (broadcastInDim S2048x50000 ![] bcast_S_S2048x50000),
    TRef.binary (TRef.of (T := ⟨S2048x50000, .f32⟩) main_call2_v4) (TRef.of (T := ⟨S2048x50000, .f32⟩) main_call2_v2) (TRef.of (T := ⟨S2048x50000, .f32⟩) main_v12) minimumf ]

/-- Operations 31–67: the margin-shifted cosine, the one-hot indicator, the logits. -/
abbrev ops2 : List (HloOp τ sig (Elt F)) :=
  [ binary main_v12 main_v12 main_v13 (mulf : (⟨S2048x50000, .f32⟩ : BufTy).Contents (Elt F) → (⟨S2048x50000, .f32⟩ : BufTy).Contents (Elt F) → (⟨S2048x50000, .f32⟩ : BufTy).Contents (Elt F)),
    nullary main_cst_3 (constant S_ .f32 0x3F800000#32),
    unary main_cst_3 main_v14 (broadcastInDim S2048x50000 ![] bcast_S_S2048x50000 : (⟨S_, .f32⟩ : BufTy).Contents (Elt F) → (⟨S2048x50000, .f32⟩ : BufTy).Contents (Elt F)),
    binary main_v14 main_v13 main_v15 (subf : (⟨S2048x50000, .f32⟩ : BufTy).Contents (Elt F) → (⟨S2048x50000, .f32⟩ : BufTy).Contents (Elt F) → (⟨S2048x50000, .f32⟩ : BufTy).Contents (Elt F)),
    unary main_v15 main_v16 (Host.sqrt : (⟨S2048x50000, .f32⟩ : BufTy).Contents (Elt F) → (⟨S2048x50000, .f32⟩ : BufTy).Contents (Elt F)),
    nullary main_cst_4 (constant S_ .f32 0x33D6BF95#32),
    unary main_cst_4 main_v17 (broadcastInDim S2048x50000 ![] bcast_S_S2048x50000 : (⟨S_, .f32⟩ : BufTy).Contents (Elt F) → (⟨S2048x50000, .f32⟩ : BufTy).Contents (Elt F)),
    binary main_v16 main_v17 main_v18 (maximumf : (⟨S2048x50000, .f32⟩ : BufTy).Contents (Elt F) → (⟨S2048x50000, .f32⟩ : BufTy).Contents (Elt F) → (⟨S2048x50000, .f32⟩ : BufTy).Contents (Elt F)),
    nullary main_cst_5 (constant S_ .f32 0x3F534932#32),
    unary main_cst_5 main_v19 (broadcastInDim S2048x50000 ![] bcast_S_S2048x50000 : (⟨S_, .f32⟩ : BufTy).Contents (Elt F) → (⟨S2048x50000, .f32⟩ : BufTy).Contents (Elt F)),
    binary main_v12 main_v19 main_v20 (mulf : (⟨S2048x50000, .f32⟩ : BufTy).Contents (Elt F) → (⟨S2048x50000, .f32⟩ : BufTy).Contents (Elt F) → (⟨S2048x50000, .f32⟩ : BufTy).Contents (Elt F)),
    nullary main_cst_6 (constant S_ .f32 0x3F108C69#32),
    unary main_cst_6 main_v21 (broadcastInDim S2048x50000 ![] bcast_S_S2048x50000 : (⟨S_, .f32⟩ : BufTy).Contents (Elt F) → (⟨S2048x50000, .f32⟩ : BufTy).Contents (Elt F)),
    binary main_v18 main_v21 main_v22 (mulf : (⟨S2048x50000, .f32⟩ : BufTy).Contents (Elt F) → (⟨S2048x50000, .f32⟩ : BufTy).Contents (Elt F) → (⟨S2048x50000, .f32⟩ : BufTy).Contents (Elt F)),
    binary main_v20 main_v22 main_v23 (subf : (⟨S2048x50000, .f32⟩ : BufTy).Contents (Elt F) → (⟨S2048x50000, .f32⟩ : BufTy).Contents (Elt F) → (⟨S2048x50000, .f32⟩ : BufTy).Contents (Elt F)),
    nullary main_cst_7 (constant S_ .f32 0xBF534932#32),
    unary main_cst_7 main_v24 (broadcastInDim S2048x50000 ![] bcast_S_S2048x50000 : (⟨S_, .f32⟩ : BufTy).Contents (Elt F) → (⟨S2048x50000, .f32⟩ : BufTy).Contents (Elt F)),
    binary main_v12 main_v24 main_v25 (cmpf .ogt : (⟨S2048x50000, .f32⟩ : BufTy).Contents (Elt F) → (⟨S2048x50000, .f32⟩ : BufTy).Contents (Elt F) → (⟨S2048x50000, .i1⟩ : BufTy).Contents (Elt F)),
    nullary main_cst_8 (constant S_ .f32 0x3EAD754A#32),
    unary main_cst_8 main_v26 (broadcastInDim S2048x50000 ![] bcast_S_S2048x50000 : (⟨S_, .f32⟩ : BufTy).Contents (Elt F) → (⟨S2048x50000, .f32⟩ : BufTy).Contents (Elt F)),
    binary main_v12 main_v26 main_v27 (subf : (⟨S2048x50000, .f32⟩ : BufTy).Contents (Elt F) → (⟨S2048x50000, .f32⟩ : BufTy).Contents (Elt F) → (⟨S2048x50000, .f32⟩ : BufTy).Contents (Elt F)),
    TRef.ternary (TRef.of (T := ⟨S2048x50000, .i1⟩) main_v25) (TRef.of (T := ⟨S2048x50000, .f32⟩) main_v23) (TRef.of (T := ⟨S2048x50000, .f32⟩) main_v27) (TRef.of (T := ⟨S2048x50000, .f32⟩) main_v28) select,
    TRef.unary (TRef.of (T := ⟨S2048, .i32⟩) main_arg1) (TRef.of (T := ⟨S2048x1, .i32⟩) main_call4_v0) (broadcastInDim S2048x1 ![0] bcast_S2048_S2048x1_0),
    TRef.nullary (TRef.of (T := ⟨S1x50000, .i32⟩) main_call4_v1) (iotaInDim S1x50000 32 1),
    TRef.unary (TRef.of (T := ⟨S2048x1, .i32⟩) main_call4_v0) (TRef.of (T := ⟨S2048x50000, .i32⟩) main_call4_v2) (broadcastInDim S2048x50000 ![0, 1] bcast_S2048x1_S2048x50000_0_1),
    TRef.unary (TRef.of (T := ⟨S1x50000, .i32⟩) main_call4_v1) (TRef.of (T := ⟨S2048x50000, .i32⟩) main_call4_v3) (broadcastInDim S2048x50000 ![0, 1] bcast_S1x50000_S2048x50000_0_1),
    TRef.binary (TRef.of (T := ⟨S2048x50000, .i32⟩) main_call4_v2) (TRef.of (T := ⟨S2048x50000, .i32⟩) main_call4_v3) (TRef.of (T := ⟨S2048x50000, .i1⟩) main_call4_v4) (cmpi .eq),
    TRef.unary (TRef.of (T := ⟨S2048x50000, .i1⟩) main_call4_v4) (TRef.of (T := ⟨S2048x50000, .f32⟩) main_v29) (uitofp .f32),
    nullary main_cst_9 (constant S_ .f32 0x3F800000#32),
    unary main_cst_9 main_v30 (broadcastInDim S2048x50000 ![] bcast_S_S2048x50000 : (⟨S_, .f32⟩ : BufTy).Contents (Elt F) → (⟨S2048x50000, .f32⟩ : BufTy).Contents (Elt F)),
    binary main_v30 main_v29 main_v31 (subf : (⟨S2048x50000, .f32⟩ : BufTy).Contents (Elt F) → (⟨S2048x50000, .f32⟩ : BufTy).Contents (Elt F) → (⟨S2048x50000, .f32⟩ : BufTy).Contents (Elt F)),
    binary main_v12 main_v31 main_v32 (mulf : (⟨S2048x50000, .f32⟩ : BufTy).Contents (Elt F) → (⟨S2048x50000, .f32⟩ : BufTy).Contents (Elt F) → (⟨S2048x50000, .f32⟩ : BufTy).Contents (Elt F)),
    binary main_v28 main_v29 main_v33 (mulf : (⟨S2048x50000, .f32⟩ : BufTy).Contents (Elt F) → (⟨S2048x50000, .f32⟩ : BufTy).Contents (Elt F) → (⟨S2048x50000, .f32⟩ : BufTy).Contents (Elt F)),
    binary main_v32 main_v33 main_v34 (addf : (⟨S2048x50000, .f32⟩ : BufTy).Contents (Elt F) → (⟨S2048x50000, .f32⟩ : BufTy).Contents (Elt F) → (⟨S2048x50000, .f32⟩ : BufTy).Contents (Elt F)),
    nullary main_cst_10 (constant S_ .f32 0x42800000#32),
    unary main_cst_10 main_v35 (broadcastInDim S2048x50000 ![] bcast_S_S2048x50000 : (⟨S_, .f32⟩ : BufTy).Contents (Elt F) → (⟨S2048x50000, .f32⟩ : BufTy).Contents (Elt F)),
    binary main_v34 main_v35 main_v36 (mulf : (⟨S2048x50000, .f32⟩ : BufTy).Contents (Elt F) → (⟨S2048x50000, .f32⟩ : BufTy).Contents (Elt F) → (⟨S2048x50000, .f32⟩ : BufTy).Contents (Elt F)) ]

/-- Operations 68–82: the log-softmax of the logits. -/
abbrev ops3 : List (HloOp τ sig (Elt F)) :=
  [ TRef.nullary (TRef.of (T := ⟨S_, .f32⟩) main_call5_cst) (constant S_ .f32 0xFF800000#32),
    TRef.binary (TRef.of (T := ⟨S2048x50000, .f32⟩) main_v36) (TRef.of (T := ⟨S_, .f32⟩) main_call5_cst) (TRef.of (T := ⟨S2048, .f32⟩) main_call5_v0) (fun x v => Host.reduce FloatOps.maximumf x v reducesTo_S2048x50000_S2048_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S2048, .f32⟩) main_call5_v1) (broadcastInDim S2048 ![] bcast_S_S2048),
    TRef.binary (TRef.of (T := ⟨S2048, .f32⟩) main_call5_v1) (TRef.of (T := ⟨S2048, .f32⟩) main_call5_v0) (TRef.of (T := ⟨S2048, .f32⟩) main_call5_v2) maximumf,
    TRef.unary (TRef.of (T := ⟨S2048, .f32⟩) main_call5_v2) (TRef.of (T := ⟨S2048x1, .f32⟩) main_call5_v3) (broadcastInDim S2048x1 ![0] bcast_S2048_S2048x1_0),
    TRef.unary (TRef.of (T := ⟨S2048x1, .f32⟩) main_call5_v3) (TRef.of (T := ⟨S2048x50000, .f32⟩) main_call5_v4) (broadcastInDim S2048x50000 ![0, 1] bcast_S2048x1_S2048x50000_0_1),
    TRef.binary (TRef.of (T := ⟨S2048x50000, .f32⟩) main_v36) (TRef.of (T := ⟨S2048x50000, .f32⟩) main_call5_v4) (TRef.of (T := ⟨S2048x50000, .f32⟩) main_call5_v5) subf,
    TRef.unary (TRef.of (T := ⟨S2048x50000, .f32⟩) main_call5_v5) (TRef.of (T := ⟨S2048x50000, .f32⟩) main_call5_v6) Host.exp,
    TRef.nullary (TRef.of (T := ⟨S_, .f32⟩) main_call5_cst_1) (constant S_ .f32 0x00000000#32),
    TRef.binary (TRef.of (T := ⟨S2048x50000, .f32⟩) main_call5_v6) (TRef.of (T := ⟨S_, .f32⟩) main_call5_cst_1) (TRef.of (T := ⟨S2048, .f32⟩) main_call5_v7) (fun x v => Host.reduceAdd x v reducesTo_S2048x50000_S2048_d1 h_S_),
    TRef.unary (TRef.of (T := ⟨S2048, .f32⟩) main_call5_v7) (TRef.of (T := ⟨S2048x1, .f32⟩) main_call5_v8) (broadcastInDim S2048x1 ![0] bcast_S2048_S2048x1_0),
    TRef.unary (TRef.of (T := ⟨S2048x1, .f32⟩) main_call5_v8) (TRef.of (T := ⟨S2048x1, .f32⟩) main_call5_v9) Host.log,
    TRef.unary (TRef.of (T := ⟨S2048x1, .f32⟩) main_call5_v9) (TRef.of (T := ⟨S2048x50000, .f32⟩) main_call5_v10) (broadcastInDim S2048x50000 ![0, 1] bcast_S2048x1_S2048x50000_0_1),
    TRef.binary (TRef.of (T := ⟨S2048x50000, .f32⟩) main_call5_v5) (TRef.of (T := ⟨S2048x50000, .f32⟩) main_call5_v10) (TRef.of (T := ⟨S2048x50000, .f32⟩) main_v37) subf ]

/-- Operations 83–127: the entry at the label, the mean over the rows, and the second result. -/
abbrev ops4 : List (HloOp τ sig (Elt F)) :=
  [ unary main_arg1 main_v38 (broadcastInDim S2048x1 ![0] bcast_S2048_S2048x1_0 : (⟨S2048, .i32⟩ : BufTy).Contents (Elt F) → (⟨S2048x1, .i32⟩ : BufTy).Contents (Elt F)),
    TRef.nullary (TRef.of (T := ⟨S_, .i32⟩) main_call6_c) (constantI S_ 32 0#32),
    TRef.unary (TRef.of (T := ⟨S_, .i32⟩) main_call6_c) (TRef.of (T := ⟨S2048x1, .i32⟩) main_call6_v0) (broadcastInDim S2048x1 ![] bcast_S_S2048x1),
    TRef.binary (TRef.of (T := ⟨S2048x1, .i32⟩) main_v38) (TRef.of (T := ⟨S2048x1, .i32⟩) main_call6_v0) (TRef.of (T := ⟨S2048x1, .i1⟩) main_call6_v1) (cmpi .slt),
    TRef.nullary (TRef.of (T := ⟨S_, .i32⟩) main_call6_c_0) (constantI S_ 32 50000#32),
    TRef.unary (TRef.of (T := ⟨S_, .i32⟩) main_call6_c_0) (TRef.of (T := ⟨S2048x1, .i32⟩) main_call6_v2) (broadcastInDim S2048x1 ![] bcast_S_S2048x1),
    TRef.binary (TRef.of (T := ⟨S2048x1, .i32⟩) main_v38) (TRef.of (T := ⟨S2048x1, .i32⟩) main_call6_v2) (TRef.of (T := ⟨S2048x1, .i32⟩) main_call6_v3) addi,
    TRef.ternary (TRef.of (T := ⟨S2048x1, .i1⟩) main_call6_v1) (TRef.of (T := ⟨S2048x1, .i32⟩) main_call6_v3) (TRef.of (T := ⟨S2048x1, .i32⟩) main_v38) (TRef.of (T := ⟨S2048x1, .i32⟩) main_call6_v4) select,
    TRef.reshape (TRef.of (T := ⟨S2048x1, .i32⟩) main_call6_v4) (TRef.of (T := ⟨S2048x1x1, .i32⟩) main_call6_v5) rfl shapeCasts_S2048x1_S2048x1x1,
    TRef.nullary (TRef.of (T := ⟨S1, .i32⟩) main_call6_c_1) (constantI S1 32 49999#32),
    TRef.nullary (TRef.of (T := ⟨S_, .i32⟩) main_call6_c_2) (constantI S_ 32 0#32),
    TRef.unary (TRef.of (T := ⟨S_, .i32⟩) main_call6_c_2) (TRef.of (T := ⟨S2048x1x1, .i32⟩) main_call6_v6) (broadcastInDim S2048x1x1 ![] bcast_S_S2048x1x1),
    TRef.binary (TRef.of (T := ⟨S2048x1x1, .i32⟩) main_call6_v5) (TRef.of (T := ⟨S2048x1x1, .i32⟩) main_call6_v6) (TRef.of (T := ⟨S2048x1x1, .i1⟩) main_call6_v7) (cmpi .sge),
    TRef.unary (TRef.of (T := ⟨S1, .i32⟩) main_call6_c_1) (TRef.of (T := ⟨S1x1x1, .i32⟩) main_call6_v8) (broadcastInDim S1x1x1 ![2] bcast_S1_S1x1x1_2),
    TRef.unary (TRef.of (T := ⟨S1x1x1, .i32⟩) main_call6_v8) (TRef.of (T := ⟨S2048x1x1, .i32⟩) main_call6_v9) (broadcastInDim S2048x1x1 ![0, 1, 2] bcast_S1x1x1_S2048x1x1_0_1_2),
    TRef.binary (TRef.of (T := ⟨S2048x1x1, .i32⟩) main_call6_v5) (TRef.of (T := ⟨S2048x1x1, .i32⟩) main_call6_v9) (TRef.of (T := ⟨S2048x1x1, .i1⟩) main_call6_v10) (cmpi .sle),
    TRef.binary (TRef.of (T := ⟨S2048x1x1, .i1⟩) main_call6_v7) (TRef.of (T := ⟨S2048x1x1, .i1⟩) main_call6_v10) (TRef.of (T := ⟨S2048x1x1, .i1⟩) main_call6_v11) andi,
    TRef.nullary (TRef.of (T := ⟨S_, .i1⟩) main_call6_c_3) (constantI S_ 1 1#1),
    TRef.binary (TRef.of (T := ⟨S2048x1x1, .i1⟩) main_call6_v11) (TRef.of (T := ⟨S_, .i1⟩) main_call6_c_3) (TRef.of (T := ⟨S2048x1, .i1⟩) main_call6_v12) (fun x v => Host.reduce IntOp.andi x v reducesTo_S2048x1x1_S2048x1_d2 h_S_),
    TRef.binary (TRef.of (T := ⟨S2048x50000, .f32⟩) main_v37) (TRef.of (T := ⟨S2048x1x1, .i32⟩) main_call6_v5) (TRef.of (T := ⟨S2048x1, .f32⟩) main_call6_v13) (fun x i => Host.gather gather_S2048x50000_S2048x1x1_S2048x1_n_1_0_0_1_2_11 x i),
    TRef.nullary (TRef.of (T := ⟨S_, .f32⟩) main_call6_cst) (constant S_ .f32 0x7FC00000#32),
    TRef.unary (TRef.of (T := ⟨S_, .f32⟩) main_call6_cst) (TRef.of (T := ⟨S2048x1, .f32⟩) main_call6_v14) (broadcastInDim S2048x1 ![] bcast_S_S2048x1),
    TRef.ternary (TRef.of (T := ⟨S2048x1, .i1⟩) main_call6_v12) (TRef.of (T := ⟨S2048x1, .f32⟩) main_call6_v13) (TRef.of (T := ⟨S2048x1, .f32⟩) main_call6_v14) (TRef.of (T := ⟨S2048x1, .f32⟩) main_v39) select,
    reshape main_v39 main_v40 rfl shapeCasts_S2048x1_S2048,
    unary main_v40 main_v41 (Host.negf : (⟨S2048, .f32⟩ : BufTy).Contents (Elt F) → (⟨S2048, .f32⟩ : BufTy).Contents (Elt F)),
    nullary main_cst_11 (constant S_ .f32 0x00000000#32),
    binary main_v37 main_cst_11 main_v42 ((fun x v => Host.reduceAdd x v reducesTo_S2048x50000_S2048_d1 h_S_) : (⟨S2048x50000, .f32⟩ : BufTy).Contents (Elt F) → (⟨S_, .f32⟩ : BufTy).Contents (Elt F) → (⟨S2048, .f32⟩ : BufTy).Contents (Elt F)),
    nullary main_cst_12 (constant S_ .f32 0x47435000#32),
    unary main_cst_12 main_v43 (broadcastInDim S2048 ![] bcast_S_S2048 : (⟨S_, .f32⟩ : BufTy).Contents (Elt F) → (⟨S2048, .f32⟩ : BufTy).Contents (Elt F)),
    binary main_v42 main_v43 main_v44 (Host.divf : (⟨S2048, .f32⟩ : BufTy).Contents (Elt F) → (⟨S2048, .f32⟩ : BufTy).Contents (Elt F) → (⟨S2048, .f32⟩ : BufTy).Contents (Elt F)),
    unary main_v44 main_v45 (Host.negf : (⟨S2048, .f32⟩ : BufTy).Contents (Elt F) → (⟨S2048, .f32⟩ : BufTy).Contents (Elt F)),
    nullary main_cst_13 (constant S_ .f32 0x3F800000#32),
    unary main_cst_13 main_v46 (broadcastInDim S2048 ![] bcast_S_S2048 : (⟨S_, .f32⟩ : BufTy).Contents (Elt F) → (⟨S2048, .f32⟩ : BufTy).Contents (Elt F)),
    binary main_v46 main_v41 main_v47 (mulf : (⟨S2048, .f32⟩ : BufTy).Contents (Elt F) → (⟨S2048, .f32⟩ : BufTy).Contents (Elt F) → (⟨S2048, .f32⟩ : BufTy).Contents (Elt F)),
    nullary main_cst_14 (constant S_ .f32 0x00000000#32),
    unary main_cst_14 main_v48 (broadcastInDim S2048 ![] bcast_S_S2048 : (⟨S_, .f32⟩ : BufTy).Contents (Elt F) → (⟨S2048, .f32⟩ : BufTy).Contents (Elt F)),
    binary main_v48 main_v45 main_v49 (mulf : (⟨S2048, .f32⟩ : BufTy).Contents (Elt F) → (⟨S2048, .f32⟩ : BufTy).Contents (Elt F) → (⟨S2048, .f32⟩ : BufTy).Contents (Elt F)),
    binary main_v47 main_v49 main_v50 (addf : (⟨S2048, .f32⟩ : BufTy).Contents (Elt F) → (⟨S2048, .f32⟩ : BufTy).Contents (Elt F) → (⟨S2048, .f32⟩ : BufTy).Contents (Elt F)),
    nullary main_cst_15 (constant S_ .f32 0x00000000#32),
    binary main_v50 main_cst_15 main_v51 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_16 (constant S_ .f32 0x45000000#32),
    binary main_v51 main_cst_16 main_v52 (Host.divf : (⟨S_, .f32⟩ : BufTy).Contents (Elt F) → (⟨S_, .f32⟩ : BufTy).Contents (Elt F) → (⟨S_, .f32⟩ : BufTy).Contents (Elt F)),
    nullary main_cst_17 (constant S_ .f32 0x42800000#32),
    unary main_cst_17 main_v53 (broadcastInDim S2048x50000 ![] bcast_S_S2048x50000 : (⟨S_, .f32⟩ : BufTy).Contents (Elt F) → (⟨S2048x50000, .f32⟩ : BufTy).Contents (Elt F)),
    binary main_v12 main_v53 main_v54 (mulf : (⟨S2048x50000, .f32⟩ : BufTy).Contents (Elt F) → (⟨S2048x50000, .f32⟩ : BufTy).Contents (Elt F) → (⟨S2048x50000, .f32⟩ : BufTy).Contents (Elt F)) ]

/-- The whole list is the four stretches in order. -/
theorem ops_eq : (ValueP.ops : List (HloOp τ sig (Elt F))) = ops1 ++ (ops2 ++ (ops3 ++ ops4)) := rfl

/-! ## Contents at a buffer's own type

An operation of an outlined function is stated over references that carry their value's type; its function moves
contents between that type and the buffer's own type, which for a literal reference are the same type. -/

/-- Moving contents to a buffer's own type and back is the identity. -/
theorem ofBuf_toBuf {sg : RefSig} {Vl : EltTy → Type} {T : BufTy} (x : TRef sg T) (v : T.Contents Vl) : x.ofBuf (x.toBuf v) = v := by
  show cast _ (cast _ v) = v
  rw [cast_cast]
  exact cast_eq _ v

/-- At the buffer of the log-softmax, whose type is the value's, moving contents to the buffer's type is the identity. -/
theorem toBuf_v37 (a : (⟨S2048x50000, .f32⟩ : BufTy).Contents (Elt F)) :
    (TRef.of (T := ⟨S2048x50000, .f32⟩) main_v37).toBuf (sig := sig) (Val := Elt F) a = a := rfl

section Stretches

variable (V : Valuation τ sig (Elt F))

/-- The contents after all the operations are the contents after the fourth stretch from those after the third, and so
    on back to the start. -/
theorem after_ops : after (ValueP.ops : List (HloOp τ sig (Elt F))) V = after ops4 (after ops3 (after ops2 (after ops1 V))) := by
  rw [ops_eq, StableHlo.after_append, StableHlo.after_append, StableHlo.after_append]

/-! ### First stretch: from the arguments to the clamped cosines -/

set_option maxRecDepth 8192 in
set_option maxHeartbeats 4000000 in
theorem s1_v12 : after ops1 V (Proc.devRef .tc main_v12)
    = ReadP.val_main_v12 (F := F) (V (Proc.devRef .tc main_arg0)) (V (Proc.devRef .tc main_arg2)) := by
  after_results_simp <;> rfl

set_option maxRecDepth 8192 in
theorem s1_arg0 : after ops1 V (Proc.devRef .tc main_arg0) = V (Proc.devRef .tc main_arg0) := by
  after_results_simp <;> rfl

set_option maxRecDepth 8192 in
theorem s1_arg1 : after ops1 V (Proc.devRef .tc main_arg1) = V (Proc.devRef .tc main_arg1) := by
  after_results_simp <;> rfl

set_option maxRecDepth 8192 in
theorem s1_arg2 : after ops1 V (Proc.devRef .tc main_arg2) = V (Proc.devRef .tc main_arg2) := by
  after_results_simp <;> rfl

/-! ### Second stretch: from the cosines and the labels to the logits -/

set_option maxRecDepth 8192 in
set_option maxHeartbeats 4000000 in
theorem s2_v36 (x0 : (⟨S2048x512, .f32⟩ : BufTy).Contents (Elt F)) (x1 : (⟨S2048, .i32⟩ : BufTy).Contents (Elt F))
    (x2 : (⟨S50000x512, .f32⟩ : BufTy).Contents (Elt F))
    (h12 : V (Proc.devRef .tc main_v12) = ReadP.val_main_v12 (F := F) x0 x2) (h1 : V (Proc.devRef .tc main_arg1) = x1) :
    after ops2 V (Proc.devRef .tc main_v36) = ReadP.val_main_v36 (F := F) x0 x1 x2 := by
  after_results_simp
  rw [h12, h1]
  rfl

set_option maxRecDepth 8192 in
theorem s2_v12 : after ops2 V (Proc.devRef .tc main_v12) = V (Proc.devRef .tc main_v12) := by
  after_results_simp <;> rfl

set_option maxRecDepth 8192 in
theorem s2_arg0 : after ops2 V (Proc.devRef .tc main_arg0) = V (Proc.devRef .tc main_arg0) := by
  after_results_simp <;> rfl

set_option maxRecDepth 8192 in
theorem s2_arg1 : after ops2 V (Proc.devRef .tc main_arg1) = V (Proc.devRef .tc main_arg1) := by
  after_results_simp <;> rfl

set_option maxRecDepth 8192 in
theorem s2_arg2 : after ops2 V (Proc.devRef .tc main_arg2) = V (Proc.devRef .tc main_arg2) := by
  after_results_simp <;> rfl

/-! ### Third stretch: from the logits to their log-softmax -/

set_option maxRecDepth 8192 in
set_option maxHeartbeats 4000000 in
theorem s3_v37 (x0 : (⟨S2048x512, .f32⟩ : BufTy).Contents (Elt F)) (x1 : (⟨S2048, .i32⟩ : BufTy).Contents (Elt F))
    (x2 : (⟨S50000x512, .f32⟩ : BufTy).Contents (Elt F))
    (h36 : V (Proc.devRef .tc main_v36) = ReadP.val_main_v36 (F := F) x0 x1 x2) :
    after ops3 V (Proc.devRef .tc main_v37) = ReadP.val_main_v37 (F := F) x0 x1 x2 := by
  have e36 : (TRef.of (T := ⟨S2048x50000, .f32⟩) main_v36).ofBuf (sig := sig) (Val := Elt F) (V (Proc.devRef .tc main_v36))
      = ReadP.val_main_v36 (F := F) x0 x1 x2 := h36
  after_results_simp
  simp only [ofBuf_toBuf, e36]
  refine (toBuf_v37 _).trans ?_
  rfl

set_option maxRecDepth 8192 in
theorem s3_v12 : after ops3 V (Proc.devRef .tc main_v12) = V (Proc.devRef .tc main_v12) := by
  after_results_simp <;> rfl

set_option maxRecDepth 8192 in
theorem s3_arg0 : after ops3 V (Proc.devRef .tc main_arg0) = V (Proc.devRef .tc main_arg0) := by
  after_results_simp <;> rfl

set_option maxRecDepth 8192 in
theorem s3_arg1 : after ops3 V (Proc.devRef .tc main_arg1) = V (Proc.devRef .tc main_arg1) := by
  after_results_simp <;> rfl

set_option maxRecDepth 8192 in
theorem s3_arg2 : after ops3 V (Proc.devRef .tc main_arg2) = V (Proc.devRef .tc main_arg2) := by
  after_results_simp <;> rfl

/-! ### Fourth stretch: from the log-softmax, the labels and the cosines to the two results -/

set_option maxRecDepth 8192 in
set_option maxHeartbeats 4000000 in
theorem s4_v52 (x0 : (⟨S2048x512, .f32⟩ : BufTy).Contents (Elt F)) (x1 : (⟨S2048, .i32⟩ : BufTy).Contents (Elt F))
    (x2 : (⟨S50000x512, .f32⟩ : BufTy).Contents (Elt F))
    (h37 : V (Proc.devRef .tc main_v37) = ReadP.val_main_v37 (F := F) x0 x1 x2) (h1 : V (Proc.devRef .tc main_arg1) = x1) :
    after ops4 V (Proc.devRef .tc main_v52) = ReadP.val_main_v52 (F := F) x0 x1 x2 := by
  after_results_simp
  rw [h37, h1]
  rfl

set_option maxRecDepth 8192 in
set_option maxHeartbeats 4000000 in
theorem s4_v54 (x0 : (⟨S2048x512, .f32⟩ : BufTy).Contents (Elt F)) (x2 : (⟨S50000x512, .f32⟩ : BufTy).Contents (Elt F))
    (h12 : V (Proc.devRef .tc main_v12) = ReadP.val_main_v12 (F := F) x0 x2) :
    after ops4 V (Proc.devRef .tc main_v54) = ReadP.val_main_v54 (F := F) x0 x2 := by
  after_results_simp
  rw [h12]
  rfl

set_option maxRecDepth 8192 in
theorem s4_arg0 : after ops4 V (Proc.devRef .tc main_arg0) = V (Proc.devRef .tc main_arg0) := by
  after_results_simp <;> rfl

set_option maxRecDepth 8192 in
theorem s4_arg1 : after ops4 V (Proc.devRef .tc main_arg1) = V (Proc.devRef .tc main_arg1) := by
  after_results_simp <;> rfl

set_option maxRecDepth 8192 in
theorem s4_arg2 : after ops4 V (Proc.devRef .tc main_arg2) = V (Proc.devRef .tc main_arg2) := by
  after_results_simp <;> rfl

/-! ### The stretches joined -/

/-- The arguments are never written. -/
theorem after_arg0 : after (ValueP.ops : List (HloOp τ sig (Elt F))) V (Proc.devRef .tc main_arg0) = V (Proc.devRef .tc main_arg0) := by
  rw [after_ops, s4_arg0, s3_arg0, s2_arg0, s1_arg0]
theorem after_arg1 : after (ValueP.ops : List (HloOp τ sig (Elt F))) V (Proc.devRef .tc main_arg1) = V (Proc.devRef .tc main_arg1) := by
  rw [after_ops, s4_arg1, s3_arg1, s2_arg1, s1_arg1]
theorem after_arg2 : after (ValueP.ops : List (HloOp τ sig (Elt F))) V (Proc.devRef .tc main_arg2) = V (Proc.devRef .tc main_arg2) := by
  rw [after_ops, s4_arg2, s3_arg2, s2_arg2, s1_arg2]

/-- The first result is its stage of the arguments. -/
theorem after_v52 : after (ValueP.ops : List (HloOp τ sig (Elt F))) V (Proc.devRef .tc main_v52)
    = ReadP.val_main_v52 (F := F) (V (Proc.devRef .tc main_arg0)) (V (Proc.devRef .tc main_arg1)) (V (Proc.devRef .tc main_arg2)) := by
  rw [after_ops]
  refine s4_v52 _ _ _ _ (s3_v37 _ _ _ _ (s2_v36 _ _ _ _ (s1_v12 V) (s1_arg1 V))) ?_
  rw [s3_arg1, s2_arg1, s1_arg1]

/-- The second result is its stage of the arguments. -/
theorem after_v54 : after (ValueP.ops : List (HloOp τ sig (Elt F))) V (Proc.devRef .tc main_v54)
    = ReadP.val_main_v54 (F := F) (V (Proc.devRef .tc main_arg0)) (V (Proc.devRef .tc main_arg2)) := by
  rw [after_ops]
  refine s4_v54 _ _ _ ?_
  rw [s3_v12, s2_v12, s1_v12]

end Stretches

/-- On every device, for any float values, from any memory with zero counters: every weakly fair execution of @main
    terminates with each result at its stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52) = Cert.ReferenceIdeal.ReadP.val_main_v52 (F := F) (m ((c.tc : Thread nD τ).loc main_arg0)) (m ((c.tc : Thread nD τ).loc main_arg1)) (m ((c.tc : Thread nD τ).loc main_arg2))
      ∧ r.2.mem ((c.tc : Thread nD τ).loc main_v54) = Cert.ReferenceIdeal.ReadP.val_main_v54 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v52).trans (after_v52 _), (h c main_v54).trans (after_v54 _),
      (h c main_arg0).trans (after_arg0 _), (h c main_arg1).trans (after_arg1 _), (h c main_arg2).trans (after_arg2 _)⟩)
    (run_seq ValueP.scopedRefs_eq ValueP.scopedSems_eq defs main (fun _ => ValueP.ops) ValueP.main_eq (fun _ => ValueP.ops_sub) m ρ)

end Cert.ReferenceIdeal.ArcRun

end
-- ==== Proof.RefCosAt.lean ====
/-
  The reference's cosines and logits, read at an index.

  The reference normalises every embedding row and every class row by its clamped Euclidean norm, multiplies the
  two normalised arrays, clamps the products into the cosine interval, and forms each logit from its cosine and the
  indicator of "this class is the row's label" — the same extended-real expressions, index by index, as the common
  specification's `cosA` and `xA`; its second result is the cosine times 64.
-/
import proofs.«430956_j65068754534622_2_alg».proof.Proof.RefReadP
import proofs.«430956_j65068754534622_2_alg».proof.Proof.ArcSpec
import proofs.«430956_j65068754534622_2_alg».proof.Proof.ArcReal

set_option maxRecDepth 16384

noncomputable section

namespace Cert.ReferenceIdeal.ArcRef

open Cert.ReferenceIdeal Cert.ReferenceIdeal.Gen Cert.ReferenceIdeal.ReadP Cert.Arc
open Idealize.ShloMosaic Idealize.ShloMosaic.ValueIdx

variable (x0 : (⟨S2048x512, .f32⟩ : BufTy).Contents (Elt Ideal)) (x1 : (⟨S2048, .i32⟩ : BufTy).Contents (Elt Ideal))
  (x2 : (⟨S50000x512, .f32⟩ : BufTy).Contents (Elt Ideal))

/-- Entry `d` of embedding row `r` divided by the row's clamped norm: the sum of squares starts from the zero word, which
    is the extended real 0. -/
theorem ref_nrm0 (r : Fin 2048) (d : Fin 512) :
    val_main_v4 (F := Ideal) x0 (ix2 r d) = nrm (fun d => x0 (ix2 r d)) d := by
  have hi : ∀ k : Fin 512, idx_main_call0_v1 (idx_main_call0_v2 (idx_main_v3 (ix2 r d))) k = ix2 r k := fun k =>
    funext fun a => by match a with | ⟨0, _⟩ => rfl | ⟨1, _⟩ => rfl
  rw [val_main_v4_apply, val_main_v3_apply, val_main_v2_apply, val_main_v0_apply, val_main_v1_apply, val_main_cst_apply,
    val_main_call0_v2_apply, val_main_call0_v1_apply, val_main_call0_cst_apply]
  simp only [val_main_call0_v0_apply, hi, Ideal.hostDivf_def, Ideal.maximumf_def, Ideal.hostUnary_sqrt_def, Ideal.ofBits_def,
    Ideal.mulf_def, Ideal.ofBits_zero_f32, zero_add]
  rfl

/-- Entry `d` of class row `k` divided by the row's clamped norm. -/
theorem ref_nrm2 (k : Fin 50000) (d : Fin 512) :
    val_main_v9 (F := Ideal) x2 (ix2 k d) = nrm (fun d => x2 (ix2 k d)) d := by
  have hi : ∀ j : Fin 512, idx_main_call1_v1 (idx_main_call1_v2 (idx_main_v8 (ix2 k d))) j = ix2 k j := fun j =>
    funext fun a => by match a with | ⟨0, _⟩ => rfl | ⟨1, _⟩ => rfl
  rw [val_main_v9_apply, val_main_v8_apply, val_main_v7_apply, val_main_v5_apply, val_main_v6_apply, val_main_cst_0_apply,
    val_main_call1_v2_apply, val_main_call1_v1_apply, val_main_call1_cst_apply]
  simp only [val_main_call1_v0_apply, hi, Ideal.hostDivf_def, Ideal.maximumf_def, Ideal.hostUnary_sqrt_def, Ideal.ofBits_def,
    Ideal.mulf_def, Ideal.ofBits_zero_f32, zero_add]
  rfl

/-- The reference's clamped cosine of embedding row `r` and class row `k`. -/
theorem ref_cos (r : Fin 2048) (k : Fin 50000) : val_main_v12 (F := Ideal) x0 x2 (ix2 r k) = cosA x0 x2 r k := by
  have hl : ∀ d : Fin 512, lidx_main_v11 (ix2 r k) d = ix2 r d := fun d =>
    funext fun a => by match a with | ⟨0, _⟩ => rfl | ⟨1, _⟩ => rfl
  have hr : ∀ d : Fin 512, idx_main_v10 (ridx_main_v11 (ix2 r k) d) = ix2 k d := fun d =>
    funext fun a => by match a with | ⟨0, _⟩ => rfl | ⟨1, _⟩ => rfl
  rw [val_main_v12_apply, val_main_call2_v4_apply, val_main_call2_v3_apply, val_main_cst_2_apply, val_main_call2_v2_apply,
    val_main_call2_v1_apply, val_main_call2_v0_apply, val_main_cst_1_apply, val_main_v11_apply]
  simp only [val_main_v10_apply, hl, hr, ref_nrm0, ref_nrm2, Ideal.minimumf_def, Ideal.maximumf_def, Ideal.ofBits_def]
  rfl

/-- A one-bit word read as an unsigned number is 1 or 0: the equality test of two 32-bit words, converted to a float, is
    the indicator of their equality. -/
theorem oh_eq (a b : BitVec 32) : FloatOps.uitofp (F := Ideal) .f32 (IntOp.cmpi .eq a b) = ohE (a = b) := by
  show (((BitVec.ofBool (a == b)).toNat : ℝ) : EReal) = ohE (a = b)
  unfold ohE
  by_cases h : a = b
  · subst h; simp
  · have hb : (a == b) = false := by simpa using h
    rw [hb, if_neg h]; simp

/-- The reference's logit of row `r` at class `k`. -/
theorem ref_x (r : Fin 2048) (k : Fin 50000) :
    val_main_v36 (F := Ideal) x0 x1 x2 (ix2 r k) = xA x0 x2 (fun r => x1 (ix1 r)) r k := by
  have hlab : idx_main_call4_v0 (idx_main_call4_v2 (ix2 r k)) = ix1 r :=
    funext fun a => by match a with | ⟨0, _⟩ => rfl
  have hoh : val_main_v29 (F := Ideal) x1 (ix2 r k) = ohE (x1 (ix1 r) = BitVec.ofNat 32 k.val) := by
    rw [val_main_v29_apply, val_main_call4_v4_apply, val_main_call4_v2_apply, val_main_call4_v0_apply, val_main_call4_v3_apply,
      val_main_call4_v1_apply, hlab]
    exact oh_eq _ _
  rw [val_main_v36_apply, val_main_v35_apply, val_main_cst_10_apply, val_main_v34_apply, val_main_v32_apply, val_main_v33_apply,
    val_main_v31_apply, val_main_v30_apply, val_main_cst_9_apply, val_main_v28_apply, val_main_v25_apply, val_main_v24_apply,
    val_main_cst_7_apply, val_main_v23_apply, val_main_v20_apply, val_main_v19_apply, val_main_cst_5_apply, val_main_v22_apply,
    val_main_v21_apply, val_main_cst_6_apply, val_main_v18_apply, val_main_v17_apply, val_main_cst_4_apply, val_main_v16_apply,
    val_main_v15_apply, val_main_v14_apply, val_main_cst_3_apply, val_main_v13_apply, val_main_v27_apply, val_main_v26_apply,
    val_main_cst_8_apply]
  simp only [hoh, ref_cos]
  rfl

/-- The reference's second result is the specification's. -/
theorem ref_logits : val_main_v54 (F := Ideal) x0 x2 = logitsA x0 x2 := by
  funext i
  have h : val_main_v12 (F := Ideal) x0 x2 i = cosA x0 x2 ⟨(i 0).val, idx2_lt0 i⟩ ⟨(i 1).val, idx2_lt1 i⟩ :=
    (congrArg (val_main_v12 (F := Ideal) x0 x2) (eq_ix2 i)).trans (ref_cos x0 x2 (i 0) (i 1))
  rw [val_main_v54_apply, val_main_v53_apply, val_main_cst_17_apply, h]
  rfl

end Cert.ReferenceIdeal.ArcRef

end
-- ==== Proof.RefLossAt.lean ====
/-
  The reference's first result is the specification's.

  Row by row the reference subtracts the row's largest logit, takes the logarithm of the sum of the exponentials of
  the differences, reads the shifted log-probability at the row's label (a gather whose index is in range because
  the label is), negates it, adds zero times the mean of the row's log-probabilities — a real number, so the product
  is zero —, and averages over the 2048 rows. Every logit being real, the row's value is ArcMath's negative
  log-softmax `nllR` of the row at its label.
-/
import proofs.«430956_j65068754534622_2_alg».proof.Proof.RefCosAt
import Idealize.ShloMosaic.Lib.ReduceAll
import Idealize.ShloMosaic.Lib.StableHlo.Predicate

set_option maxRecDepth 16384

noncomputable section

namespace Cert.ReferenceIdeal.ArcRef

open Cert.ReferenceIdeal Cert.ReferenceIdeal.Gen Cert.ReferenceIdeal.ReadP Cert.Arc
open Idealize.ShloMosaic Idealize.ShloMosaic.ValueIdx

variable (x0 : (⟨S2048x512, .f32⟩ : BufTy).Contents (Elt Ideal)) (x1 : (⟨S2048, .i32⟩ : BufTy).Contents (Elt Ideal))
  (x2 : (⟨S50000x512, .f32⟩ : BufTy).Contents (Elt Ideal))

namespace Loss

/-- The pattern of negative infinity. -/
theorem ofBits_neg_inf : Ideal.ofBits .f32 0xFF800000#32 = (⊥ : EReal) := by
  simp [Ideal.ofBits, Ideal.ieee]

/-- The pattern of zero. -/
theorem ofBits_zero : Ideal.ofBits .f32 0x00000000#32 = (0 : EReal) := by
  simp [Ideal.ofBits, Ideal.ieee]

/-- The real logits of row `r`. -/
abbrev xr (r : Fin 2048) : ℕ → ℝ := xR x0 x2 (fun r => x1 (ix1 r)) r

theorem v36_at (r : Fin 2048) (k : Fin 50000) :
    val_main_v36 (F := Ideal) x0 x1 x2 (ix2 r k) = ((xr x0 x1 x2 r k.val : ℝ) : EReal) :=
  (ref_x x0 x1 x2 r k).trans (xA_eq_coe _ _ _ r k)

/-- A supremum over all of `Fin n` is the supremum over `range n`. -/
theorem sup_univ_fin_eq_sup_range (n : ℕ) (f : ℕ → EReal) :
    (Finset.univ : Finset (Fin n)).sup (fun k => f k.val) = (Finset.range n).sup f := by
  apply le_antisymm
  · exact Finset.sup_le fun k _ => Finset.le_sup (f := f) (Finset.mem_range.mpr k.isLt)
  · exact Finset.sup_le fun k hk =>
      Finset.le_sup (f := fun k : Fin n => f k.val) (Finset.mem_univ ⟨k, Finset.mem_range.mp hk⟩)

/-- The row maximum the reference computes is the real maximum of the row's logits. -/
theorem call5_v0_at (r : Fin 2048) :
    val_main_call5_v0 (F := Ideal) x0 x1 x2 (ix1 r) = ((Math.mR (xr x0 x1 x2 r) 50000 : ℝ) : EReal) := by
  have hx := v36_at x0 x1 x2 r
  unfold val_main_call5_v0
  generalize val_main_v36 (F := Ideal) x0 x1 x2 = y at hx
  refine (Host.reduce_eq_fold_single (FloatOps.maximumf (F := Ideal) (φ := .f32)) y (val_main_call5_cst (F := Ideal))
    reducesTo_S2048x50000_S2048_d1 (by decide) h_S_ (ix1 r)).trans ?_
  rw [← Math.mE_eq_coe _ (by norm_num : 0 < 50000)]
  unfold Math.mE
  rw [← sup_univ_fin_eq_sup_range]
  have hg : (y ∘ (by decide : S2048x50000.Reduces [1] S2048).lift (ix1 r))
      = fun k : Fin 50000 => ((xr x0 x1 x2 r k.val : ℝ) : EReal) := by
    funext k
    exact (congrArg y (funext fun a => Fin.ext (by match a with | ⟨0, _⟩ => rfl | ⟨1, _⟩ => rfl))).trans (hx k)
  rw [hg, val_main_call5_cst_apply, Ideal.ofBits_def, ofBits_neg_inf]
  rfl

/-- The largest logit of row `r`. -/
abbrev Mr (r : Fin 2048) : ℝ := Math.mR (xr x0 x1 x2 r) 50000

/-- The sum of the exponentials of the shifted logits of row `r`. -/
abbrev Sr (r : Fin 2048) : ℝ := ∑ k ∈ Finset.range 50000, Real.exp (xr x0 x1 x2 r k - Mr x0 x1 x2 r)

theorem Sr_pos (r : Fin 2048) : 0 < Sr x0 x1 x2 r := Math.lR_pos (xr x0 x1 x2 r) (by norm_num)

/-- The maximum the reference subtracts, at any column of row `r`: the maximum with negative infinity changes nothing. -/
theorem call5_v4_at (r : Fin 2048) (k : Fin 50000) :
    val_main_call5_v4 (F := Ideal) x0 x1 x2 (ix2 r k) = ((Mr x0 x1 x2 r : ℝ) : EReal) := by
  rw [val_main_call5_v4_apply, val_main_call5_v3_apply, val_main_call5_v2_apply, val_main_call5_v1_apply,
    val_main_call5_cst_0_apply]
  have e : idx_main_call5_v3 (idx_main_call5_v4 (ix2 r k)) = ix1 r :=
    funext fun a => Fin.ext (by match a with | ⟨0, _⟩ => rfl)
  rw [e, call5_v0_at, Ideal.maximumf_def, Ideal.ofBits_def, ofBits_neg_inf]
  exact max_bot_left _

/-- The shifted logit. -/
theorem call5_v5_at (r : Fin 2048) (k : Fin 50000) :
    val_main_call5_v5 (F := Ideal) x0 x1 x2 (ix2 r k) = ((xr x0 x1 x2 r k.val - Mr x0 x1 x2 r : ℝ) : EReal) := by
  rw [val_main_call5_v5_apply, v36_at, call5_v4_at, Ideal.subf_def, ← EReal.coe_sub]

/-- The sum of exponentials the reference forms is the real sum. -/
theorem call5_v7_at (r : Fin 2048) :
    val_main_call5_v7 (F := Ideal) x0 x1 x2 (ix1 r) = ((Sr x0 x1 x2 r : ℝ) : EReal) := by
  rw [val_main_call5_v7_apply, val_main_call5_cst_1_apply, Ideal.ofBits_def, ofBits_zero, zero_add]
  unfold Sr
  rw [← Fin.sum_univ_eq_sum_range (fun k => Real.exp (xr x0 x1 x2 r k - Mr x0 x1 x2 r)) 50000, coe_finset_sum]
  refine Finset.sum_congr rfl fun k _ => ?_
  have e : idx_main_call5_v7 (ix1 r) k = ix2 r k :=
    funext fun a => Fin.ext (by match a with | ⟨0, _⟩ => rfl | ⟨1, _⟩ => rfl)
  rw [e, val_main_call5_v6_apply, call5_v5_at, Ideal.hostUnary_exp_def, exp_coe]

/-- The log-probability of class `k` in row `r`. -/
theorem v37_at (r : Fin 2048) (k : Fin 50000) :
    val_main_v37 (F := Ideal) x0 x1 x2 (ix2 r k)
      = ((xr x0 x1 x2 r k.val - Mr x0 x1 x2 r - Real.log (Sr x0 x1 x2 r) : ℝ) : EReal) := by
  rw [val_main_v37_apply, call5_v5_at, val_main_call5_v10_apply, val_main_call5_v9_apply, val_main_call5_v8_apply]
  have e : idx_main_call5_v8 (idx_main_call5_v10 (ix2 r k)) = ix1 r :=
    funext fun a => Fin.ext (by match a with | ⟨0, _⟩ => rfl)
  rw [e, call5_v7_at, Ideal.hostUnary_log_def, log_coe (Sr_pos x0 x1 x2 r), Ideal.subf_def, ← EReal.coe_sub]

/-! ## The label side: the index the gather reads, and the in-range test -/

open Idealize.ShloMosaic.StableHlo.Predicate in
/-- A label below 50000 is not negative as a signed word, so the index the gather is given is the label itself. -/
theorem call6_v4_at (r : Fin 2048) (hl : (x1 (ix1 r)).toNat < 50000) (i : S2048x1.Idx) (hi : i 0 = r) :
    val_main_call6_v4 (F := Ideal) x1 i = x1 (ix1 r) := by
  have e38 : val_main_v38 (F := Ideal) x1 i = x1 (ix1 r) := by
    rw [val_main_v38_apply]
    exact congrArg x1 (funext fun a => by match a with | ⟨0, _⟩ => exact Fin.ext (congrArg Fin.val hi))
  rw [val_main_call6_v4_apply, val_main_call6_v1_apply, val_main_call6_v0_apply, val_main_call6_c_apply, e38]
  have hn : ¬ IntOp.cmpi .slt (x1 (ix1 r)) 0#32 = 1#1 := by
    rw [slt_iff_toNat (by omega) (by decide)]
    exact Nat.not_lt_zero _
  unfold Scalar.select
  exact if_neg hn

/-- The same after the reshape to three axes. -/
theorem call6_v5_at (r : Fin 2048) (hl : (x1 (ix1 r)).toNat < 50000) (i : S2048x1x1.Idx) (hi : i 0 = r) :
    val_main_call6_v5 (F := Ideal) x1 i = x1 (ix1 r) := by
  rw [val_main_call6_v5_apply]
  refine call6_v4_at x1 r hl _ ?_
  refine Fin.ext ?_
  have h1 : (i 1).val < 1 := (i 1).isLt
  have h2 : (i 2).val < 1 := (i 2).isLt
  show (((i 0).val * 1 + (i 1).val) * 1 + (i 2).val) / 1 = r.val
  rw [hi]; omega

open Idealize.ShloMosaic.StableHlo.Predicate in
/-- Every label being in range, the in-range test holds at every index. -/
theorem call6_v11_at (hlab : ∀ r : Fin 2048, (x1 (ix1 r)).toNat < 50000) (i : S2048x1x1.Idx) :
    val_main_call6_v11 (F := Ideal) x1 i = 1#1 := by
  have hl := hlab ⟨(i 0).val, (i 0).isLt⟩
  have e5 := call6_v5_at x1 ⟨(i 0).val, (i 0).isLt⟩ hl i rfl
  rw [val_main_call6_v11_apply, val_main_call6_v7_apply, val_main_call6_v10_apply, val_main_call6_v6_apply,
    val_main_call6_c_2_apply, val_main_call6_v9_apply, val_main_call6_v8_apply, val_main_call6_c_1_apply, e5]
  have h7 : IntOp.cmpi .sge (x1 (ix1 ⟨(i 0).val, (i 0).isLt⟩)) 0#32 = 1#1 := by
    rw [sge_iff_toNat (by omega) (by decide)]
    exact Nat.zero_le _
  have h10 : IntOp.cmpi .sle (x1 (ix1 ⟨(i 0).val, (i 0).isLt⟩)) 49999#32 = 1#1 := by
    rw [sle_iff_toNat (by omega) (by decide)]
    show _ ≤ 49999
    omega
  rw [h7, h10]
  rfl

/-- A reduction by `and` of an array of ones, from one, is one. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1) (hi : ∀ i, init i = 1#1) :
    Host.reduce IntOp.andi x init h hu j = 1#1 := by
  rw [Host.reduce_eq_foldl, hi]
  generalize (((List.finRange s.numel).map s.rowMajor.symm).filter fun i => h.drop i = j) = l
  induction l with
  | nil => rfl
  | cons a l ih => rw [List.foldl_cons, hx, show IntOp.andi 1#1 1#1 = 1#1 from by decide]; exact ih

theorem call6_v12_at (hlab : ∀ r : Fin 2048, (x1 (ix1 r)).toNat < 50000) (j : S2048x1.Idx) :
    val_main_call6_v12 (F := Ideal) x1 j = 1#1 := by
  unfold val_main_call6_v12
  exact reduce_andi_ones _ _ _ _ _ (call6_v11_at x1 hlab) (fun _ => rfl)

/-! ## The gather -/

/-- The gather of `take_along_axis` read at row `r`: the operand's row `r` at the start index of that row, read
    signed and clamped into the row. -/
theorem gather_at (x : S2048x50000.Idx → EReal) (idx : IVec S2048x1x1 32) (r : Fin 2048) :
    Host.gather gather_S2048x50000_S2048x1x1_S2048x1_n_1_0_0_1_2_11 x idx (ix2 r (0 : Fin 1))
      = x (ix2 r ⟨min (idx (ix3 r (0 : Fin 1) (0 : Fin 1))).toInt.toNat 49999, by omega⟩) := by
  unfold Host.gather
  congr 1
  funext a
  refine Fin.ext ?_
  match a with
  | ⟨0, _⟩ =>
    -- the batching axis: the row of the result
    show GatherDims.start _ _ idx 0 + GatherDims.batchCoord _ _ 0 + GatherDims.offCoord _ _ 0 = r.val
    rw [GatherDims.start_batching _ _ _ _
        (show (0 : Fin 2) ∈ gather_S2048x50000_S2048x1x1_S2048x1_n_1_0_0_1_2_11.operandBatchingDims from
          List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin 2) ∈ gather_S2048x50000_S2048x1x1_S2048x1_n_1_0_0_1_2_11.operandBatchingDims from
      List.mem_singleton.mpr rfl)]
    rfl
  | ⟨1, _⟩ =>
    -- the collapsed, start-indexed axis: the clamped start index
    show GatherDims.start _ _ idx 1 + GatherDims.batchCoord _ _ 1 + GatherDims.offCoord _ _ 1 = _
    rw [GatherDims.batchCoord_eq_zero _ _ _
        (show (1 : Fin 2) ∉ gather_S2048x50000_S2048x1x1_S2048x1_n_1_0_0_1_2_11.operandBatchingDims from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2048x50000_S2048x1x1_S2048x1_n_1_0_0_1_2_11.startIndexMap from
      List.mem_singleton.mpr rfl)]
    have hsi : gather_S2048x50000_S2048x1x1_S2048x1_n_1_0_0_1_2_11.siIdx (ix2 r (0 : Fin 1))
        ⟨List.idxOf (1 : Fin 2) gather_S2048x50000_S2048x1x1_S2048x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## The row's loss -/

/-- A word below 50000 read as a signed integer is its value. -/
theorem toInt_toNat_of_lt {w : BitVec 32} (h : w.toNat < 50000) : w.toInt.toNat = w.toNat := by
  rw [BitVec.toInt_eq_toNat_of_lt (by omega)]
  exact Int.toNat_natCast _

/-- The pattern of one. -/
theorem ofBits_one : Ideal.ofBits .f32 0x3F800000#32 = (1 : EReal) := oneC_eq_one

/-- What `take_along_axis` returns for row `r`: the row's log-probability at its label. -/
theorem v39_at (hlab : ∀ r : Fin 2048, (x1 (ix1 r)).toNat < 50000) (r : Fin 2048) :
    val_main_v39 (F := Ideal) x0 x1 x2 (ix2 r (0 : Fin 1))
      = ((xr x0 x1 x2 r (x1 (ix1 r)).toNat - Mr x0 x1 x2 r - Real.log (Sr x0 x1 x2 r) : ℝ) : EReal) := by
  rw [val_main_v39_apply, call6_v12_at x1 hlab, select_one]
  unfold val_main_call6_v13
  refine (gather_at _ _ r).trans ?_
  refine (congrArg (val_main_v37 (F := Ideal) x0 x1 x2)
    (?_ : _ = ix2 r (⟨(x1 (ix1 r)).toNat, hlab r⟩ : Fin 50000))).trans (v37_at x0 x1 x2 r ⟨_, hlab r⟩)
  funext a
  match a with
  | ⟨0, _⟩ => rfl
  | ⟨1, _⟩ =>
    refine Fin.ext ?_
    show min (val_main_call6_v5 (F := Ideal) x1 (ix3 r (0 : Fin 1) (0 : Fin 1))).toInt.toNat 49999 = (x1 (ix1 r)).toNat
    rw [call6_v5_at x1 r (hlab r) _ rfl, toInt_toNat_of_lt (hlab r)]
    have := hlab r
    omega

/-- The vector the reference averages, at row `r`. -/
theorem v50_at (hlab : ∀ r : Fin 2048, (x1 (ix1 r)).toNat < 50000) (r : Fin 2048) :
    val_main_v50 (F := Ideal) x0 x1 x2 (ix1 r) = ((nllRow x0 x2 (fun r => x1 (ix1 r)) r : ℝ) : EReal) := by
  -- the label term: one times the negated log-probability at the label
  have h47 : val_main_v47 (F := Ideal) x0 x1 x2 (ix1 r)
      = ((-(xr x0 x1 x2 r (x1 (ix1 r)).toNat - Mr x0 x1 x2 r - Real.log (Sr x0 x1 x2 r)) : ℝ) : EReal) := by
    rw [val_main_v47_apply, val_main_v46_apply, val_main_cst_13_apply, val_main_v41_apply, val_main_v40_apply]
    have e : idx_main_v40 (ix1 r) = ix2 r (0 : Fin 1) :=
      funext fun a => by match a with | ⟨0, _⟩ => exact Fin.ext (Nat.div_one _) | ⟨1, _⟩ => rfl
    rw [e, v39_at x0 x1 x2 hlab, Ideal.hostNegf_def, Ideal.negf_def, Ideal.mulf_def, Ideal.ofBits_def, ofBits_one,
      one_mul, ← EReal.coe_neg]
  -- the smoothing term: zero times anything
  have h49 : val_main_v49 (F := Ideal) x0 x1 x2 (ix1 r) = 0 := by
    rw [val_main_v49_apply, val_main_v48_apply, val_main_cst_14_apply, Ideal.mulf_def, Ideal.ofBits_def, ofBits_zero,
      zero_mul]
  rw [val_main_v50_apply, h47, h49, Ideal.addf_def, add_zero]
  rfl

end Loss

/-- The vector the reference averages: per row, the negative log-softmax of the row's logits at its label. -/
theorem ref_nll (hlab : ∀ r : Fin 2048, (x1 (ix1 r)).toNat < 50000) :
    val_main_v50 (F := Ideal) x0 x1 x2 = nllVec x0 x2 (fun r => x1 (ix1 r)) := by
  funext i
  obtain ⟨a, rfl⟩ : ∃ a, i = ix1 a := ⟨i 0, eq_ix1 i⟩
  exact Loss.v50_at x0 x1 x2 hlab a

/-- The reference's first result. -/
theorem ref_loss (hlab : ∀ r : Fin 2048, (x1 (ix1 r)).toNat < 50000) :
    val_main_v52 (F := Ideal) x0 x1 x2 = lossA x0 x2 (fun r => x1 (ix1 r)) reducesTo_S2048_S_d0 h_S_ := by
  unfold val_main_v52 val_main_v51 lossA
  rw [ref_nll x0 x1 x2 hlab]
  rfl

end Cert.ReferenceIdeal.ArcRef

end
-- ==== Proof.PreLabel.lean ====
/-
  The precondition bounds the labels.

  The printed precondition is the conjunction of three all-reductions: every embedding entry finite, every class-row
  entry finite, and every label word at least 0 and below 50000 as a signed integer. From its being all ones this
  module extracts the third: every label, read as a natural number, is below 50000.
-/
import proofs.«430956_j65068754534622_2_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Proof.ArcPre

open Idealize.ShloMosaic Idealize.ShloMosaic.ValueIdx Cert.Pre_finite_inputs

/-- A 32-bit word whose signed value is at least that of the word 0 and below that of the word 50000 is, read
    as a natural number, below 50000: a non-negative signed value is the unsigned one. -/
theorem toNat_lt_of_signed_range (w : BitVec 32) (h0 : (0#32 : BitVec 32).toInt ≤ w.toInt)
    (h1 : w.toInt < (50000#32 : BitVec 32).toInt) : w.toNat < 50000 := by
  have e0 : (0#32 : BitVec 32).toInt = 0 := by decide
  have e1 : (50000#32 : BitVec 32).toInt = 50000 := by decide
  have hc := BitVec.toInt_eq_toNat_cond w
  have hw := w.isLt
  rw [e0] at h0
  rw [e1] at h1
  split at hc <;> omega

/-- If the printed precondition is all ones, every label word is a class number. -/
theorem label_lt_of_pre [Cert.Pre_finite_inputs.Facts] (a0 : FVec Ideal S2048x512 .f32) (a1 : IVec S2048 32) (a2 : FVec Ideal S50000x512 .f32)
    (h : Cert.Pre_finite_inputs.fn (F := Ideal) a0 a1 a2 = fun _ => 1#1) (r : Fin 2048) : (a1 (ix1 r)).toNat < 50000 := by
  -- the function at its one index is the conjunction of the three reductions; keep the third
  have hall := congrFun h ix0
  unfold Cert.Pre_finite_inputs.fn at hall
  have h14 := (IntOp.andi_eq_one.1 hall).2
  -- the third is a conjunction over every label: read it at label `r`
  haveI : Subsingleton S_.Idx := ⟨fun a b => funext fun d => d.elim0⟩
  have h13 := Host.reduce_andi_all _ _ Facts.reducesTo_S2048_S_d0 Facts.h_S_ ix0 h14 (ix1 r)
  obtain ⟨hge, hlt⟩ := IntOp.andi_eq_one.1 h13
  -- each bound is a scalar word broadcast over the labels
  have b0 : broadcastInDim S2048 ![] Facts.bcast_S_S2048 (constantI S_ 32 0#32) (ix1 r) = 0#32 :=
    StableHlo.Predicate.bcast_scalar Facts.bcast_S_S2048 Facts.h_S_ _ _
  have b1 : broadcastInDim S2048 ![] Facts.bcast_S_S2048 (constantI S_ 32 50000#32) (ix1 r) = 50000#32 :=
    StableHlo.Predicate.bcast_scalar Facts.bcast_S_S2048 Facts.h_S_ _ _
  have hge' : IntOp.cmpi .sge (a1 (ix1 r)) 0#32 = 1#1 := (congrArg (IntOp.cmpi .sge (a1 (ix1 r))) b0).symm.trans hge
  have hlt' : IntOp.cmpi .slt (a1 (ix1 r)) 50000#32 = 1#1 := (congrArg (IntOp.cmpi .slt (a1 (ix1 r))) b1).symm.trans hlt
  exact toNat_lt_of_signed_range _ (IntOp.cmpi_sge.1 hge') (IntOp.cmpi_slt.1 hlt')

end Cert.Proof.ArcPre

end
-- ==== Proof.lean ====
/-
  The proof of `Cert.Claim`: the kernel streams the class axis in 49 tiles of 1024 columns, keeping per row a running
  maximum, a running sum of shifted exponentials and a running pick of the label's logit, and ends each row with
  maximum + log(sum) − pick; the reference takes the whole row's log-softmax and gathers it at the label. Over the
  extended reals the two agree because every cosine is clamped strictly inside (−1, 1), so every logit is a real
  number and `exp (a − b) = exp (a − c) · exp (c − b)` advances the running sum; the columns past the last class
  carry the bottom element (the kernel's fill constant, named −∞ by the certificate's table), whose exponential is 0
  and which a maximum ignores; and the labels are class numbers by the precondition, so the indicator of a column
  past the last class is 0 and the reference's gather reads inside its array.

  The modules: ArcMath (the streamed log-sum-exp over ℝ), ArcSpec and ArcReal (what both programs compute, as
  extended reals and as reals), KStep / KCosAt / KRowAt / KSoftAt (one grid point of the idealized kernel as a step on
  what it carries, read at an index), KBlocks (the windows' blocks as parts of the arrays), KDat (the idealized
  kernel's run with its results named), BitsFrame (the word-level kernel's frame), RefRunP / RefReadP / RefRun (the
  reference's run and its operations read at an index), RefCosAt / RefLossAt (the reference's results are the
  specification's), PreLabel (the precondition bounds the labels).
-/
import proofs.«430956_j65068754534622_2_alg».proof.Defs
import proofs.«430956_j65068754534622_2_alg».proof.Proof.Gen.Kernel
import proofs.«430956_j65068754534622_2_alg».proof.Proof.Gen.KernelIdeal
import proofs.«430956_j65068754534622_2_alg».proof.Proof.Gen.ReferenceIdeal
import proofs.«430956_j65068754534622_2_alg».proof.Proof.Gen.Pre_finite_inputs
import proofs.«430956_j65068754534622_2_alg».proof.Proof.BitsFrame
import proofs.«430956_j65068754534622_2_alg».proof.Proof.KDat
import proofs.«430956_j65068754534622_2_alg».proof.Proof.RefRun
import proofs.«430956_j65068754534622_2_alg».proof.Proof.RefLossAt
import proofs.«430956_j65068754534622_2_alg».proof.Proof.PreLabel
import Idealize.ShloMosaic.Adequacy
import Idealize.ShloMosaic.Init

noncomputable section

namespace Cert.Proof

open Idealize.ShloMosaic Idealize.ShloMosaic.ValueIdx Idealize.SL.Sem

/-- Under the precondition every label of the idealized kernel's launch memory is a class number. -/
theorem labels_in_range (m : (ℓ : Loc Cert.KernelIdeal.nD Cert.KernelIdeal.τ Cert.KernelIdeal.sig) → Buf (Elt Ideal) ℓ)
    (hpre : Cert.Pre_KernelIdeal m) (c : Dev Cert.KernelIdeal.nD) (r : Fin 2048) :
    (Cert.KernelIdeal.Arc.labOf m c r).toNat < 50000 :=
  ArcPre.label_lt_of_pre _ _ _ (hpre c) r

/-- The word-level kernel's frame. -/
theorem frame_k : Cert.frame_Kernel := fun m ρ _ => Cert.Kernel.ArcFrame.frame (F := Bits) m ρ

/-- The idealized kernel's frame: its run with the results named, the results dropped. -/
theorem frame_ki : Cert.frame_KernelIdeal := fun m ρ hpre =>
  (θ_run Cert.KernelIdeal.defs _ _).mono (fun _ h c => (h c).2.2)
    (Cert.KernelIdeal.Arc.run_values m ρ (labels_in_range m hpre))

/-- The reference's frame: its run, the results dropped. -/
theorem frame_ri : Cert.frame_ReferenceIdeal := fun m ρ _ =>
  (θ_run Cert.ReferenceIdeal.defs _ _).mono (fun _ h c => (h c).2.2) (Cert.ReferenceIdeal.ArcRun.run (F := Ideal) m ρ)

/-- The ledger's one entry: the certificate's table gives the fill constant's name the value −∞. -/
theorem preserves : Cert.preserves_Kernel_KernelIdeal :=
  IdealRules.named_const.statement Cert.KernelIdeal.κ "neg_big" .f32 0xFF333332#32 ⊥ rfl

/-- Both idealized programs end with the specification's two results of arguments that agree. -/
theorem algebraic : Cert.algebraic_KernelIdeal_ReferenceIdeal := by
  intro m ρ m' ρ' hpre hagree
  have hlab := labels_in_range m hpre
  refine ⟨_, _, Cert.KernelIdeal.Arc.run_values m ρ hlab, ?_⟩
  refine (θ_run Cert.ReferenceIdeal.defs _ _).mono (fun _ h c => ⟨(h c).1.trans ?_, (h c).2.1.trans ?_, (h c).2.2⟩)
    (Cert.ReferenceIdeal.ArcRun.run (F := Ideal) m' ρ')
  · rw [(hagree c).1, (hagree c).2.1, (hagree c).2.2]
    exact Cert.ReferenceIdeal.ArcRef.ref_loss _ _ _ (hlab c)
  · rw [(hagree c).1, (hagree c).2.2]
    exact Cert.ReferenceIdeal.ArcRef.ref_logits _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
